-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S32000x2048 : Shape := ⟨2, ![32000, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_

variable [Facts]

def fn_part1 {F : FTy → Type} [FloatOps F] (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S32000x2048 .f32) (main_arg3 : FVec F S32000x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S32000x2048 .f32 := Host.absf main_arg2
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg3
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_v13 main_v16
-- ==== Kernel.lean ====
abbrev S4096x2048 : Shape := ⟨2, ![4096, 2048]⟩
abbrev S32000x2048 : Shape := ⟨2, ![32000, 2048]⟩
abbrev S4096x1 : Shape := ⟨2, ![4096, 1]⟩
abbrev S512x2048 : Shape := ⟨2, ![512, 2048]⟩
abbrev S256x2048 : Shape := ⟨2, ![256, 2048]⟩
abbrev S512x1 : Shape := ⟨2, ![512, 1]⟩
abbrev S512x256 : Shape := ⟨2, ![512, 256]⟩
abbrev S512 : Shape := ⟨1, ![512]⟩
abbrev S_ : Shape := ⟨0, ![]⟩

abbrev nBuf : Space → Nat
  | .hbm => 11
  | .vmem => 31
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S32000x2048, .f32⟩
  | .hbm, ⟨3, _⟩ => ⟨S32000x2048, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S256x2048, .f32⟩
  | .local _ .vmem, ⟨3, _⟩ => ⟨S256x2048, .f32⟩
  | .local _ .vmem, ⟨4, _⟩ => ⟨S512x2048, .f32⟩
  | .local _ .vmem, ⟨5, _⟩ => ⟨S512x2048, .f32⟩
  | .local _ .vmem, ⟨6, _⟩ => ⟨S256x2048, .f32⟩
  | .local _ .vmem, ⟨7, _⟩ => ⟨S256x2048, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x2048, .f32⟩
  | .local _ .vmem, ⟨17, _⟩ => ⟨S512x2048, .f32⟩
  | .local _ .vmem, ⟨18, _⟩ => ⟨S256x2048, .f32⟩
  | .local _ .vmem, ⟨19, _⟩ => ⟨S256x2048, .f32⟩
  | .local _ .vmem, ⟨20, _⟩ => ⟨S512x2048, .f32⟩
  | .local _ .vmem, ⟨21, _⟩ => ⟨S512x2048, .f32⟩
  | .local _ .vmem, ⟨22, _⟩ => ⟨S256x2048, .f32⟩
  | .local _ .vmem, ⟨23, _⟩ => ⟨S256x2048, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![8, 125], ![false, false]⟩

def k0_cond2 (i : grid0.Coords) : BitVec 1 :=
  let arg1 : BitVec 32 := BitVec.ofNat 32 (i 1).val
  let c124_i32 : BitVec 32 := 124#32
  let v59 : BitVec 1 := Scalar.cmpi .eq arg1 c124_i32
  let v60 : BitVec 32 := Scalar.extui v59
  let c0_i32_35 : BitVec 32 := 0#32
  let v61 : BitVec 1 := Scalar.cmpi .ne v60 c0_i32_35
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 125], ![false, false]⟩

def k1_cond2 (i : grid1.Coords) : BitVec 1 :=
  let arg1 : BitVec 32 := BitVec.ofNat 32 (i 1).val
  let c124_i32 : BitVec 32 := 124#32
  let v49 : BitVec 1 := Scalar.cmpi .eq arg1 c124_i32
  let v50 : BitVec 32 := Scalar.extui v49
  let c0_i32_24 : BitVec 32 := 0#32
  let v51 : BitVec 1 := Scalar.cmpi .ne v50 c0_i32_24
  v51

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  reduces_S512x256_S512 : S512x256.Reduces [1] S512
  shapeCasts_S512_S512x1 : S512.ShapeCasts S512x1
  broadcasts_S512x1_S512x256 : S512x1.Broadcasts S512x256
  reducesTo_S4096x1_S_d0_1 : S4096x1.ReducesTo [0, 1] S_
  h_S_ : 0 < S_.numel
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32000x2048.size a
  hwx0_1 : ∀ i : grid0.Coords, EltTy.bits .f32 = 32 ∨ (Rect.block (s := S32000x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S32000x2048.size a
  hwx0_3 : ∀ i : grid0.Coords, EltTy.bits .f32 = 32 ∨ (Rect.block (s := S32000x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S32000x2048.size a
  hwx1_1 : ∀ i : grid1.Coords, EltTy.bits .f32 = 32 ∨ (Rect.block (s := S32000x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x2048.size a
  hwx1_2 : ∀ i : grid1.Coords, EltTy.bits .f32 = 32 ∨ (Rect.block (s := S4096x2048) S512x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S32000x2048.size a
  hwx1_3 : ∀ i : grid1.Coords, EltTy.bits .f32 = 32 ∨ (Rect.block (s := S32000x2048) S256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x2048 : Shape := ⟨2, ![4096, 2048]⟩
abbrev S32000x2048 : Shape := ⟨2, ![32000, 2048]⟩
abbrev S4096x32000 : Shape := ⟨2, ![4096, 32000]⟩
abbrev S_ : Shape := ⟨0, ![]⟩
abbrev S4096 : Shape := ⟨1, ![4096]⟩
abbrev S4096x1 : Shape := ⟨2, ![4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S32000x2048, .f32⟩
  | .hbm, ⟨3, _⟩ => ⟨S32000x2048, .f32⟩
  | .hbm, ⟨4, _⟩ => ⟨S4096x32000, .f32⟩
  | .hbm, ⟨5, _⟩ => ⟨S_, .f32⟩
  | .hbm, ⟨6, _⟩ => ⟨S4096x32000, .f32⟩
  | .hbm, ⟨7, _⟩ => ⟨S4096x32000, .f32⟩
  | .hbm, ⟨8, _⟩ => ⟨S4096x32000, .f32⟩
  | .hbm, ⟨9, _⟩ => ⟨S_, .f32⟩
  | .hbm, ⟨10, _⟩ => ⟨S4096x32000, .f32⟩
  | .hbm, ⟨11, _⟩ => ⟨S4096x32000, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x32000, .f32⟩
  | .hbm, ⟨19, _⟩ => ⟨S4096x32000, .f32⟩
  | .hbm, ⟨20, _⟩ => ⟨S4096x32000, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S4096x32000, .f32⟩
  | .hbm, ⟨26, _⟩ => ⟨S4096x32000, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x32000, .f32⟩
  | .hbm, ⟨34, _⟩ => ⟨S4096x32000, .f32⟩
  | .hbm, ⟨35, _⟩ => ⟨S4096x32000, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1, .f32⟩
  | .hbm, ⟨40, _⟩ => ⟨S4096x32000, .f32⟩
  | .hbm, ⟨41, _⟩ => ⟨S4096x32000, .f32⟩
  | .hbm, ⟨42, _⟩ => ⟨S4096x32000, .f32⟩
  | .hbm, ⟨43, _⟩ => ⟨S4096x32000, .f32⟩
  | .hbm, ⟨44, _⟩ => ⟨S_, .f32⟩
  | .hbm, ⟨45, _⟩ => ⟨S4096x32000, .f32⟩
  | .hbm, ⟨46, _⟩ => ⟨S4096x32000, .f32⟩
  | .hbm, ⟨47, _⟩ => ⟨S_, .f32⟩
  | .hbm, ⟨48, _⟩ => ⟨S4096x32000, .f32⟩
  | .hbm, ⟨49, _⟩ => ⟨S4096x32000, .f32⟩
  | .hbm, ⟨50, _⟩ => ⟨S4096x32000, .f32⟩
  | .hbm, ⟨51, _⟩ => ⟨S4096x32000, .f32⟩
  | .hbm, ⟨52, _⟩ => ⟨S4096x32000, .f32⟩
  | .hbm, ⟨53, _⟩ => ⟨S4096x32000, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x32000, .f32⟩
  | .hbm, ⟨59, _⟩ => ⟨S4096x32000, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v6 : Ref sig .tc := ⟨.hbm, 26, rfl⟩
abbrev main_call1_cst : Ref sig .tc := ⟨.hbm, 27, rfl⟩
abbrev main_call1_v0 : Ref sig .tc := ⟨.hbm, 28, rfl⟩
abbrev main_call1_cst_0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_cst_1 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_1 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_cst_4 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_5 : Ref sig .tc := ⟨.hbm, 60, rfl⟩
abbrev main_v22 : Ref sig .tc := ⟨.hbm, 61, rfl⟩
abbrev main_cst_6 : Ref sig .tc := ⟨.hbm, 62, rfl⟩
abbrev main_v23 : Ref sig .tc := ⟨.hbm, 63, rfl⟩
abbrev main_v24 : Ref sig .tc := ⟨.hbm, 64, rfl⟩
abbrev main_cst_7 : Ref sig .tc := ⟨.hbm, 65, rfl⟩
abbrev main_v25 : Ref sig .tc := ⟨.hbm, 66, rfl⟩

abbrev nD : Nat := 1
abbrev τ : Topo := Topo.v7x

variable {F : FTy → Type} [FloatOps F]

class Facts₀ : Prop where
  bcast_S_S4096x32000 : S_.BroadcastsInDim S4096x32000 (![] : Fin 0 → Fin S4096x32000.rank)
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  reducesTo_S4096x32000_S_d0_1 : S4096x32000.ReducesTo [0, 1] S_
  dot_S4096x2048_S32000x2048_S4096x32000_1_1_0_0_n_n_wf : DotDims.WF S4096x2048 S32000x2048 S4096x32000 [1] [1] [0] [0] [] []

variable [Facts₀]

def dot_S4096x2048_S32000x2048_S4096x32000_1_1_0_0_n_n : DotDims S4096x2048 S32000x2048 S4096x32000 where
  lhsContracting := [1]
  rhsContracting := [1]
  lhsNonContracting := [0]
  rhsNonContracting := [0]
  lhsBatch := []
  rhsBatch := []
  wf := dot_S4096x2048_S32000x2048_S4096x32000_1_1_0_0_n_n_wf

class Facts : Prop extends Facts₀ where

variable [Facts]
-- ==== Proof.RefFrame.lean ====
/-
  The reference program has no kernel: its run is the generated read-back of its host operations, and its frame
  (the run terminates, nothing faults, the four argument arrays end as launched) is that run with the result dropped.
-/
import proofs.«126184_j41180146434370_1_alg».proof.Defs
import proofs.«126184_j41180146434370_1_alg».proof.Proof.Gen.Pre_finite_inputs
import proofs.«126184_j41180146434370_1_alg».proof.Proof.RefRunP
import proofs.«126184_j41180146434370_1_alg».proof.Proof.RefReadP

noncomputable section

open Idealize.ShloMosaic Idealize.ShloMosaic.TcCoe Idealize.SL.Sem

namespace Cert.Proof.RefSide

/-- Every weakly fair execution of the reference ends, faults nowhere, and leaves its arguments as launched. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.Proof.RefSide

end
-- ==== Proof.RefFold.lean ====
/-
  The reference's 63 operations, folded over the buffers' contents, leave in the result buffer the last read-at-an-index
  stage applied to the four arguments.

  The list is cut into four stretches: the eight operations that form the two logit arrays, the fifteen of the
  student's log-softmax, the fifteen of the teacher's, and the twenty-five that combine the two log-softmax arrays into
  the loss. Folding a concatenation is folding its parts in turn. Over an arbitrary entry valuation each stretch is
  read only at the one or two buffers later stretches use: what it leaves there is its own stages applied to what it
  found in the buffers it reads, and a buffer it does not write keeps its contents. Chaining the four facts names the
  result by the stages, and no term ever holds more than one stretch's operations.
-/
import proofs.«126184_j41180146434370_1_alg».proof.Proof.RefRunP
import proofs.«126184_j41180146434370_1_alg».proof.Proof.RefReadP
import Idealize.ShloMosaic.Lib.StableHlo.Run
import Idealize.ShloMosaic.Lib.Pipeline.Frame

set_option maxRecDepth 16384

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The eight operations that form the student's and the teacher's logit arrays from the four arguments. -/
abbrev opsA : List (HloOp τ sig (Elt F)) :=
  [ binary main_arg0 main_arg2 main_v0 ((fun l r => Host.dotGeneral dot_S4096x2048_S32000x2048_S4096x32000_1_1_0_0_n_n none l r) : (⟨S4096x2048, .f32⟩ : BufTy).Contents (Elt F) → (⟨S32000x2048, .f32⟩ : BufTy).Contents (Elt F) → (⟨S4096x32000, .f32⟩ : BufTy).Contents (Elt F)),
    nullary main_cst (constant S_ .f32 0x3F800000#32),
    unary main_cst main_v1 (broadcastInDim S4096x32000 ![] bcast_S_S4096x32000 : (⟨S_, .f32⟩ : BufTy).Contents (Elt F) → (⟨S4096x32000, .f32⟩ : BufTy).Contents (Elt F)),
    binary main_v0 main_v1 main_v2 (Host.divf : (⟨S4096x32000, .f32⟩ : BufTy).Contents (Elt F) → (⟨S4096x32000, .f32⟩ : BufTy).Contents (Elt F) → (⟨S4096x32000, .f32⟩ : BufTy).Contents (Elt F)),
    binary main_arg1 main_arg3 main_v3 ((fun l r => Host.dotGeneral dot_S4096x2048_S32000x2048_S4096x32000_1_1_0_0_n_n none l r) : (⟨S4096x2048, .f32⟩ : BufTy).Contents (Elt F) → (⟨S32000x2048, .f32⟩ : BufTy).Contents (Elt F) → (⟨S4096x32000, .f32⟩ : BufTy).Contents (Elt F)),
    nullary main_cst_0 (constant S_ .f32 0x3F800000#32),
    unary main_cst_0 main_v4 (broadcastInDim S4096x32000 ![] bcast_S_S4096x32000 : (⟨S_, .f32⟩ : BufTy).Contents (Elt F) → (⟨S4096x32000, .f32⟩ : BufTy).Contents (Elt F)),
    binary main_v3 main_v4 main_v5 (Host.divf : (⟨S4096x32000, .f32⟩ : BufTy).Contents (Elt F) → (⟨S4096x32000, .f32⟩ : BufTy).Contents (Elt F) → (⟨S4096x32000, .f32⟩ : BufTy).Contents (Elt F)) ]

/-- The student's log-softmax: fifteen operations from the student's logits. -/
abbrev opsB0 : List (HloOp τ sig (Elt F)) :=
  [ TRef.nullary (TRef.of (T := ⟨S_, .f32⟩) main_call0_cst) (constant S_ .f32 0xFF800000#32),
    TRef.binary (TRef.of (T := ⟨S4096x32000, .f32⟩) main_v2) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v2) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v6) subf ]

/-- The teacher's log-softmax: fifteen operations from the teacher's logits. -/
abbrev opsB1 : List (HloOp τ sig (Elt F)) :=
  [ TRef.nullary (TRef.of (T := ⟨S_, .f32⟩) main_call1_cst) (constant S_ .f32 0xFF800000#32),
    TRef.binary (TRef.of (T := ⟨S4096x32000, .f32⟩) main_v5) (TRef.of (T := ⟨S_, .f32⟩) main_call1_cst) (TRef.of (T := ⟨S4096, .f32⟩) main_call1_v0) (fun x v => Host.reduce FloatOps.maximumf x v reducesTo_S4096x32000_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x32000, .f32⟩) main_call1_v4) (broadcastInDim S4096x32000 ![0, 1] bcast_S4096x1_S4096x32000_0_1),
    TRef.binary (TRef.of (T := ⟨S4096x32000, .f32⟩) main_v5) (TRef.of (T := ⟨S4096x32000, .f32⟩) main_call1_v4) (TRef.of (T := ⟨S4096x32000, .f32⟩) main_call1_v5) subf,
    TRef.unary (TRef.of (T := ⟨S4096x32000, .f32⟩) main_call1_v5) (TRef.of (T := ⟨S4096x32000, .f32⟩) main_call1_v6) Host.exp,
    TRef.nullary (TRef.of (T := ⟨S_, .f32⟩) main_call1_cst_1) (constant S_ .f32 0x00000000#32),
    TRef.binary (TRef.of (T := ⟨S4096x32000, .f32⟩) main_call1_v6) (TRef.of (T := ⟨S_, .f32⟩) main_call1_cst_1) (TRef.of (T := ⟨S4096, .f32⟩) main_call1_v7) (fun x v => Host.reduceAdd x v reducesTo_S4096x32000_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x32000, .f32⟩) main_call1_v10) (broadcastInDim S4096x32000 ![0, 1] bcast_S4096x1_S4096x32000_0_1),
    TRef.binary (TRef.of (T := ⟨S4096x32000, .f32⟩) main_call1_v5) (TRef.of (T := ⟨S4096x32000, .f32⟩) main_call1_v10) (TRef.of (T := ⟨S4096x32000, .f32⟩) main_v7) subf ]

/-- The twenty-five operations from the two log-softmax arrays to the loss. -/
abbrev opsC : List (HloOp τ sig (Elt F)) :=
  [ unary main_v7 main_v8 (Host.exp : (⟨S4096x32000, .f32⟩ : BufTy).Contents (Elt F) → (⟨S4096x32000, .f32⟩ : BufTy).Contents (Elt F)),
    unary main_v6 main_v9 (Host.exp : (⟨S4096x32000, .f32⟩ : BufTy).Contents (Elt F) → (⟨S4096x32000, .f32⟩ : BufTy).Contents (Elt F)),
    nullary main_cst_1 (constant S_ .f32 0x3F000000#32),
    unary main_cst_1 main_v10 (broadcastInDim S4096x32000 ![] bcast_S_S4096x32000 : (⟨S_, .f32⟩ : BufTy).Contents (Elt F) → (⟨S4096x32000, .f32⟩ : BufTy).Contents (Elt F)),
    binary main_v10 main_v8 main_v11 (mulf : (⟨S4096x32000, .f32⟩ : BufTy).Contents (Elt F) → (⟨S4096x32000, .f32⟩ : BufTy).Contents (Elt F) → (⟨S4096x32000, .f32⟩ : BufTy).Contents (Elt F)),
    nullary main_cst_2 (constant S_ .f32 0x3F000000#32),
    unary main_cst_2 main_v12 (broadcastInDim S4096x32000 ![] bcast_S_S4096x32000 : (⟨S_, .f32⟩ : BufTy).Contents (Elt F) → (⟨S4096x32000, .f32⟩ : BufTy).Contents (Elt F)),
    binary main_v12 main_v9 main_v13 (mulf : (⟨S4096x32000, .f32⟩ : BufTy).Contents (Elt F) → (⟨S4096x32000, .f32⟩ : BufTy).Contents (Elt F) → (⟨S4096x32000, .f32⟩ : BufTy).Contents (Elt F)),
    binary main_v11 main_v13 main_v14 (addf : (⟨S4096x32000, .f32⟩ : BufTy).Contents (Elt F) → (⟨S4096x32000, .f32⟩ : BufTy).Contents (Elt F) → (⟨S4096x32000, .f32⟩ : BufTy).Contents (Elt F)),
    unary main_v14 main_v15 (Host.log : (⟨S4096x32000, .f32⟩ : BufTy).Contents (Elt F) → (⟨S4096x32000, .f32⟩ : BufTy).Contents (Elt F)),
    binary main_v7 main_v15 main_v16 (subf : (⟨S4096x32000, .f32⟩ : BufTy).Contents (Elt F) → (⟨S4096x32000, .f32⟩ : BufTy).Contents (Elt F) → (⟨S4096x32000, .f32⟩ : BufTy).Contents (Elt F)),
    binary main_v8 main_v16 main_v17 (mulf : (⟨S4096x32000, .f32⟩ : BufTy).Contents (Elt F) → (⟨S4096x32000, .f32⟩ : BufTy).Contents (Elt F) → (⟨S4096x32000, .f32⟩ : BufTy).Contents (Elt F)),
    nullary main_cst_3 (constant S_ .f32 0x00000000#32),
    binary main_v17 main_cst_3 main_v18 ((fun x v => Host.reduceAdd x v reducesTo_S4096x32000_S_d0_1 h_S_) : (⟨S4096x32000, .f32⟩ : BufTy).Contents (Elt F) → (⟨S_, .f32⟩ : BufTy).Contents (Elt F) → (⟨S_, .f32⟩ : BufTy).Contents (Elt F)),
    nullary main_cst_4 (constant S_ .f32 0x3F000000#32),
    binary main_cst_4 main_v18 main_v19 (mulf : (⟨S_, .f32⟩ : BufTy).Contents (Elt F) → (⟨S_, .f32⟩ : BufTy).Contents (Elt F) → (⟨S_, .f32⟩ : BufTy).Contents (Elt F)),
    binary main_v6 main_v15 main_v20 (subf : (⟨S4096x32000, .f32⟩ : BufTy).Contents (Elt F) → (⟨S4096x32000, .f32⟩ : BufTy).Contents (Elt F) → (⟨S4096x32000, .f32⟩ : BufTy).Contents (Elt F)),
    binary main_v9 main_v20 main_v21 (mulf : (⟨S4096x32000, .f32⟩ : BufTy).Contents (Elt F) → (⟨S4096x32000, .f32⟩ : BufTy).Contents (Elt F) → (⟨S4096x32000, .f32⟩ : BufTy).Contents (Elt F)),
    nullary main_cst_5 (constant S_ .f32 0x00000000#32),
    binary main_v21 main_cst_5 main_v22 ((fun x v => Host.reduceAdd x v reducesTo_S4096x32000_S_d0_1 h_S_) : (⟨S4096x32000, .f32⟩ : BufTy).Contents (Elt F) → (⟨S_, .f32⟩ : BufTy).Contents (Elt F) → (⟨S_, .f32⟩ : BufTy).Contents (Elt F)),
    nullary main_cst_6 (constant S_ .f32 0x3F000000#32),
    binary main_cst_6 main_v22 main_v23 (mulf : (⟨S_, .f32⟩ : BufTy).Contents (Elt F) → (⟨S_, .f32⟩ : BufTy).Contents (Elt F) → (⟨S_, .f32⟩ : BufTy).Contents (Elt F)),
    binary main_v19 main_v23 main_v24 (addf : (⟨S_, .f32⟩ : BufTy).Contents (Elt F) → (⟨S_, .f32⟩ : BufTy).Contents (Elt F) → (⟨S_, .f32⟩ : BufTy).Contents (Elt F)),
    nullary main_cst_7 (constant S_ .f32 0x45800000#32),
    binary main_v24 main_cst_7 main_v25 (Host.divf : (⟨S_, .f32⟩ : BufTy).Contents (Elt F) → (⟨S_, .f32⟩ : BufTy).Contents (Elt F) → (⟨S_, .f32⟩ : BufTy).Contents (Elt F)) ]

/-- The whole list is the four stretches in a row. -/
theorem ops_split : (Cert.ReferenceIdeal.ValueP.ops (F := F)) = opsA ++ (opsB0 ++ (opsB1 ++ opsC)) := rfl

/-- Contents carried to a typed reference's buffer and back are the contents. -/
theorem ofBuf_toBuf {T : BufTy} (x : TRef sig T) (v : T.Contents (Elt F)) : x.ofBuf (x.toBuf v) = v := by
  obtain ⟨r, rfl, hd, hs⟩ := x
  rfl

/-- At the literal buffers whose declared types are the values' types, the carrying is the identity. -/
theorem ofBuf_v2 (u : (⟨S4096x32000, .f32⟩ : BufTy).Contents (Elt F)) :
    (TRef.of (T := ⟨S4096x32000, .f32⟩) main_v2).ofBuf u = u := rfl
theorem ofBuf_v5 (u : (⟨S4096x32000, .f32⟩ : BufTy).Contents (Elt F)) :
    (TRef.of (T := ⟨S4096x32000, .f32⟩) main_v5).ofBuf u = u := rfl
theorem toBuf_v6 (v : (⟨S4096x32000, .f32⟩ : BufTy).Contents (Elt F)) :
    (TRef.of (T := ⟨S4096x32000, .f32⟩) main_v6).toBuf v = v := rfl
theorem toBuf_v7 (v : (⟨S4096x32000, .f32⟩ : BufTy).Contents (Elt F)) :
    (TRef.of (T := ⟨S4096x32000, .f32⟩) main_v7).toBuf v = v := rfl

variable (W : Valuation τ sig (Elt F))

/-- The first stretch leaves the student's logits, formed from the first and third arguments it finds. -/
theorem A_v2 : after (opsA (F := F)) W (Proc.devRef .tc main_v2)
    = val_main_v2 (F := F) (W (Proc.devRef .tc main_arg0)) (W (Proc.devRef .tc main_arg2)) := by
  after_results_simp
  rfl

/-- The first stretch leaves the teacher's logits, formed from the second and fourth arguments it finds. -/
theorem A_v5 : after (opsA (F := F)) W (Proc.devRef .tc main_v5)
    = val_main_v5 (F := F) (W (Proc.devRef .tc main_arg1)) (W (Proc.devRef .tc main_arg3)) := by
  after_results_simp
  rfl

/-- From the student's logits the second stretch leaves the student's log-softmax. -/
theorem B0_v6 (x0 : (⟨S4096x2048, .f32⟩ : BufTy).Contents (Elt F)) (x2 : (⟨S32000x2048, .f32⟩ : BufTy).Contents (Elt F))
    (h : W (Proc.devRef .tc main_v2) = val_main_v2 (F := F) x0 x2) :
    after (opsB0 (F := F)) W (Proc.devRef .tc main_v6) = val_main_v6 (F := F) x0 x2 := by
  after_results_simp
  simp only [ofBuf_toBuf, ofBuf_v2, toBuf_v6]
  rw [h]
  rfl

/-- The second stretch does not write the teacher's logits. -/
theorem B0_v5 : after (opsB0 (F := F)) W (Proc.devRef .tc main_v5) = W (Proc.devRef .tc main_v5) := by
  after_results_simp

/-- From the teacher's logits the third stretch leaves the teacher's log-softmax. -/
theorem B1_v7 (x1 : (⟨S4096x2048, .f32⟩ : BufTy).Contents (Elt F)) (x3 : (⟨S32000x2048, .f32⟩ : BufTy).Contents (Elt F))
    (h : W (Proc.devRef .tc main_v5) = val_main_v5 (F := F) x1 x3) :
    after (opsB1 (F := F)) W (Proc.devRef .tc main_v7) = val_main_v7 (F := F) x1 x3 := by
  after_results_simp
  simp only [ofBuf_toBuf, ofBuf_v5, toBuf_v7]
  rw [h]
  rfl

/-- The third stretch does not write the student's log-softmax. -/
theorem B1_v6 : after (opsB1 (F := F)) W (Proc.devRef .tc main_v6) = W (Proc.devRef .tc main_v6) := by
  after_results_simp

/-- From the two log-softmax arrays the last stretch leaves the loss. -/
theorem C_v25 (x0 x1 : (⟨S4096x2048, .f32⟩ : BufTy).Contents (Elt F)) (x2 x3 : (⟨S32000x2048, .f32⟩ : BufTy).Contents (Elt F))
    (h6 : W (Proc.devRef .tc main_v6) = val_main_v6 (F := F) x0 x2)
    (h7 : W (Proc.devRef .tc main_v7) = val_main_v7 (F := F) x1 x3) :
    after (opsC (F := F)) W (Proc.devRef .tc main_v25) = val_main_v25 (F := F) x0 x1 x2 x3 := by
  after_results_simp
  rw [h6, h7]
  rfl

/-- The fold of all 63 operations from the launch contents leaves the last stage of the four arguments. -/
theorem fold_eq (m : (ℓ : Loc nD τ sig) → Buf (Elt F) ℓ) (c : Dev nD) :
    StableHlo.after (Cert.ReferenceIdeal.ValueP.ops (F := F)) (launchContents m c) (Proc.devRef .tc main_v25)
      = Cert.ReferenceIdeal.ReadP.val_main_v25 (F := F) (m ((c.tc : Thread nD τ).loc main_arg0)) (m ((c.tc : Thread nD τ).loc main_arg1)) (m ((c.tc : Thread nD τ).loc main_arg2)) (m ((c.tc : Thread nD τ).loc main_arg3)) := by
  rw [ops_split, StableHlo.after_append, StableHlo.after_append, StableHlo.after_append]
  refine C_v25 _ _ _ _ _ ((B1_v6 _).trans (B0_v6 _ _ _ (A_v2 _))) (B1_v7 _ _ _ ((B0_v5 _).trans (A_v5 _)))

end Cert.ReferenceIdeal.RefFold

end
-- ==== Proof.Model.lean ====
/-
  The two ways of computing the generalized Jensen–Shannon loss, as functions of the two logit matrices on the extended
  reals, and the statement that they agree where every logit is a real number.

  A row `z` of 32000 logits is cut into 125 chunks of 256. Walking the chunks, the kernel keeps a running maximum `M` and a
  running sum `L` of exponentials taken relative to `M`: a chunk with maximum `c` replaces `(M, L)` by
  `(max M c, exp (M − max M c) · L + Σ_u exp (z_u − max M c))`, starting from `(−∞, 0)`; the row's log-sum-exp is then
  `M + log L` and its log-softmax `z_v − (M + log L)`. The reference takes the row's maximum `μ` at once and its
  log-softmax is `(z_v − μ) − log Σ_v' exp (z_v' − μ)`. On real logits the two are equal: `exp (M − M') · Σ exp (z − M) =
  Σ exp (z − M')`, every term being a real number, and `M` ends at `μ`.

  With `log p`, `log q` the teacher's and the student's log-softmax and `m = ½p + ½q`, the kernel sums, per row and chunk
  by chunk, `(½p)(log p − log m) + (½q)(log q − log m)`, then sums the rows and divides by 4096; the reference forms
  `½ Σ p (log p − log m) + ½ Σ q (log q − log m)` over all rows and columns and divides by 4096. Every term is a real
  number, so the two groupings of the one finite sum agree.
-/
import Idealize.ShloMosaic.PureOps.Ideal
import Idealize.ShloMosaic.PureOps.Ideal.Laws

noncomputable section

namespace Cert.JSD

open Idealize.ShloMosaic

/-- Chunk `j` of a row of 32000 = 125 · 256 numbers (zero past the row's end, which no chunk below 125 reaches). -/
def chunk (z : Fin 32000 → EReal) (j : ℕ) (u : Fin 256) : EReal :=
  if h : 256 * j + u.val < 32000 then z ⟨256 * j + u.val, h⟩ else 0

/-- A chunk's maximum, from −∞. -/
def cmax (y : Fin 256 → EReal) : EReal := Finset.univ.fold max ⊥ y

/-- One chunk's update of the running (maximum, sum of exponentials relative to it). -/
def onlStep (p : EReal × EReal) (y : Fin 256 → EReal) : EReal × EReal :=
  (max p.1 (cmax y), Ideal.exp (p.1 - max p.1 (cmax y)) * p.2 + ∑ u, Ideal.exp (y u - max p.1 (cmax y)))

/-- The running pair after chunks 0 … j of the row. -/
def onl (z : Fin 32000 → EReal) : ℕ → EReal × EReal
  | 0 => onlStep (⊥, 0) (chunk z 0)
  | j + 1 => onlStep (onl z j) (chunk z (j + 1))

/-- The row's log-sum-exp as the kernel forms it after the last chunk. -/
def lseOnl (z : Fin 32000 → EReal) : EReal := (onl z 124).1 + Ideal.log (onl z 124).2

/-- The kernel's log-softmax. -/
def lsmK (z : Fin 32000 → EReal) (v : Fin 32000) : EReal := z v - lseOnl z

/-- The row's maximum as the reference forms it. -/
def rowMax (z : Fin 32000 → EReal) : EReal := max ⊥ (Finset.univ.fold max ⊥ z)

/-- The reference's log-softmax. -/
def lsmR (z : Fin 32000 → EReal) (v : Fin 32000) : EReal :=
  (z v - rowMax z) - Ideal.log (∑ v', Ideal.exp (z v' - rowMax z))

/-- The constant ½. -/
def half : EReal := ((1 / 2 : ℝ) : EReal)

/-- log of the mixture m = ½p + ½q, from log p and log q. -/
def logMix (lp lq : EReal) : EReal := Ideal.log (half * Ideal.exp lp + half * Ideal.exp lq)

/-- One (row, column)'s contribution as the kernel forms it. -/
def contribK (lp lq : EReal) : EReal :=
  (half * Ideal.exp lp) * (lp - logMix lp lq) + (half * Ideal.exp lq) * (lq - logMix lp lq)

/-- A row's contributions accumulated chunk by chunk. -/
def accK (c : Fin 32000 → EReal) : ℕ → EReal
  | 0 => 0 + ∑ u, chunk c 0 u
  | j + 1 => accK c j + ∑ u, chunk c (j + 1) u

/-- The kernel's result from the student logits `S` and the teacher logits `T`. -/
def lossK (S T : Fin 4096 → Fin 32000 → EReal) : EReal :=
  Ideal.div (∑ n, accK (fun v => contribK (lsmK (T n) v) (lsmK (S n) v)) 124) ((4096 : ℝ) : EReal)

/-- The reference's result. -/
def lossR (S T : Fin 4096 → Fin 32000 → EReal) : EReal :=
  Ideal.div
    (half * (∑ n, ∑ v, Ideal.exp (lsmR (T n) v) * (lsmR (T n) v - logMix (lsmR (T n) v) (lsmR (S n) v)))
      + half * (∑ n, ∑ v, Ideal.exp (lsmR (S n) v) * (lsmR (S n) v - logMix (lsmR (T n) v) (lsmR (S n) v))))
    ((4096 : ℝ) : EReal)

end Cert.JSD

end
-- ==== Proof.Logits.lean ====
/-
  The logits both programs start from: row `n` of (inputs · weightsᵀ) / 1, on the extended reals — the sum over the 2048
  hidden coordinates of input (n, k) times weight (v, k), then the quotient by the temperature 1 that both programs
  keep as an operation.
-/
import Idealize.ShloMosaic.PureOps.Ideal
import Idealize.ShloMosaic.Lib.ValueIdx

noncomputable section

namespace Cert.JSD

open Idealize.ShloMosaic Idealize.ShloMosaic.ValueIdx

/-- Row `n` of the logits of inputs `x` (4096 × 2048) against weights `w` (32000 × 2048). -/
def logitRow (x : (⟨2, ![4096, 2048]⟩ : Shape).Idx → EReal) (w : (⟨2, ![32000, 2048]⟩ : Shape).Idx → EReal)
    (n : Fin 4096) : Fin 32000 → EReal :=
  fun v => Ideal.div (∑ k : Fin 2048, x (ix2 n k) * w (ix2 v k)) ((1 : ℝ) : EReal)

end Cert.JSD

end
-- ==== Proof.RefVal.lean ====
/-
  The reference's result on the extended reals, as one function of the four argument arrays: the loss in the
  reference's own grouping, over the student and teacher logit rows.

  The reference is read stage by stage at an index. A logit at (n, v) is the contraction over the 2048 hidden
  coordinates divided by the constant 1. A row's maximum is the larger of −∞ and the fold of max from −∞ over the
  row's 32000 entries. The log-softmax at (n, v) subtracts the row maximum and then the logarithm of the row's sum of
  exponentials of the shifted entries (the sum starts from the constant 0, which adds nothing). From the two
  log-softmax arrays, log p (teacher) and log q (student), every later stage is pointwise: p = exp log p, q = exp log q,
  the mixture ½p + ½q and its logarithm, the products p (log p − log m) and q (log q − log m). Each of the two products
  is summed over every index of the 4096 × 32000 array, again from 0, and a sum over all indices of a rank-two array is
  the double sum over rows and columns. Half of each total, added, and divided by 4096, is the loss.
-/
import proofs.«126184_j41180146434370_1_alg».proof.Proof.RefReadP
import proofs.«126184_j41180146434370_1_alg».proof.Proof.Model
import proofs.«126184_j41180146434370_1_alg».proof.Proof.Logits
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.ShloMosaic.ValueIdx
open Cert.ReferenceIdeal.ReadP Cert.JSD

/-! ## The constants' values -/

/-- The temperature's pattern is the number 1. -/
theorem lit_one : Ideal.ofBits .f32 0x3F800000#32 = ((1 : ℝ) : EReal) := by
  simp [Ideal.ofBits, Ideal.ieee]; norm_cast; norm_num

/-- The maximum's starting pattern is −∞. -/
theorem lit_bot : Ideal.ofBits .f32 0xFF800000#32 = (⊥ : EReal) := by
  simp [Ideal.ofBits, Ideal.ieee]

/-- The mixture weight's pattern is ½. -/
theorem lit_half : Ideal.ofBits .f32 0x3F000000#32 = half := by
  unfold half
  simp [Ideal.ofBits, Ideal.ieee]; norm_cast; norm_num

/-- The row count's pattern is 4096. -/
theorem lit_4096 : Ideal.ofBits .f32 0x45800000#32 = ((4096 : ℝ) : EReal) := by
  simp [Ideal.ofBits, Ideal.ieee]; norm_cast; norm_num

/-! ## Index functions of the stages, at an index given by its coordinates -/

theorem lidx0 (n : Fin 4096) (v : Fin 32000) (k : Fin 2048) : lidx_main_v0 (ix2 n v) k = ix2 n k :=
  funext fun a => Fin.ext (by match a with | ⟨0, _⟩ => rfl | ⟨1, _⟩ => rfl)
theorem ridx0 (n : Fin 4096) (v : Fin 32000) (k : Fin 2048) : ridx_main_v0 (ix2 n v) k = ix2 v k :=
  funext fun a => Fin.ext (by match a with | ⟨0, _⟩ => rfl | ⟨1, _⟩ => rfl)
theorem lidx3 (n : Fin 4096) (v : Fin 32000) (k : Fin 2048) : lidx_main_v3 (ix2 n v) k = ix2 n k :=
  funext fun a => Fin.ext (by match a with | ⟨0, _⟩ => rfl | ⟨1, _⟩ => rfl)
theorem ridx3 (n : Fin 4096) (v : Fin 32000) (k : Fin 2048) : ridx_main_v3 (ix2 n v) k = ix2 v k :=
  funext fun a => Fin.ext (by match a with | ⟨0, _⟩ => rfl | ⟨1, _⟩ => rfl)

/-- Entry (n, v) of a row-wise broadcast comes from entry n of the column. -/
theorem idx0_34 (n : Fin 4096) (v : Fin 32000) : idx_main_call0_v3 (idx_main_call0_v4 (ix2 n v)) = ix1 n :=
  funext fun a => Fin.ext (by match a with | ⟨0, _⟩ => rfl)
theorem idx0_810 (n : Fin 4096) (v : Fin 32000) : idx_main_call0_v8 (idx_main_call0_v10 (ix2 n v)) = ix1 n :=
  funext fun a => Fin.ext (by match a with | ⟨0, _⟩ => rfl)
theorem idx0_7 (n : Fin 4096) (k : Fin 32000) : idx_main_call0_v7 (ix1 n) k = ix2 n k :=
  funext fun a => Fin.ext (by match a with | ⟨0, _⟩ => rfl | ⟨1, _⟩ => rfl)
theorem idx1_34 (n : Fin 4096) (v : Fin 32000) : idx_main_call1_v3 (idx_main_call1_v4 (ix2 n v)) = ix1 n :=
  funext fun a => Fin.ext (by match a with | ⟨0, _⟩ => rfl)
theorem idx1_810 (n : Fin 4096) (v : Fin 32000) : idx_main_call1_v8 (idx_main_call1_v10 (ix2 n v)) = ix1 n :=
  funext fun a => Fin.ext (by match a with | ⟨0, _⟩ => rfl)
theorem idx1_7 (n : Fin 4096) (k : Fin 32000) : idx_main_call1_v7 (ix1 n) k = ix2 n k :=
  funext fun a => Fin.ext (by match a with | ⟨0, _⟩ => rfl | ⟨1, _⟩ => rfl)

/-- Dropping the column axis of the 4096 × 32000 array leaves the 4096 rows. -/
theorem redRow : S4096x32000.Reduces [1] S4096 := by decide

/-- Row n with column k put back is the index (n, k). -/
theorem lift_row (n : Fin 4096) (k : Fin (S4096x32000.size 1)) :
    redRow.lift (ix1 n) k = ix2 n (⟨k.val, k.isLt⟩ : Fin 32000) :=
  funext fun a => Fin.ext (by match a with | ⟨0, _⟩ => rfl | ⟨1, _⟩ => rfl)

/-! ## The student's logits, row maxima and log-softmax -/

/-- The student's logit at (n, v): the contraction over the hidden coordinates, divided by the constant 1. -/
theorem v2_at (x0 : (⟨S4096x2048, .f32⟩ : BufTy).Contents (Elt Ideal)) (x2 : (⟨S32000x2048, .f32⟩ : BufTy).Contents (Elt Ideal))
    (n : Fin 4096) (v : Fin 32000) :
    val_main_v2 (F := Ideal) x0 x2 (ix2 n v) = logitRow x0 x2 n v := by
  rw [val_main_v2_apply, val_main_v0_apply, val_main_v1_apply, val_main_cst_apply]
  simp only [Ideal.hostDivf_def, Ideal.ofBits_def, lit_one]
  unfold logitRow
  refine congrArg (Ideal.div · _) (Finset.sum_congr rfl fun k _ => ?_)
  rw [lidx0, ridx0]

/-- The fold of max from −∞ over row n of the student's logits. -/
theorem call0_v0_at (x0 : (⟨S4096x2048, .f32⟩ : BufTy).Contents (Elt Ideal)) (x2 : (⟨S32000x2048, .f32⟩ : BufTy).Contents (Elt Ideal))
    (n : Fin 4096) :
    val_main_call0_v0 (F := Ideal) x0 x2 (ix1 n) = Finset.univ.fold max ⊥ (logitRow x0 x2 n) := by
  unfold val_main_call0_v0
  rw [Host.reduce_eq_fold_single (FloatOps.maximumf (F := Ideal) (φ := .f32)) (val_main_v2 (F := Ideal) x0 x2) (val_main_call0_cst (F := Ideal))
    reducesTo_S4096x32000_S4096_d1 redRow h_S_ (ix1 n)]
  have hf : (val_main_v2 (F := Ideal) x0 x2 ∘ redRow.lift (ix1 n)) = fun k : Fin 32000 => logitRow x0 x2 n k :=
    funext fun k => by
      show val_main_v2 (F := Ideal) x0 x2 (redRow.lift (ix1 n) k) = _
      rw [lift_row, v2_at]
      rfl
  rw [hf, val_main_call0_cst_apply]
  show Finset.fold max (Ideal.ofBits .f32 0xFF800000#32) (fun k : Fin 32000 => logitRow x0 x2 n k) Finset.univ = _
  rw [lit_bot]

/-- The student's row maximum as the reference forms it: the larger of −∞ and that fold. -/
theorem call0_v2_at (x0 : (⟨S4096x2048, .f32⟩ : BufTy).Contents (Elt Ideal)) (x2 : (⟨S32000x2048, .f32⟩ : BufTy).Contents (Elt Ideal))
    (n : Fin 4096) :
    val_main_call0_v2 (F := Ideal) x0 x2 (ix1 n) = rowMax (logitRow x0 x2 n) := by
  rw [val_main_call0_v2_apply, val_main_call0_v1_apply, val_main_call0_cst_0_apply, call0_v0_at]
  simp only [Ideal.maximumf_def, Ideal.ofBits_def, lit_bot]
  rfl

/-- The student's logit less its row's maximum. -/
theorem call0_v5_at (x0 : (⟨S4096x2048, .f32⟩ : BufTy).Contents (Elt Ideal)) (x2 : (⟨S32000x2048, .f32⟩ : BufTy).Contents (Elt Ideal))
    (n : Fin 4096) (v : Fin 32000) :
    val_main_call0_v5 (F := Ideal) x0 x2 (ix2 n v) = logitRow x0 x2 n v - rowMax (logitRow x0 x2 n) := by
  rw [val_main_call0_v5_apply, val_main_call0_v4_apply, val_main_call0_v3_apply, idx0_34, v2_at, call0_v2_at]
  rfl

/-- Row n's sum of the exponentials of the shifted logits; the sum starts from the constant 0. -/
theorem call0_v7_at (x0 : (⟨S4096x2048, .f32⟩ : BufTy).Contents (Elt Ideal)) (x2 : (⟨S32000x2048, .f32⟩ : BufTy).Contents (Elt Ideal))
    (n : Fin 4096) :
    val_main_call0_v7 (F := Ideal) x0 x2 (ix1 n)
      = ∑ v' : Fin 32000, Ideal.exp (logitRow x0 x2 n v' - rowMax (logitRow x0 x2 n)) := by
  rw [val_main_call0_v7_apply, val_main_call0_cst_1_apply]
  simp only [Ideal.ofBits_def, Ideal.ofBits_zero_f32, zero_add]
  refine Finset.sum_congr rfl fun k _ => ?_
  rw [val_main_call0_v6_apply, idx0_7, call0_v5_at]
  rfl

/-- The student's log-softmax at (n, v). -/
theorem v6_at (x0 : (⟨S4096x2048, .f32⟩ : BufTy).Contents (Elt Ideal)) (x2 : (⟨S32000x2048, .f32⟩ : BufTy).Contents (Elt Ideal))
    (n : Fin 4096) (v : Fin 32000) :
    val_main_v6 (F := Ideal) x0 x2 (ix2 n v) = lsmR (logitRow x0 x2 n) v := by
  rw [val_main_v6_apply, val_main_call0_v10_apply, val_main_call0_v9_apply, val_main_call0_v8_apply, idx0_810,
    call0_v7_at, call0_v5_at]
  simp only [Ideal.subf_def, Ideal.hostUnary_log_def, lsmR]

/-! ## The teacher's logits, row maxima and log-softmax -/

/-- The teacher's logit at (n, v): the contraction over the hidden coordinates, divided by the constant 1. -/
theorem v5_at (x1 : (⟨S4096x2048, .f32⟩ : BufTy).Contents (Elt Ideal)) (x3 : (⟨S32000x2048, .f32⟩ : BufTy).Contents (Elt Ideal))
    (n : Fin 4096) (v : Fin 32000) :
    val_main_v5 (F := Ideal) x1 x3 (ix2 n v) = logitRow x1 x3 n v := by
  rw [val_main_v5_apply, val_main_v3_apply, val_main_v4_apply, val_main_cst_0_apply]
  simp only [Ideal.hostDivf_def, Ideal.ofBits_def, lit_one]
  unfold logitRow
  refine congrArg (Ideal.div · _) (Finset.sum_congr rfl fun k _ => ?_)
  rw [lidx3, ridx3]

/-- The fold of max from −∞ over row n of the teacher's logits. -/
theorem call1_v0_at (x1 : (⟨S4096x2048, .f32⟩ : BufTy).Contents (Elt Ideal)) (x3 : (⟨S32000x2048, .f32⟩ : BufTy).Contents (Elt Ideal))
    (n : Fin 4096) :
    val_main_call1_v0 (F := Ideal) x1 x3 (ix1 n) = Finset.univ.fold max ⊥ (logitRow x1 x3 n) := by
  unfold val_main_call1_v0
  rw [Host.reduce_eq_fold_single (FloatOps.maximumf (F := Ideal) (φ := .f32)) (val_main_v5 (F := Ideal) x1 x3) (val_main_call1_cst (F := Ideal))
    reducesTo_S4096x32000_S4096_d1 redRow h_S_ (ix1 n)]
  have hf : (val_main_v5 (F := Ideal) x1 x3 ∘ redRow.lift (ix1 n)) = fun k : Fin 32000 => logitRow x1 x3 n k :=
    funext fun k => by
      show val_main_v5 (F := Ideal) x1 x3 (redRow.lift (ix1 n) k) = _
      rw [lift_row, v5_at]
      rfl
  rw [hf, val_main_call1_cst_apply]
  show Finset.fold max (Ideal.ofBits .f32 0xFF800000#32) (fun k : Fin 32000 => logitRow x1 x3 n k) Finset.univ = _
  rw [lit_bot]

/-- The teacher's row maximum as the reference forms it: the larger of −∞ and that fold. -/
theorem call1_v2_at (x1 : (⟨S4096x2048, .f32⟩ : BufTy).Contents (Elt Ideal)) (x3 : (⟨S32000x2048, .f32⟩ : BufTy).Contents (Elt Ideal))
    (n : Fin 4096) :
    val_main_call1_v2 (F := Ideal) x1 x3 (ix1 n) = rowMax (logitRow x1 x3 n) := by
  rw [val_main_call1_v2_apply, val_main_call1_v1_apply, val_main_call1_cst_0_apply, call1_v0_at]
  simp only [Ideal.maximumf_def, Ideal.ofBits_def, lit_bot]
  rfl

/-- The teacher's logit less its row's maximum. -/
theorem call1_v5_at (x1 : (⟨S4096x2048, .f32⟩ : BufTy).Contents (Elt Ideal)) (x3 : (⟨S32000x2048, .f32⟩ : BufTy).Contents (Elt Ideal))
    (n : Fin 4096) (v : Fin 32000) :
    val_main_call1_v5 (F := Ideal) x1 x3 (ix2 n v) = logitRow x1 x3 n v - rowMax (logitRow x1 x3 n) := by
  rw [val_main_call1_v5_apply, val_main_call1_v4_apply, val_main_call1_v3_apply, idx1_34, v5_at, call1_v2_at]
  rfl

/-- Row n's sum of the exponentials of the shifted logits; the sum starts from the constant 0. -/
theorem call1_v7_at (x1 : (⟨S4096x2048, .f32⟩ : BufTy).Contents (Elt Ideal)) (x3 : (⟨S32000x2048, .f32⟩ : BufTy).Contents (Elt Ideal))
    (n : Fin 4096) :
    val_main_call1_v7 (F := Ideal) x1 x3 (ix1 n)
      = ∑ v' : Fin 32000, Ideal.exp (logitRow x1 x3 n v' - rowMax (logitRow x1 x3 n)) := by
  rw [val_main_call1_v7_apply, val_main_call1_cst_1_apply]
  simp only [Ideal.ofBits_def, Ideal.ofBits_zero_f32, zero_add]
  refine Finset.sum_congr rfl fun k _ => ?_
  rw [val_main_call1_v6_apply, idx1_7, call1_v5_at]
  rfl

/-- The teacher's log-softmax at (n, v). -/
theorem v7_at (x1 : (⟨S4096x2048, .f32⟩ : BufTy).Contents (Elt Ideal)) (x3 : (⟨S32000x2048, .f32⟩ : BufTy).Contents (Elt Ideal))
    (n : Fin 4096) (v : Fin 32000) :
    val_main_v7 (F := Ideal) x1 x3 (ix2 n v) = lsmR (logitRow x1 x3 n) v := by
  rw [val_main_v7_apply, val_main_call1_v10_apply, val_main_call1_v9_apply, val_main_call1_v8_apply, idx1_810,
    call1_v7_at, call1_v5_at]
  simp only [Ideal.subf_def, Ideal.hostUnary_log_def, lsmR]

/-! ## The pointwise stages after the two log-softmax arrays, and the two totals -/

/-- The logarithm of the mixture ½p + ½q at (n, v), from log p (teacher) and log q (student). -/
theorem v15_at (x0 x1 : (⟨S4096x2048, .f32⟩ : BufTy).Contents (Elt Ideal)) (x2 x3 : (⟨S32000x2048, .f32⟩ : BufTy).Contents (Elt Ideal))
    (n : Fin 4096) (v : Fin 32000) :
    val_main_v15 (F := Ideal) x0 x1 x2 x3 (ix2 n v) = logMix (lsmR (logitRow x1 x3 n) v) (lsmR (logitRow x0 x2 n) v) := by
  rw [val_main_v15_apply, val_main_v14_apply, val_main_v11_apply, val_main_v13_apply, val_main_v10_apply, val_main_v12_apply,
    val_main_cst_1_apply, val_main_cst_2_apply, val_main_v8_apply, val_main_v9_apply, v7_at, v6_at]
  simp only [Ideal.hostUnary_log_def, Ideal.hostUnary_exp_def, Ideal.addf_def, Ideal.mulf_def, Ideal.ofBits_def, lit_half]
  rfl

/-- The teacher's term p (log p − log m) at (n, v). -/
theorem v17_at (x0 x1 : (⟨S4096x2048, .f32⟩ : BufTy).Contents (Elt Ideal)) (x2 x3 : (⟨S32000x2048, .f32⟩ : BufTy).Contents (Elt Ideal))
    (n : Fin 4096) (v : Fin 32000) :
    val_main_v17 (F := Ideal) x0 x1 x2 x3 (ix2 n v)
      = Ideal.exp (lsmR (logitRow x1 x3 n) v) * (lsmR (logitRow x1 x3 n) v - logMix (lsmR (logitRow x1 x3 n) v) (lsmR (logitRow x0 x2 n) v)) := by
  rw [val_main_v17_apply, val_main_v16_apply, val_main_v8_apply, v7_at, v15_at]
  rfl

/-- The student's term q (log q − log m) at (n, v). -/
theorem v21_at (x0 x1 : (⟨S4096x2048, .f32⟩ : BufTy).Contents (Elt Ideal)) (x2 x3 : (⟨S32000x2048, .f32⟩ : BufTy).Contents (Elt Ideal))
    (n : Fin 4096) (v : Fin 32000) :
    val_main_v21 (F := Ideal) x0 x1 x2 x3 (ix2 n v)
      = Ideal.exp (lsmR (logitRow x0 x2 n) v) * (lsmR (logitRow x0 x2 n) v - logMix (lsmR (logitRow x1 x3 n) v) (lsmR (logitRow x0 x2 n) v)) := by
  rw [val_main_v21_apply, val_main_v20_apply, val_main_v9_apply, v6_at, v15_at]
  rfl

/-- The teacher's total: the sum over every index, from 0, is the double sum over rows and columns. -/
theorem v18_at (x0 x1 : (⟨S4096x2048, .f32⟩ : BufTy).Contents (Elt Ideal)) (x2 x3 : (⟨S32000x2048, .f32⟩ : BufTy).Contents (Elt Ideal)) (i : S_.Idx) :
    val_main_v18 (F := Ideal) x0 x1 x2 x3 i
      = ∑ n : Fin 4096, ∑ v : Fin 32000, Ideal.exp (lsmR (logitRow x1 x3 n) v) * (lsmR (logitRow x1 x3 n) v - logMix (lsmR (logitRow x1 x3 n) v) (lsmR (logitRow x0 x2 n) v)) := by
  rw [val_main_v18_apply, val_main_cst_3_apply]
  simp only [Ideal.ofBits_def, Ideal.ofBits_zero_f32, zero_add]
  rw [sum_idx2]
  exact Finset.sum_congr rfl fun n _ => Finset.sum_congr rfl fun v _ => v17_at x0 x1 x2 x3 n v

/-- The student's total likewise. -/
theorem v22_at (x0 x1 : (⟨S4096x2048, .f32⟩ : BufTy).Contents (Elt Ideal)) (x2 x3 : (⟨S32000x2048, .f32⟩ : BufTy).Contents (Elt Ideal)) (i : S_.Idx) :
    val_main_v22 (F := Ideal) x0 x1 x2 x3 i
      = ∑ n : Fin 4096, ∑ v : Fin 32000, Ideal.exp (lsmR (logitRow x0 x2 n) v) * (lsmR (logitRow x0 x2 n) v - logMix (lsmR (logitRow x1 x3 n) v) (lsmR (logitRow x0 x2 n) v)) := by
  rw [val_main_v22_apply, val_main_cst_5_apply]
  simp only [Ideal.ofBits_def, Ideal.ofBits_zero_f32, zero_add]
  rw [sum_idx2]
  exact Finset.sum_congr rfl fun n _ => Finset.sum_congr rfl fun v _ => v21_at x0 x1 x2 x3 n v

/-- The reference's last stage is the reference grouping of the loss over the logit rows of its arguments. -/
theorem ref_value (x0 x1 : (⟨S4096x2048, .f32⟩ : BufTy).Contents (Elt Ideal)) (x2 x3 : (⟨S32000x2048, .f32⟩ : BufTy).Contents (Elt Ideal)) :
    Cert.ReferenceIdeal.ReadP.val_main_v25 (F := Ideal) x0 x1 x2 x3
      = fun _ => Cert.JSD.lossR (fun n => Cert.JSD.logitRow x0 x2 n) (fun n => Cert.JSD.logitRow x1 x3 n) := by
  funext i
  rw [val_main_v25_apply, val_main_v24_apply, val_main_v19_apply, val_main_v23_apply, val_main_cst_4_apply, val_main_cst_6_apply,
    val_main_cst_7_apply, v18_at, v22_at]
  simp only [Ideal.hostDivf_def, Ideal.addf_def, Ideal.mulf_def, Ideal.ofBits_def, lit_half, lit_4096]
  rfl

end Cert.ReferenceIdeal.RefValue

end
-- ==== Proof.R0Defs.lean ====
/-
  Region 0 (the statistics pass) as proof data, at any float instance and at any contents `V` of the TensorCore's
  buffers when the region is entered.

  The grid is 8 token tiles by 125 vocabulary chunks, walked chunk-fastest: point t = 125·i + j. The body keeps four
  columns of 512 numbers between points — for the student logits a running maximum and a running sum of exponentials
  taken relative to that maximum, and the same two for the teacher — and `step0` is one point's update of the four from
  the point's four input blocks. At a tile's first chunk the update starts from (−∞, 0, −∞, 0), at the others from what
  the point before left: `stat0`. At a tile's last chunk the two output blocks receive maximum + log(sum), `lse0`.
-/
import proofs.«126184_j41180146434370_1_alg».proof.Proof.Gen.KernelIdeal.Launch
import proofs.«126184_j41180146434370_1_alg».proof.Proof.Gen.KernelIdeal.Skeleton
import proofs.«126184_j41180146434370_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four carried columns: student maximum, student sum, teacher maximum, teacher sum. -/
abbrev St0 (F : FTy → Type) : Type := Vec F S512x1 .f32 × Vec F S512x1 .f32 × Vec F S512x1 .f32 × Vec F S512x1 .f32

/-- What a tile's first chunk starts from: maxima at −∞, sums at 0. -/
def init0 : St0 F := (k0_pay8, k0_pay9, k0_pay10, k0_pay11)

/-- One point's update of the four columns from the point's input blocks (student rows, student weights, teacher rows,
    teacher weights): the new maximum joins the old with the chunk's row maxima; the new sum is the old one rescaled
    by exp(old maximum − new maximum) plus the chunk's exponentials relative to the new maximum. -/
def step0 (xs : Vec F S512x2048 .f32) (ws : Vec F S256x2048 .f32) (xt : Vec F S512x2048 .f32) (wt : Vec F S256x2048 .f32)
    (p : St0 F) : St0 F :=
  (k0_pay2 (k0_pay14 xs ws p.1), k0_pay1 (k0_pay15 xs ws p.1 p.1 p.2.1),
    k0_pay5 (k0_pay13 xt wt) p.2.2.1, k0_pay4 (k0_pay13 xt wt) p.2.2.1 p.2.2.1 p.2.2.2)

/-- The four columns after the body at position `n`. -/
def stat0 (c : Dev nD) : (n : ℕ) → n < cfg0.N → St0 F
  | 0, hn => step0 (iblk0 V c 0 ⟨0, hn⟩) (iblk0 V c 1 ⟨0, hn⟩) (iblk0 V c 2 ⟨0, hn⟩) (iblk0 V c 3 ⟨0, hn⟩) init0
  | n + 1, hn =>
    if (n + 1) % 125 = 0 then
      step0 (iblk0 V c 0 ⟨n + 1, hn⟩) (iblk0 V c 1 ⟨n + 1, hn⟩) (iblk0 V c 2 ⟨n + 1, hn⟩) (iblk0 V c 3 ⟨n + 1, hn⟩) init0
    else
      step0 (iblk0 V c 0 ⟨n + 1, hn⟩) (iblk0 V c 1 ⟨n + 1, hn⟩) (iblk0 V c 2 ⟨n + 1, hn⟩) (iblk0 V c 3 ⟨n + 1, hn⟩)
        (stat0 c n (Nat.lt_of_succ_lt hn))

/-- At a tile's first chunk the columns restart. -/
theorem stat0_first (c : Dev nD) (t : Fin cfg0.N) (h : t.val % 125 = 0) :
    stat0 V c t.val t.isLt = step0 (iblk0 V c 0 t) (iblk0 V c 1 t) (iblk0 V c 2 t) (iblk0 V c 3 t) init0 := by
  obtain ⟨n, hn⟩ := t
  cases n with
  | zero => rfl
  | succ n => exact if_pos h

/-- At any other chunk they continue from the point before. -/
theorem stat0_next (c : Dev nD) (t : Fin cfg0.N) (h : ¬t.val % 125 = 0) :
    stat0 V c t.val t.isLt = step0 (iblk0 V c 0 t) (iblk0 V c 1 t) (iblk0 V c 2 t) (iblk0 V c 3 t)
      (stat0 V c (t.val - 1) (Nat.lt_of_le_of_lt (Nat.sub_le _ _) t.isLt)) := by
  obtain ⟨n, hn⟩ := t
  cases n with
  | zero => exact absurd (Nat.zero_mod _) h
  | succ n => exact if_neg h

/-- What the two output blocks receive at a tile's last chunk: maximum + log(sum), student and teacher. -/
def lse0_s (p : St0 F) : Vec F S512x1 .f32 := k0_pay6 p.1 p.2.1
def lse0_t (p : St0 F) : Vec F S512x1 .f32 := k0_pay7 p.2.2.1 p.2.2.2

/-! ## The scratch operands and the invariant -/

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3

/-- The four scratch buffers at some contents. -/
def scAny0 (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d))

/-- The four scratch buffers at named contents. -/
def scAt0 (c : Dev nD) (p : St0 F) : sProp 𝕄 :=
  iprop(owns (c : Thread nD τ) scM0_0 fullShare p.1 ∗ owns (c : Thread nD τ) scM0_1 fullShare p.2.1
    ∗ owns (c : Thread nD τ) scM0_2 fullShare p.2.2.1 ∗ owns (c : Thread nD τ) scM0_3 fullShare p.2.2.2)

/-- Everything else the region's invariant holds (the other scoped buffers, the generator register): what turns the four
    scratch buffers, at any contents, back into the class invariant. -/
def hole0 (c : Dev nD) : sProp 𝕄 := iprop(scAny0 (F := F) c -∗ Pipeline.ΦA spec0 c)

/-- The region invariant before position `n`: the class invariant before the first point; afterwards the four scratch
    buffers at what the point before left, beside the rest. -/
def Phi0 (c : Dev nD) : (n : ℕ) → n ≤ cfg0.N → sProp 𝕄
  | 0, _ => Pipeline.ΦA spec0 c
  | n + 1, hn => iprop(scAt0 c (stat0 V c n hn) ∗ hole0 c)

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(scAt0 c (stat0 V c n hn) ∗ hole0 c) := rfl
theorem Phi0_pos (c : Dev nD) (n : ℕ) (h : n ≤ cfg0.N) (hz : n ≠ 0) :
    Phi0 V c n h = iprop(scAt0 c (stat0 V c (n - 1) (by omega)) ∗ hole0 c) := by
  cases n with
  | zero => exact absurd rfl hz
  | succ n => rfl

/-! ## The proof data -/

/-- Pipeline 0's proof data on core `c`: the arrays as the region finds them; after the body each input's buffer at its
    block and the two outputs' at maximum + log(sum) of the point's columns (read only where the pipeline writes them
    back: a tile's last chunk); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => lse0_s (stat0 V c t.val t.isLt)
    | ⟨5, _⟩ => lse0_t (stat0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = lse0_s (stat0 V c t.val t.isLt) := by dsimp only [dat0]
theorem after0_5 (c : Dev nD) (t : Fin cfg0.N) : (dat0 V c).after 5 t = lse0_t (stat0 V c t.val t.isLt) := by dsimp only [dat0]

/-! ## The body's two conditions over the grid -/

/-- The first `scf.if`: the point is a tile's first chunk. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)
/-- The second: it is a tile's last chunk. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-- The inputs are never idle; the outputs are idle, and not written back, except at a tile's last chunk. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

end Region0

end Cert.KernelIdeal.Gen

end
-- ==== Proof.R0Runs.lean ====
/-
  Region 0, the statistics pass: what ONE call of the body does to the buffers it is handed, in each of its three control
  cases (a tile's first chunk, a middle chunk, a tile's last chunk; with 125 chunks a chunk is never both first and last).

  Each case is a triple over ANY whole memrefs, at any float instance: the four input blocks (student rows and weights,
  teacher rows and weights) come back as they were; the four carried columns (student maximum, student sum of
  exponentials, teacher maximum, teacher sum) go from what they held to `step0` of it — at a first chunk from the reset
  values, whatever they held —; and at a last chunk the two output blocks receive maximum + log(sum) of the new columns.
  The order of the body's loads and stores matters and is what `step0` records: the student maximum is read before it is
  overwritten, the sum is rescaled by the OLD maximum against the new one, and the outputs read the columns after the
  update.
-/
import proofs.«126184_j41180146434370_1_alg».proof.Proof.Gen.KernelIdeal.Launch
import proofs.«126184_j41180146434370_1_alg».proof.Proof.Gen.KernelIdeal.Skeleton
import proofs.«126184_j41180146434370_1_alg».proof.Proof.Gen.KernelIdeal.Points
import proofs.«126184_j41180146434370_1_alg».proof.Proof.R0Defs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets of a rank-2 access, spelt as a constant function. -/
theorem zeros0 : (![0, 0] : Fin 2 → Nat) = fun _ => 0 := by
  funext a; fin_cases a <;> rfl

/-- Every index of a column of 512 lies in the rectangle that spans the whole column. -/
theorem mem_col0 (y : S512x1.Idx) :
    y ∈ (Rect.unit (s := S512x1) ![0, 0] S512x1.size inb_S512x1_S512x1_0_0).set :=
  View.mem_set_unit_zero (S := S512x1) zeros0 inb_S512x1_S512x1_0_0 y

/-- A column of 512 numbers read back after a list of stores whose LAST one (the list's head) went through the whole
    column: that store's payload, whatever the column held and whatever was stored before. -/
theorem read_col_stored0 (m : Memref sig .tc .vmem S512x1 .f32) (f : m.view.ty.Contents (Elt F)) (w : Vec F S512x1 .f32)
    (L : List (View.Piece (Elt F) S512x1 .f32)) :
    m.view.read (Elt F) (m.view.writes (Elt F) f
      ((⟨Rect.unit (s := S512x1) ![0, 0] S512x1.size inb_S512x1_S512x1_0_0, w⟩ : View.Piece (Elt F) S512x1 .f32) :: L)) = w := by
  refine (View.read_writes_of_cover_last m.view f m.view f
    (⟨Rect.unit (s := S512x1) ![0, 0] S512x1.size inb_S512x1_S512x1_0_0, w⟩ : View.Piece (Elt F) S512x1 .f32) L [] mem_col0).trans ?_
  rw [View.read_writes_eq_canon m.view f _ (fun y => ⟨(⟨Rect.unit (s := S512x1) ![0, 0] S512x1.size inb_S512x1_S512x1_0_0, w⟩ : View.Piece (Elt F) S512x1 .f32), List.mem_singleton_self _, mem_col0 y⟩)]
  exact View.canon_unit_zero (S := S512x1) zeros0 inb_S512x1_S512x1_0_0 w

/-! ## The three control cases of the body -/

set_option maxHeartbeats 4000000 in
/-- A tile's FIRST chunk: the four columns, whatever they held, are reset to (−∞, 0, −∞, 0) and then updated from the
    point's blocks; the output blocks are not touched. -/
theorem run0_first (c : Dev nD) (i : grid0.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (xs : Vec F S512x2048 .f32) (ws : Vec F S256x2048 .f32) (xt : Vec F S512x2048 .f32) (wt : Vec F S256x2048 .f32)
    (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare xs ∗ owns (c : Thread nD τ) arg3 fullShare ws ∗ owns (c : Thread nD τ) arg4 fullShare xt ∗ owns (c : Thread nD τ) arg5 fullShare wt
            ∗ owns (c : Thread nD τ) arg8 fullShare (step0 xs ws xt wt init0).1 ∗ owns (c : Thread nD τ) arg9 fullShare (step0 xs ws xt wt init0).2.1
            ∗ owns (c : Thread nD τ) arg10 fullShare (step0 xs ws xt wt init0).2.2.1 ∗ owns (c : Thread nD τ) arg11 fullShare (step0 xs ws xt wt init0).2.2.2) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K := by
  dsimp only [step0, init0]
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H8]
  · iexists _; isplitr; swap; · iexact H8
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H9]
  · iexists _; isplitr; swap; · iexact H9
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H10]
  · iexists _; isplitr; swap; · iexact H10
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  iexists _; isplitr; swap; · iexact H11
  ipureintro
  refine (read_col_stored0 _ _ _ _).trans ?_
  (try dsimp only); sl_unfold_words
  simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]

set_option maxHeartbeats 4000000 in
/-- A chunk that is neither first nor last: the four columns go from `p` to `step0 … p`; the output blocks are not
    touched. -/
theorem run0_mid (c : Dev nD) (i : grid0.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (xs : Vec F S512x2048 .f32) (ws : Vec F S256x2048 .f32) (xt : Vec F S512x2048 .f32) (wt : Vec F S256x2048 .f32)
    (p : St0 F) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg8 fullShare p.1 ∗ owns (c : Thread nD τ) arg9 fullShare p.2.1 ∗ owns (c : Thread nD τ) arg10 fullShare p.2.2.1 ∗ owns (c : Thread nD τ) arg11 fullShare p.2.2.2
        ∗ (iprop(owns (c : Thread nD τ) arg2 fullShare xs ∗ owns (c : Thread nD τ) arg3 fullShare ws ∗ owns (c : Thread nD τ) arg4 fullShare xt ∗ owns (c : Thread nD τ) arg5 fullShare wt
            ∗ owns (c : Thread nD τ) arg8 fullShare (step0 xs ws xt wt p).1 ∗ owns (c : Thread nD τ) arg9 fullShare (step0 xs ws xt wt p).2.1
            ∗ owns (c : Thread nD τ) arg10 fullShare (step0 xs ws xt wt p).2.2.1 ∗ owns (c : Thread nD τ) arg11 fullShare (step0 xs ws xt wt p).2.2.2) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K := by
  dsimp only [step0]
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H8]
  · iexists _; isplitr; swap; · iexact H8
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H9]
  · iexists _; isplitr; swap; · iexact H9
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H10]
  · iexists _; isplitr; swap; · iexact H10
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  iexists _; isplitr; swap; · iexact H11
  ipureintro
  refine (read_col_stored0 _ _ _ _).trans ?_
  (try dsimp only); sl_unfold_words
  simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]

set_option maxHeartbeats 4000000 in
/-- A tile's LAST chunk: the four columns go from `p` to `step0 … p`, and the two output blocks, whatever they held,
    receive maximum + log(sum) of the UPDATED columns (the body reads the columns back after storing them). -/
theorem run0_last (c : Dev nD) (i : grid0.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (xs : Vec F S512x2048 .f32) (ws : Vec F S256x2048 .f32) (xt : Vec F S512x2048 .f32) (wt : Vec F S256x2048 .f32)
    (p : St0 F) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg8 fullShare p.1 ∗ owns (c : Thread nD τ) arg9 fullShare p.2.1 ∗ owns (c : Thread nD τ) arg10 fullShare p.2.2.1 ∗ owns (c : Thread nD τ) arg11 fullShare p.2.2.2
        ∗ (∃ d, owns (c : Thread nD τ) arg6 fullShare d) ∗ (∃ d, owns (c : Thread nD τ) arg7 fullShare d)
        ∗ (iprop(owns (c : Thread nD τ) arg2 fullShare xs ∗ owns (c : Thread nD τ) arg3 fullShare ws ∗ owns (c : Thread nD τ) arg4 fullShare xt ∗ owns (c : Thread nD τ) arg5 fullShare wt
            ∗ owns (c : Thread nD τ) arg8 fullShare (step0 xs ws xt wt p).1 ∗ owns (c : Thread nD τ) arg9 fullShare (step0 xs ws xt wt p).2.1
            ∗ owns (c : Thread nD τ) arg10 fullShare (step0 xs ws xt wt p).2.2.1 ∗ owns (c : Thread nD τ) arg11 fullShare (step0 xs ws xt wt p).2.2.2
            ∗ owns (c : Thread nD τ) arg6 fullShare (lse0_s (step0 xs ws xt wt p)) ∗ owns (c : Thread nD τ) arg7 fullShare (lse0_t (step0 xs ws xt wt p))) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K := by
  dsimp only [lse0_s, lse0_t, step0]
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, ⟨%d6, %f6, -, H6⟩, ⟨%d7, %f7, -, H7⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H8]
  · iexists _; isplitr; swap; · iexact H8
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H9]
  · iexists _; isplitr; swap; · iexact H9
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H10]
  · iexists _; isplitr; swap; · iexact H10
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H11]
  · iexists _; isplitr; swap; · iexact H11
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H6]
  · iexists _; isplitr; swap; · iexact H6
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  iexists _; isplitr; swap; · iexact H7
  ipureintro
  refine (read_col_stored0 _ _ _ _).trans ?_
  (try dsimp only); sl_unfold_words
  simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]

end Cert.KernelIdeal.Gen

end
-- ==== Proof.R0Body.lean ====
/-
  Region 0, the statistics pass: the pipeline's body obligation. At every grid point the body, called on the windows'
  current staging buffers and the four scratch columns, takes the region invariant before the point to the invariant
  after it and leaves every window's buffer at what the proof data says: an input at its block; an output as found,
  except at a tile's last chunk, where it holds maximum + log(sum) of the columns the point leaves.

  The invariant carries the four columns at what the point before left, beside "the rest" — a wand that turns the four
  columns, at any contents, back into the class invariant the launch hands over and takes back.
-/
import proofs.«126184_j41180146434370_1_alg».proof.Proof.Gen.KernelIdeal.Launch
import proofs.«126184_j41180146434370_1_alg».proof.Proof.Gen.KernelIdeal.Skeleton
import proofs.«126184_j41180146434370_1_alg».proof.Proof.Gen.KernelIdeal.Points
import proofs.«126184_j41180146434370_1_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What the inputs' staging buffers hold when the body runs -/

/-- The student rows' current staging buffer holds its block at every point, fetched there or not: where the pipeline does not fetch it the block index has
    not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The student weights' current staging buffer holds its block at every point, fetched there or not: where the pipeline does not fetch it the block index has
    not moved, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The teacher rows' current staging buffer holds its block at every point, fetched there or not: where the pipeline does not fetch it the block index has
    not moved, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The teacher weights' current staging buffer holds its block at every point, fetched there or not: where the pipeline does not fetch it the block index has
    not moved, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The class invariant, split into the four carried columns and the rest -/

/-- What the launch hands the region holds the four scratch columns at some contents; everything else it holds (the
    other region's staging and scratch buffers, the generator register) is exactly what gives it back once the four
    columns return, at whatever contents. -/
theorem PhiA_split0 (c : Dev nD) : (Pipeline.ΦA spec0 c : sProp 𝕄) ⊢ iprop(scAny0 c ∗ hole0 c) := by
  unfold hole0 scAny0 Pipeline.ΦA
  rw [scopedRest0_eq]
  simp only [scM0_0, scM0_1, scM0_2, scM0_3, owns_whole]
  iintro ⟨⟨S0, S1, S2, S3, Hrest⟩, Hg⟩
  isplitl [S0 S1 S2 S3]
  · isplitl [S0]; · iexact S0
    isplitl [S1]; · iexact S1
    isplitl [S2]; · iexact S2
    iexact S3
  iintro ⟨S0, S1, S2, S3⟩
  isplitr [Hg]
  · isplitl [S0]; · iexact S0
    isplitl [S1]; · iexact S1
    isplitl [S2]; · iexact S2
    isplitl [S3]; · iexact S3
    iexact Hrest
  iexact Hg

/-- The four columns at named contents are, in particular, the four columns at some contents. -/
theorem scAt0_forget (c : Dev nD) (p : St0 F) : (scAt0 c p : sProp 𝕄) ⊢ scAny0 c := by
  unfold scAt0 scAny0
  iintro ⟨S0, S1, S2, S3⟩
  isplitl [S0]; · iexists _; iexact S0
  isplitl [S1]; · iexists _; iexact S1
  isplitl [S2]; · iexists _; iexact S2
  iexists _; iexact S3

/-! ## The body obligation, at a generic point -/

/-- What the body is called with at point `t`: the invariant, the core's debts, and each window's current staging buffer
    at what it holds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any point. The inputs' buffers hold their blocks; the point's place in its tile (first chunk, last
    chunk, neither) says which case of the body runs. The invariant hands the body the four columns — at what the
    point before left, or at anything before the very first point and at a tile's first chunk, where they are reset —
    and takes them back at this point's update; an output block is left as found except at a tile's last chunk, where it
    receives maximum + log(sum) of the updated columns; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hN : t.val < 1000 := lt_of_lt_of_eq t.isLt (show cfg0.N = 1000 from N_0)
  by_cases h0 : t.val % 125 = 0
  · -- a tile's first chunk
    have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [stat0_first V c t h0, Phi0_castSucc V c t]
    have hPhi : Phi0 V c t.val (Nat.le_of_lt t.isLt) ⊢ iprop(scAny0 c ∗ hole0 c) := by
      by_cases hz : t.val = 0
      · rw [Phi0_zero V c _ _ hz]; exact PhiA_split0 c
      · rw [Phi0_pos V c _ _ hz]
        iintro ⟨Hs, Hh⟩
        isplitl [Hs]; · iapply (scAt0_forget c _); iexact Hs
        iexact Hh
    iintro ⟨HPhi, Ho, ⟨%d0, H0⟩, ⟨%d1, H1⟩, ⟨%d2, H2⟩, ⟨%d3, H3⟩, H4, H5⟩
    ihave Hx := (hPhi) $$ HPhi
    icases Hx with ⟨Hs, Hh⟩
    unfold scAny0
    icases Hs with ⟨S0, S1, S2, S3⟩
    iapply (run0_first c (grid0.coords t) _ _ _ _ _ _ _ _ _ _ _ _ _ _ _ _ _ _ _ _ hc0 hc1
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iintro ⟨H0, H1, H2, H3, S0, S1, S2, S3⟩
    isplitl [S0 S1 S2 S3 Hh]
    · isplitr [Hh]
      · unfold scAt0
        isplitl [S0]; · iexact S0
        isplitl [S1]; · iexact S1
        isplitl [S2]; · iexact S2
        iexact S3
      iexact Hh
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond0_0 (grid0.coords t) := fun h => h0 ((hcond0_0 t).mp h)
    have hz : t.val ≠ 0 := fun e => h0 (by rw [e])
    rw [stat0_next V c t h0, Phi0_castSucc V c t, Phi0_pos V c _ _ hz]
    by_cases h1 : t.val % 125 = 124
    · -- a tile's last chunk
      have hc1 : cond0_1 (grid0.coords t) := (hcond0_1 t).mpr h1
      rw [show (dat0 V c).leavesExact 4 t = owns (c : Thread nD τ) (st0_4 t) fullShare ((dat0 V c).after 4 t) from by
        unfold Dat.leavesExact; rw [liveAt0_4 t hc1], after0_4]
      rw [show (dat0 V c).leavesExact 5 t = owns (c : Thread nD τ) (st0_5 t) fullShare ((dat0 V c).after 5 t) from by
        unfold Dat.leavesExact; rw [liveAt0_5 t hc1], after0_5]
      rw [stat0_next V c t h0]
      iintro ⟨⟨Hs, Hh⟩, Ho, ⟨%d0, H0⟩, ⟨%d1, H1⟩, ⟨%d2, H2⟩, ⟨%d3, H3⟩, ⟨%d4, H4⟩, ⟨%d5, H5⟩⟩
      unfold scAt0
      icases Hs with ⟨S0, S1, S2, S3⟩
      iapply (run0_last c (grid0.coords t) _ _ _ _ _ _ _ _ _ _ _ _ _ _ _ _ _ _ _ _ hc0 hc1
        (iblk0 V c 0 t) (iblk0 V c 1 t) (iblk0 V c 2 t) (iblk0 V c 3 t)
        (stat0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      isplitl [H4]; · iexists _; iexact H4
      isplitl [H5]; · iexists _; iexact H5
      iintro ⟨H0, H1, H2, H3, S0, S1, S2, S3, H4, H5⟩
      isplitl [S0 S1 S2 S3 Hh]
      · isplitr [Hh]
        · isplitl [S0]; · iexact S0
          isplitl [S1]; · iexact S1
          isplitl [S2]; · iexact S2
          iexact S3
        iexact Hh
      isplitl [Ho]; · iexact Ho
      isplitl [H0]; · iexact H0
      isplitl [H1]; · iexact H1
      isplitl [H2]; · iexact H2
      isplitl [H3]; · iexact H3
      isplitl [H4]; · iexact H4
      iexact H5
    · -- neither first nor last
      have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨Hs, Hh⟩, Ho, ⟨%d0, H0⟩, ⟨%d1, H1⟩, ⟨%d2, H2⟩, ⟨%d3, H3⟩, H4, H5⟩
      unfold scAt0
      icases Hs with ⟨S0, S1, S2, S3⟩
      iapply (run0_mid c (grid0.coords t) _ _ _ _ _ _ _ _ _ _ _ _ _ _ _ _ _ _ _ _ hc0 hc1
        (iblk0 V c 0 t) (iblk0 V c 1 t) (iblk0 V c 2 t) (iblk0 V c 3 t)
        (stat0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      iintro ⟨H0, H1, H2, H3, S0, S1, S2, S3⟩
      isplitl [S0 S1 S2 S3 Hh]
      · isplitr [Hh]
        · isplitl [S0]; · iexact S0
          isplitl [S1]; · iexact S1
          isplitl [S2]; · iexact S2
          iexact S3
        iexact Hh
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class invariant back: the columns' named contents are forgotten and the
    rest takes them in. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 1000 := N_0; omega)]
  unfold hole0
  iintro ⟨Hs, Hh⟩
  iapply Hh
  iapply (scAt0_forget c _)
  iexact Hs

end Region0

end Cert.KernelIdeal.Gen

end
-- ==== Proof.R1Defs.lean ====
/-
  Region 1 (the loss pass) as proof data, at any float instance and at any contents `V` of the TensorCore's buffers
  when the region is entered.

  The grid is again 8 token tiles by 125 vocabulary chunks, point t = 125·i + j. The body keeps one column of 512 numbers
  between points: the per-token sum, over the chunks seen so far, of the chunk's row sums of
  ½·p·(log p − log m) + ½·q·(log q − log m), with log q = student logit − student log-sum-exp, log p the teacher's, and
  m = ½p + ½q. `step1` is one point's update from the point's six input blocks; at a tile's first chunk it starts from 0,
  at the others from what the point before left: `stat1`. At a tile's last chunk the output block receives the column.
-/
import proofs.«126184_j41180146434370_1_alg».proof.Proof.Gen.KernelIdeal.Launch
import proofs.«126184_j41180146434370_1_alg».proof.Proof.Gen.KernelIdeal.Skeleton
import proofs.«126184_j41180146434370_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a tile's first chunk starts from: 0. -/
def init1 : Vec F S512x1 .f32 := k1_pay2

/-- One point's update of the carried column from the point's input blocks (student rows, student weights, teacher rows,
    teacher weights, student log-sum-exp, teacher log-sum-exp): the old column plus the chunk's row sums. -/
def step1 (xs : Vec F S512x2048 .f32) (ws : Vec F S256x2048 .f32) (xt : Vec F S512x2048 .f32) (wt : Vec F S256x2048 .f32)
    (ls lt : Vec F S512x1 .f32) (acc : Vec F S512x1 .f32) : Vec F S512x1 .f32 :=
  k1_pay1 (k1_pay3 xs ws ls) (k1_pay6 xs ws ls) (k1_pay7 xs ws xt wt ls lt) (k1_pay8 xt wt lt) (k1_pay9 xs ws xt wt ls lt) acc

/-- The carried column after the body at position `n`. -/
def stat1 (c : Dev nD) : (n : ℕ) → n < cfg1.N → Vec F S512x1 .f32
  | 0, hn => step1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) init1
  | n + 1, hn =>
    if (n + 1) % 125 = 0 then
      step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) init1
    else
      step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
        (stat1 c n (Nat.lt_of_succ_lt hn))

/-- At a tile's first chunk the column restarts. -/
theorem stat1_first (c : Dev nD) (t : Fin cfg1.N) (h : t.val % 125 = 0) :
    stat1 V c t.val t.isLt = step1 (iblk1 V c 0 t) (iblk1 V c 1 t) (iblk1 V c 2 t) (iblk1 V c 3 t) (iblk1 V c 4 t) (iblk1 V c 5 t) init1 := by
  obtain ⟨n, hn⟩ := t
  cases n with
  | zero => rfl
  | succ n => exact if_pos h

/-- At any other chunk it continues from the point before. -/
theorem stat1_next (c : Dev nD) (t : Fin cfg1.N) (h : ¬t.val % 125 = 0) :
    stat1 V c t.val t.isLt = step1 (iblk1 V c 0 t) (iblk1 V c 1 t) (iblk1 V c 2 t) (iblk1 V c 3 t) (iblk1 V c 4 t) (iblk1 V c 5 t)
      (stat1 V c (t.val - 1) (Nat.lt_of_le_of_lt (Nat.sub_le _ _) t.isLt)) := by
  obtain ⟨n, hn⟩ := t
  cases n with
  | zero => exact absurd (Nat.zero_mod _) h
  | succ n => exact if_neg h

/-! ## The scratch operand and the invariant -/

abbrev scM1_0 : Memref sig .tc .vmem S512x1 .f32 := Memref.whole cc1_scratch0

/-- Everything else the region's invariant holds (the other scoped buffers, the generator register): what turns the
    scratch buffer, at any contents, back into the class invariant. -/
def hole1 (c : Dev nD) : sProp 𝕄 := iprop((∃ d, owns (c : Thread nD τ) scM1_0 fullShare d) -∗ Pipeline.ΦA spec1 c)

/-- The region invariant before position `n`: the class invariant before the first point; afterwards the scratch buffer
    at what the point before left, beside the rest. -/
def Phi1 (c : Dev nD) : (n : ℕ) → n ≤ cfg1.N → sProp 𝕄
  | 0, _ => Pipeline.ΦA spec1 c
  | n + 1, hn => iprop(owns (c : Thread nD τ) scM1_0 fullShare (stat1 V c n hn) ∗ hole1 c)

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1_0 fullShare (stat1 V c n hn) ∗ hole1 c) := rfl
theorem Phi1_pos (c : Dev nD) (n : ℕ) (h : n ≤ cfg1.N) (hz : n ≠ 0) :
    Phi1 V c n h = iprop(owns (c : Thread nD τ) scM1_0 fullShare (stat1 V c (n - 1) (by omega)) ∗ hole1 c) := by
  cases n with
  | zero => exact absurd rfl hz
  | succ n => rfl

/-! ## The proof data -/

/-- Pipeline 1's proof data on core `c`: the arrays as the region finds them; after the body each input's buffer at its
    block and the output's at the point's carried column (read only where the pipeline writes it back: a tile's last
    chunk); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => stat1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = stat1 V c t.val t.isLt := by dsimp only [dat1]

/-! ## The body's two conditions over the grid -/

/-- The first `scf.if`: the point is a tile's first chunk. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 125 = 0 :=
  (by decide +kernel : ∀ t : Fin grid1.N, cond1_0 (grid1.coords t) ↔ t.val % 125 = 0)
/-- The second: it is a tile's last chunk. -/
abbrev cond1_1 (i : grid1.Coords) : Prop := k1_cond2 i = 1#1
theorem hcond1_1 : ∀ t : Fin cfg1.N, cond1_1 (grid1.coords t) ↔ t.val % 125 = 124 :=
  (by decide +kernel : ∀ t : Fin grid1.N, cond1_1 (grid1.coords t) ↔ t.val % 125 = 124)

/-- The inputs are never idle; the output is idle, and not written back, except at a tile's last chunk. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

end Region1

end Cert.KernelIdeal.Gen

end
-- ==== Proof.R1Runs.lean ====
/-
  The loss pass's body at one grid point, in each of the three ways its two conditions can fall, on any whole buffers and at
  any float instance.

  The body reads its six input blocks (student rows and weights, teacher rows and weights, the two log-sum-exp columns) and
  keeps one column of 512 partial sums between points. At a tile's first chunk it overwrites that column with zeros before
  adding the chunk's row sums; at the other chunks it adds them to what the point before left; at a tile's last chunk it
  then copies the column into the output block. So the column ends at `step1` of the six blocks and of what it started
  from (zeros at a first chunk), the inputs are left as they were, and the output block is touched only at a last chunk,
  where it receives the same column. A tile has 125 chunks, so its first chunk is never its last.

  Every load and store of the body goes through the whole of its buffer, which is why the buffer's earlier contents never
  matter after a store and a load after a store reads exactly what was stored.
-/
import proofs.«126184_j41180146434370_1_alg».proof.Proof.R1Defs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole buffer

Every access of the body goes through the rectangle that is the whole of its buffer (zero offsets, the buffer's own sizes):
a load through it reads the contents, and a store through it, made last, leaves its payload whatever was there. -/

/-- The zero offsets of a two-axis rectangle. -/
theorem r1_off_zero : (![0, 0] : Fin 2 → Nat) = fun _ => 0 := by
  funext a; fin_cases a <;> rfl

/-- Loading the whole of a column buffer reads its contents. -/
theorem r1_load_col (m : Memref sig .tc .vmem S512x1 .f32) (hm : m.IsWhole) (x : Vec F S512x1 .f32) :
    View.readAt (Elt F) m.view (Rect.unit (s := S512x1) ![0, 0] S512x1.size inb_S512x1_S512x1_0_0).toLoadRect (hm.unread x) = x := by
  rw [View.readAt_eq_ld, hm.read_unread]; exact View.ld_unit_zero (S := S512x1) r1_off_zero _ x

/-- Loading the whole of a rows buffer reads its contents. -/
theorem r1_load_rows (m : Memref sig .tc .vmem S512x2048 .f32) (hm : m.IsWhole) (x : Vec F S512x2048 .f32) :
    View.readAt (Elt F) m.view (Rect.unit (s := S512x2048) ![0, 0] S512x2048.size inb_S512x2048_S512x2048_0_0).toLoadRect (hm.unread x) = x := by
  rw [View.readAt_eq_ld, hm.read_unread]; exact View.ld_unit_zero (S := S512x2048) r1_off_zero _ x

/-- Loading the whole of a weights buffer reads its contents. -/
theorem r1_load_wts (m : Memref sig .tc .vmem S256x2048 .f32) (hm : m.IsWhole) (x : Vec F S256x2048 .f32) :
    View.readAt (Elt F) m.view (Rect.unit (s := S256x2048) ![0, 0] S256x2048.size inb_S256x2048_S256x2048_0_0).toLoadRect (hm.unread x) = x := by
  rw [View.readAt_eq_ld, hm.read_unread]; exact View.ld_unit_zero (S := S256x2048) r1_off_zero _ x

/-- The same with the sizes written out. -/
theorem r1_load_col' (m : Memref sig .tc .vmem S512x1 .f32) (hm : m.IsWhole) (x : Vec F S512x1 .f32) :
    View.readAt (Elt F) m.view (Rect.unit (s := S512x1) ![0, 0] ![512, 1] inb_S512x1_S512x1_0_0).toLoadRect (hm.unread x) = x :=
  r1_load_col m hm x

theorem r1_load_rows' (m : Memref sig .tc .vmem S512x2048 .f32) (hm : m.IsWhole) (x : Vec F S512x2048 .f32) :
    View.readAt (Elt F) m.view (Rect.unit (s := S512x2048) ![0, 0] ![512, 2048] inb_S512x2048_S512x2048_0_0).toLoadRect (hm.unread x) = x :=
  r1_load_rows m hm x

theorem r1_load_wts' (m : Memref sig .tc .vmem S256x2048 .f32) (hm : m.IsWhole) (x : Vec F S256x2048 .f32) :
    View.readAt (Elt F) m.view (Rect.unit (s := S256x2048) ![0, 0] ![256, 2048] inb_S256x2048_S256x2048_0_0).toLoadRect (hm.unread x) = x :=
  r1_load_wts m hm x

/-- The whole of a column buffer as a rectangle. -/
abbrev r1_col : Rect S512x1 := Rect.unit (s := S512x1) ![0, 0] S512x1.size inb_S512x1_S512x1_0_0

/-- It holds every index, so a list of stores that has it covers the column. -/
theorem r1_cover_col (w : Vec F S512x1 .f32) (L : List (View.Piece (Elt F) S512x1 .f32)) (y : S512x1.Idx) :
    ∃ p ∈ ((⟨r1_col, w⟩ : View.Piece (Elt F) S512x1 .f32) :: L), y ∈ p.1.set :=
  ⟨⟨r1_col, w⟩, List.mem_cons_self, View.mem_set_unit_zero (S := S512x1) r1_off_zero inb_S512x1_S512x1_0_0 y⟩

/-- The last store through it is what the stores leave. -/
theorem r1_canon_col (w : Vec F S512x1 .f32) (L : List (View.Piece (Elt F) S512x1 .f32)) :
    View.canon ((⟨r1_col, w⟩ : View.Piece (Elt F) S512x1 .f32) :: L) = w :=
  View.canon_cons_unit_zero (S := S512x1) r1_off_zero inb_S512x1_S512x1_0_0 w L

/-- A store of a whole column, made last, is what the buffer then reads, whatever it held and whatever was stored before. -/
theorem r1_read_store_col (v : View sig .tc .vmem S512x1 .f32) (f : v.ty.Contents (Elt F)) (w : Vec F S512x1 .f32)
    (L : List (View.Piece (Elt F) S512x1 .f32)) :
    v.read (Elt F) (v.writes (Elt F) f ((⟨r1_col, w⟩ : View.Piece (Elt F) S512x1 .f32) :: L)) = w := by
  rw [View.read_writes_eq_canon v f _ (r1_cover_col w L)]
  exact r1_canon_col w L

/-- Loading the whole column back after one store of a whole column reads what was stored. -/
theorem r1_readCov_col (v : View sig .tc .vmem S512x1 .f32) (w : Vec F S512x1 .f32) :
    v.readCov [(⟨r1_col, w⟩ : View.Piece (Elt F) S512x1 .f32)] r1_col.toLoadRect = w :=
  View.readCov_unit_zero (S := S512x1) v r1_off_zero inb_S512x1_S512x1_0_0 w

/-- The same with the sizes written out. -/
theorem r1_readCov_col' (v : View sig .tc .vmem S512x1 .f32) (w : Vec F S512x1 .f32) :
    v.readCov [(⟨Rect.unit (s := S512x1) ![0, 0] ![512, 1] inb_S512x1_S512x1_0_0, w⟩ : View.Piece (Elt F) S512x1 .f32)]
      (Rect.unit (s := S512x1) ![0, 0] ![512, 1] inb_S512x1_S512x1_0_0).toLoadRect = w :=
  r1_readCov_col v w

/-! ## The body's three runs -/

set_option maxHeartbeats 4000000 in
/-- A tile's first chunk: whatever the carried column held, it ends at the chunk's row sums added to zeros. The output block
    is not touched. -/
theorem run1_first (c : Dev nD) (i : grid1.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : cond1_0 i) (hc1 : ¬cond1_1 i)
    (xs : Vec F S512x2048 .f32) (ws : Vec F S256x2048 .f32) (xt : Vec F S512x2048 .f32) (wt : Vec F S256x2048 .f32)
    (ls lt : Vec F S512x1 .f32) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt ∗ (∃ d, owns (c : Thread nD τ) arg9 fullShare d)
        ∗ (iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt
            ∗ owns (c : Thread nD τ) arg9 fullShare (step1 xs ws xt wt ls lt init1)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H9
  ipureintro
  rw [r1_read_store_col]
  dsimp only
  simp only [r1_load_col, r1_load_col', r1_load_rows, r1_load_rows', r1_load_wts, r1_load_wts']
  sl_unfold_run_names
  simp only [r1_readCov_col, r1_readCov_col']
  rfl

set_option maxHeartbeats 4000000 in
/-- A chunk that is neither first nor last: the carried column ends at the chunk's row sums added to what it held. The output
    block is not touched. -/
theorem run1_mid (c : Dev nD) (i : grid1.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond1_0 i) (hc1 : ¬cond1_1 i)
    (xs : Vec F S512x2048 .f32) (ws : Vec F S256x2048 .f32) (xt : Vec F S512x2048 .f32) (wt : Vec F S256x2048 .f32)
    (ls lt acc : Vec F S512x1 .f32) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt ∗ owns (c : Thread nD τ) arg9 fullShare acc
        ∗ (iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt
            ∗ owns (c : Thread nD τ) arg9 fullShare (step1 xs ws xt wt ls lt acc)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H9
  ipureintro
  rw [r1_read_store_col]
  dsimp only
  simp only [r1_load_col, r1_load_col', r1_load_rows, r1_load_rows', r1_load_wts, r1_load_wts']
  rfl

set_option maxHeartbeats 4000000 in
/-- A tile's last chunk: the carried column is updated as at a middle chunk and then read back and stored over the whole
    output block, which therefore ends at the same column whatever it held. -/
theorem run1_last (c : Dev nD) (i : grid1.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond1_0 i) (hc1 : cond1_1 i)
    (xs : Vec F S512x2048 .f32) (ws : Vec F S256x2048 .f32) (xt : Vec F S512x2048 .f32) (wt : Vec F S256x2048 .f32)
    (ls lt acc : Vec F S512x1 .f32) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt ∗ owns (c : Thread nD τ) arg9 fullShare acc ∗ (∃ d, owns (c : Thread nD τ) arg8 fullShare d)
        ∗ (iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt
            ∗ owns (c : Thread nD τ) arg9 fullShare (step1 xs ws xt wt ls lt acc)
            ∗ owns (c : Thread nD τ) arg8 fullShare (step1 xs ws xt wt ls lt acc)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%d8, %f8, -, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr
    swap; · iexact H9
    ipureintro
    sl_unfold_run_names
    rw [r1_read_store_col]
    dsimp only
    simp only [r1_load_col, r1_load_col', r1_load_rows, r1_load_rows', r1_load_wts, r1_load_wts']
    rfl
  iexists _; isplitr
  swap; · iexact H8
  ipureintro
  sl_unfold_run_names
  rw [r1_read_store_col]
  simp only [r1_readCov_col, r1_readCov_col']
  try dsimp only
  simp only [r1_load_col, r1_load_col', r1_load_rows, r1_load_rows', r1_load_wts, r1_load_wts']
  rfl

end Cert.KernelIdeal.Gen

end
-- ==== Proof.R1Body.lean ====
/-
  Region 1 (the loss pass): the body obligation of its pipeline, and the invariant at the region's two ends.

  At every grid point the six input buffers hold their windows' blocks. The region's invariant carries the scratch column:
  before the first point it is the launch's invariant, in which the scratch buffer is one of the scoped buffers at unknown
  contents; after point n it is the scratch buffer at the column `stat1` of point n, beside the wand that gives the
  launch's invariant back. A point that is a tile's first chunk (t ≡ 0 mod 125) restarts the column, any other continues
  it, and a tile's last chunk (t ≡ 124 mod 125) also leaves the column in the output block, which is exactly where the
  pipeline writes that block back; at every other point the output block is idle and handed back as it was found.
-/
import proofs.«126184_j41180146434370_1_alg».proof.Proof.R1Runs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What the input buffers hold -/

/-- Input window 0 (student rows): its current buffer holds the window's block at every point, moved there at this point
    or left from an earlier one. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [after1_0]; unfold Dat.blockOf iblk1; rw [A_eq1 V c 0]; try rfl
  rw [(dat1 V c).before_in_eq_fetched 0 rfl (fun _ => rfl) (fun _ _ _ => rfl) hkeep t d]
  unfold Dat.fetched Dat.blockOf iblk1; rw [A_eq1 V c 0]; try rfl

/-- Input window 1 (student weights): its current buffer holds the window's block at every point, moved there at this point
    or left from an earlier one. -/
theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [after1_1]; unfold Dat.blockOf iblk1; rw [A_eq1 V c 1]; try rfl
  rw [(dat1 V c).before_in_eq_fetched 1 rfl (fun _ => rfl) (fun _ _ _ => rfl) hkeep t d]
  unfold Dat.fetched Dat.blockOf iblk1; rw [A_eq1 V c 1]; try rfl

/-- Input window 2 (teacher rows): its current buffer holds the window's block at every point, moved there at this point
    or left from an earlier one. -/
theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [after1_2]; unfold Dat.blockOf iblk1; rw [A_eq1 V c 2]; try rfl
  rw [(dat1 V c).before_in_eq_fetched 2 rfl (fun _ => rfl) (fun _ _ _ => rfl) hkeep t d]
  unfold Dat.fetched Dat.blockOf iblk1; rw [A_eq1 V c 2]; try rfl

/-- Input window 3 (teacher weights): its current buffer holds the window's block at every point, moved there at this point
    or left from an earlier one. -/
theorem before1_3 (c : Dev nD) (t : Fin cfg1.N) (d) : (dat1 V c).before 3 t d = iblk1 V c 3 t := by
  have hkeep : ∀ t, (cfg1.win 3).cut (cfg1.grid.coords t) ((dat1 V c).after 3 t) = (dat1 V c).blockOf 3 t := by
    intro t; rw [after1_3]; unfold Dat.blockOf iblk1; rw [A_eq1 V c 3]; try rfl
  rw [(dat1 V c).before_in_eq_fetched 3 rfl (fun _ => rfl) (fun _ _ _ => rfl) hkeep t d]
  unfold Dat.fetched Dat.blockOf iblk1; rw [A_eq1 V c 3]; try rfl

/-- Input window 4 (student log-sum-exp): its current buffer holds the window's block at every point, moved there at this point
    or left from an earlier one. -/
theorem before1_4 (c : Dev nD) (t : Fin cfg1.N) (d) : (dat1 V c).before 4 t d = iblk1 V c 4 t := by
  have hkeep : ∀ t, (cfg1.win 4).cut (cfg1.grid.coords t) ((dat1 V c).after 4 t) = (dat1 V c).blockOf 4 t := by
    intro t; rw [after1_4]; unfold Dat.blockOf iblk1; rw [A_eq1 V c 4]; try rfl
  rw [(dat1 V c).before_in_eq_fetched 4 rfl (fun _ => rfl) (fun _ _ _ => rfl) hkeep t d]
  unfold Dat.fetched Dat.blockOf iblk1; rw [A_eq1 V c 4]; try rfl

/-- Input window 5 (teacher log-sum-exp): its current buffer holds the window's block at every point, moved there at this point
    or left from an earlier one. -/
theorem before1_5 (c : Dev nD) (t : Fin cfg1.N) (d) : (dat1 V c).before 5 t d = iblk1 V c 5 t := by
  have hkeep : ∀ t, (cfg1.win 5).cut (cfg1.grid.coords t) ((dat1 V c).after 5 t) = (dat1 V c).blockOf 5 t := by
    intro t; rw [after1_5]; unfold Dat.blockOf iblk1; rw [A_eq1 V c 5]; try rfl
  rw [(dat1 V c).before_in_eq_fetched 5 rfl (fun _ => rfl) (fun _ _ _ => rfl) hkeep t d]
  unfold Dat.fetched Dat.blockOf iblk1; rw [A_eq1 V c 5]; try rfl

/-! ## What the body leaves in them: the block, every input being live at every point -/

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]

/-! ## The launch's invariant, with the scratch buffer taken out -/

/-- The launch's invariant owns seventeen scoped buffers at unknown contents, the loss pass's scratch column last among them,
    and the generator register. Taking the scratch buffer out leaves the wand that puts it back at any contents. -/
theorem PhiA_split1 (c : Dev nD) :
    (Pipeline.ΦA spec1 c : sProp 𝕄) ⊢ iprop((∃ d, owns (c : Thread nD τ) scM1_0 fullShare d) ∗ hole1 c) := by
  unfold hole1 Pipeline.ΦA
  rw [scopedRest1_eq]
  simp only [scM1_0, owns_whole]
  iintro ⟨⟨B0, B1, B2, B3, B4, B5, B6, B7, B8, B9, B10, B11, B12, B13, B14, B15, Hs⟩, Hg⟩
  isplitl [Hs]; · iexact Hs
  iintro Hs
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact Hs
  · iexact Hg

/-! ## The body obligation, at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point, by the point's place in its tile. The inputs hold their blocks; the scratch column comes out of
    the invariant (at unknown contents before the very first point, at the previous point's column afterwards) and goes back
    at this point's column; the output block is idle except at a tile's last chunk, where it ends at the column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, leaves1_4, leaves1_5]
  have hN : t.val < 1000 := lt_of_lt_of_eq t.isLt (show cfg1.N = 1000 from N_1)
  by_cases h0 : t.val % 125 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1), stat1_first V c t h0]
    by_cases hz : t.val = 0
    · rw [Phi1_castSucc, Phi1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HS := (PhiA_split1 c) $$ HΦ
      icases HS with ⟨HS, Hh⟩
      iapply (run1_first c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc, Phi1_pos V c _ _ hz]
      iintro ⟨⟨HS, Hh⟩, Ho, ⟨%d0, H0⟩, ⟨%d1, H1⟩, ⟨%d2, H2⟩, ⟨%d3, H3⟩, ⟨%d4, H4⟩, ⟨%d5, H5⟩, ⟨%d6, H6⟩⟩
      iapply (run1_first c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun e => h0 (by rw [e])
    rw [Phi1_castSucc, Phi1_pos V c _ _ hz]
    by_cases h1 : t.val % 125 = 124
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      rw [stat1_next V c t h0]
      iintro ⟨⟨HS, Hh⟩, Ho, ⟨%d0, H0⟩, ⟨%d1, H1⟩, ⟨%d2, H2⟩, ⟨%d3, H3⟩, ⟨%d4, H4⟩, ⟨%d5, H5⟩, ⟨%d6, H6⟩⟩
      iapply (run1_last c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [H6]; · iexists _; iexact H6
      iintro ⟨H0, H1, H2, H3, H4, H5, HS, H6⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1), stat1_next V c t h0]
      iintro ⟨⟨HS, Hh⟩, Ho, ⟨%d0, H0⟩, ⟨%d1, H1⟩, ⟨%d2, H2⟩, ⟨%d3, H3⟩, ⟨%d4, H4⟩, ⟨%d5, H5⟩, ⟨%d6, H6⟩⟩
      iapply (run1_mid c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the region -/

/-- The launch's invariant is the region's invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last of the 1000 points the invariant is the scratch column beside the wand: forgetting which column it is
    gives the launch's invariant back. -/
theorem hout1 (c : Dev nD) : (dat1 V c).Φ (Fin.last cfg1.N) ⊢ Pipeline.ΦA spec1 c := by
  have hpos : (Fin.last cfg1.N).val ≠ 0 := by
    rw [Fin.val_last]; have : cfg1.N = 1000 := N_1; omega
  rw [show (dat1 V c).Φ (Fin.last cfg1.N) = Phi1 V c (Fin.last cfg1.N).val (Nat.le_of_lt_succ (Fin.last cfg1.N).isLt) from rfl,
    Phi1_pos V c _ _ hpos]
  unfold hole1
  iintro ⟨HS, Hh⟩
  iapply Hh
  iexists _; iexact HS

end Region1

end Cert.KernelIdeal.Gen

end
-- ==== Proof.R0DefsB.lean ====
/-
  Region 0 (the statistics pass) as proof data, at any float instance and at any contents `V` of the TensorCore's
  buffers when the region is entered.

  The grid is 8 token tiles by 125 vocabulary chunks, walked chunk-fastest: point t = 125·i + j. The body keeps four
  columns of 512 numbers between points — for the student logits a running maximum and a running sum of exponentials
  taken relative to that maximum, and the same two for the teacher — and `step0` is one point's update of the four from
  the point's four input blocks. At a tile's first chunk the update starts from (−∞, 0, −∞, 0), at the others from what
  the point before left: `stat0`. At a tile's last chunk the two output blocks receive maximum + log(sum), `lse0`.
-/
import proofs.«126184_j41180146434370_1_alg».proof.Proof.Gen.Kernel.Launch
import proofs.«126184_j41180146434370_1_alg».proof.Proof.Gen.Kernel.Skeleton
import proofs.«126184_j41180146434370_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four carried columns: student maximum, student sum, teacher maximum, teacher sum. -/
abbrev St0 (F : FTy → Type) : Type := Vec F S512x1 .f32 × Vec F S512x1 .f32 × Vec F S512x1 .f32 × Vec F S512x1 .f32

/-- What a tile's first chunk starts from: maxima at −∞, sums at 0. -/
def init0 : St0 F := (k0_pay8, k0_pay9, k0_pay10, k0_pay11)

/-- One point's update of the four columns from the point's input blocks (student rows, student weights, teacher rows,
    teacher weights): the new maximum joins the old with the chunk's row maxima; the new sum is the old one rescaled
    by exp(old maximum − new maximum) plus the chunk's exponentials relative to the new maximum. -/
def step0 (xs : Vec F S512x2048 .f32) (ws : Vec F S256x2048 .f32) (xt : Vec F S512x2048 .f32) (wt : Vec F S256x2048 .f32)
    (p : St0 F) : St0 F :=
  (k0_pay2 (k0_pay14 xs ws p.1), k0_pay1 (k0_pay15 xs ws p.1 p.1 p.2.1),
    k0_pay5 (k0_pay13 xt wt) p.2.2.1, k0_pay4 (k0_pay13 xt wt) p.2.2.1 p.2.2.1 p.2.2.2)

/-- The four columns after the body at position `n`. -/
def stat0 (c : Dev nD) : (n : ℕ) → n < cfg0.N → St0 F
  | 0, hn => step0 (iblk0 V c 0 ⟨0, hn⟩) (iblk0 V c 1 ⟨0, hn⟩) (iblk0 V c 2 ⟨0, hn⟩) (iblk0 V c 3 ⟨0, hn⟩) init0
  | n + 1, hn =>
    if (n + 1) % 125 = 0 then
      step0 (iblk0 V c 0 ⟨n + 1, hn⟩) (iblk0 V c 1 ⟨n + 1, hn⟩) (iblk0 V c 2 ⟨n + 1, hn⟩) (iblk0 V c 3 ⟨n + 1, hn⟩) init0
    else
      step0 (iblk0 V c 0 ⟨n + 1, hn⟩) (iblk0 V c 1 ⟨n + 1, hn⟩) (iblk0 V c 2 ⟨n + 1, hn⟩) (iblk0 V c 3 ⟨n + 1, hn⟩)
        (stat0 c n (Nat.lt_of_succ_lt hn))

/-- At a tile's first chunk the columns restart. -/
theorem stat0_first (c : Dev nD) (t : Fin cfg0.N) (h : t.val % 125 = 0) :
    stat0 V c t.val t.isLt = step0 (iblk0 V c 0 t) (iblk0 V c 1 t) (iblk0 V c 2 t) (iblk0 V c 3 t) init0 := by
  obtain ⟨n, hn⟩ := t
  cases n with
  | zero => rfl
  | succ n => exact if_pos h

/-- At any other chunk they continue from the point before. -/
theorem stat0_next (c : Dev nD) (t : Fin cfg0.N) (h : ¬t.val % 125 = 0) :
    stat0 V c t.val t.isLt = step0 (iblk0 V c 0 t) (iblk0 V c 1 t) (iblk0 V c 2 t) (iblk0 V c 3 t)
      (stat0 V c (t.val - 1) (Nat.lt_of_le_of_lt (Nat.sub_le _ _) t.isLt)) := by
  obtain ⟨n, hn⟩ := t
  cases n with
  | zero => exact absurd (Nat.zero_mod _) h
  | succ n => exact if_neg h

/-- What the two output blocks receive at a tile's last chunk: maximum + log(sum), student and teacher. -/
def lse0_s (p : St0 F) : Vec F S512x1 .f32 := k0_pay6 p.1 p.2.1
def lse0_t (p : St0 F) : Vec F S512x1 .f32 := k0_pay7 p.2.2.1 p.2.2.2

/-! ## The scratch operands and the invariant -/

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3

/-- The four scratch buffers at some contents. -/
def scAny0 (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d))

/-- The four scratch buffers at named contents. -/
def scAt0 (c : Dev nD) (p : St0 F) : sProp 𝕄 :=
  iprop(owns (c : Thread nD τ) scM0_0 fullShare p.1 ∗ owns (c : Thread nD τ) scM0_1 fullShare p.2.1
    ∗ owns (c : Thread nD τ) scM0_2 fullShare p.2.2.1 ∗ owns (c : Thread nD τ) scM0_3 fullShare p.2.2.2)

/-- Everything else the region's invariant holds (the other scoped buffers, the generator register): what turns the four
    scratch buffers, at any contents, back into the class invariant. -/
def hole0 (c : Dev nD) : sProp 𝕄 := iprop(scAny0 (F := F) c -∗ Pipeline.ΦA spec0 c)

/-- The region invariant before position `n`: the class invariant before the first point; afterwards the four scratch
    buffers at what the point before left, beside the rest. -/
def Phi0 (c : Dev nD) : (n : ℕ) → n ≤ cfg0.N → sProp 𝕄
  | 0, _ => Pipeline.ΦA spec0 c
  | n + 1, hn => iprop(scAt0 c (stat0 V c n hn) ∗ hole0 c)

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(scAt0 c (stat0 V c n hn) ∗ hole0 c) := rfl
theorem Phi0_pos (c : Dev nD) (n : ℕ) (h : n ≤ cfg0.N) (hz : n ≠ 0) :
    Phi0 V c n h = iprop(scAt0 c (stat0 V c (n - 1) (by omega)) ∗ hole0 c) := by
  cases n with
  | zero => exact absurd rfl hz
  | succ n => rfl

/-! ## The proof data -/

/-- Pipeline 0's proof data on core `c`: the arrays as the region finds them; after the body each input's buffer at its
    block and the two outputs' at maximum + log(sum) of the point's columns (read only where the pipeline writes them
    back: a tile's last chunk); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => lse0_s (stat0 V c t.val t.isLt)
    | ⟨5, _⟩ => lse0_t (stat0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = lse0_s (stat0 V c t.val t.isLt) := by dsimp only [dat0]
theorem after0_5 (c : Dev nD) (t : Fin cfg0.N) : (dat0 V c).after 5 t = lse0_t (stat0 V c t.val t.isLt) := by dsimp only [dat0]

/-! ## The body's two conditions over the grid -/

/-- The first `scf.if`: the point is a tile's first chunk. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)
/-- The second: it is a tile's last chunk. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-- The inputs are never idle; the outputs are idle, and not written back, except at a tile's last chunk. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

end Region0

end Cert.Kernel.Gen

end
-- ==== Proof.R0RunsB.lean ====
/-
  Region 0, the statistics pass: what ONE call of the body does to the buffers it is handed, in each of its three control
  cases (a tile's first chunk, a middle chunk, a tile's last chunk; with 125 chunks a chunk is never both first and last).

  Each case is a triple over ANY whole memrefs, at any float instance: the four input blocks (student rows and weights,
  teacher rows and weights) come back as they were; the four carried columns (student maximum, student sum of
  exponentials, teacher maximum, teacher sum) go from what they held to `step0` of it — at a first chunk from the reset
  values, whatever they held —; and at a last chunk the two output blocks receive maximum + log(sum) of the new columns.
  The order of the body's loads and stores matters and is what `step0` records: the student maximum is read before it is
  overwritten, the sum is rescaled by the OLD maximum against the new one, and the outputs read the columns after the
  update.
-/
import proofs.«126184_j41180146434370_1_alg».proof.Proof.Gen.Kernel.Launch
import proofs.«126184_j41180146434370_1_alg».proof.Proof.Gen.Kernel.Skeleton
import proofs.«126184_j41180146434370_1_alg».proof.Proof.Gen.Kernel.Points
import proofs.«126184_j41180146434370_1_alg».proof.Proof.R0DefsB
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets of a rank-2 access, spelt as a constant function. -/
theorem zeros0 : (![0, 0] : Fin 2 → Nat) = fun _ => 0 := by
  funext a; fin_cases a <;> rfl

/-- Every index of a column of 512 lies in the rectangle that spans the whole column. -/
theorem mem_col0 (y : S512x1.Idx) :
    y ∈ (Rect.unit (s := S512x1) ![0, 0] S512x1.size inb_S512x1_S512x1_0_0).set :=
  View.mem_set_unit_zero (S := S512x1) zeros0 inb_S512x1_S512x1_0_0 y

/-- A column of 512 numbers read back after a list of stores whose LAST one (the list's head) went through the whole
    column: that store's payload, whatever the column held and whatever was stored before. -/
theorem read_col_stored0 (m : Memref sig .tc .vmem S512x1 .f32) (f : m.view.ty.Contents (Elt F)) (w : Vec F S512x1 .f32)
    (L : List (View.Piece (Elt F) S512x1 .f32)) :
    m.view.read (Elt F) (m.view.writes (Elt F) f
      ((⟨Rect.unit (s := S512x1) ![0, 0] S512x1.size inb_S512x1_S512x1_0_0, w⟩ : View.Piece (Elt F) S512x1 .f32) :: L)) = w := by
  refine (View.read_writes_of_cover_last m.view f m.view f
    (⟨Rect.unit (s := S512x1) ![0, 0] S512x1.size inb_S512x1_S512x1_0_0, w⟩ : View.Piece (Elt F) S512x1 .f32) L [] mem_col0).trans ?_
  rw [View.read_writes_eq_canon m.view f _ (fun y => ⟨(⟨Rect.unit (s := S512x1) ![0, 0] S512x1.size inb_S512x1_S512x1_0_0, w⟩ : View.Piece (Elt F) S512x1 .f32), List.mem_singleton_self _, mem_col0 y⟩)]
  exact View.canon_unit_zero (S := S512x1) zeros0 inb_S512x1_S512x1_0_0 w

/-! ## The three control cases of the body -/

set_option maxHeartbeats 4000000 in
/-- A tile's FIRST chunk: the four columns, whatever they held, are reset to (−∞, 0, −∞, 0) and then updated from the
    point's blocks; the output blocks are not touched. -/
theorem run0_first (c : Dev nD) (i : grid0.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : cond0_0 i) (hc1 : ¬cond0_1 i)
    (xs : Vec F S512x2048 .f32) (ws : Vec F S256x2048 .f32) (xt : Vec F S512x2048 .f32) (wt : Vec F S256x2048 .f32)
    (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare xs ∗ owns (c : Thread nD τ) arg3 fullShare ws ∗ owns (c : Thread nD τ) arg4 fullShare xt ∗ owns (c : Thread nD τ) arg5 fullShare wt
            ∗ owns (c : Thread nD τ) arg8 fullShare (step0 xs ws xt wt init0).1 ∗ owns (c : Thread nD τ) arg9 fullShare (step0 xs ws xt wt init0).2.1
            ∗ owns (c : Thread nD τ) arg10 fullShare (step0 xs ws xt wt init0).2.2.1 ∗ owns (c : Thread nD τ) arg11 fullShare (step0 xs ws xt wt init0).2.2.2) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K := by
  dsimp only [step0, init0]
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H8]
  · iexists _; isplitr; swap; · iexact H8
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H9]
  · iexists _; isplitr; swap; · iexact H9
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H10]
  · iexists _; isplitr; swap; · iexact H10
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  iexists _; isplitr; swap; · iexact H11
  ipureintro
  refine (read_col_stored0 _ _ _ _).trans ?_
  (try dsimp only); sl_unfold_words
  simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]

set_option maxHeartbeats 4000000 in
/-- A chunk that is neither first nor last: the four columns go from `p` to `step0 … p`; the output blocks are not
    touched. -/
theorem run0_mid (c : Dev nD) (i : grid0.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : ¬cond0_1 i)
    (xs : Vec F S512x2048 .f32) (ws : Vec F S256x2048 .f32) (xt : Vec F S512x2048 .f32) (wt : Vec F S256x2048 .f32)
    (p : St0 F) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg8 fullShare p.1 ∗ owns (c : Thread nD τ) arg9 fullShare p.2.1 ∗ owns (c : Thread nD τ) arg10 fullShare p.2.2.1 ∗ owns (c : Thread nD τ) arg11 fullShare p.2.2.2
        ∗ (iprop(owns (c : Thread nD τ) arg2 fullShare xs ∗ owns (c : Thread nD τ) arg3 fullShare ws ∗ owns (c : Thread nD τ) arg4 fullShare xt ∗ owns (c : Thread nD τ) arg5 fullShare wt
            ∗ owns (c : Thread nD τ) arg8 fullShare (step0 xs ws xt wt p).1 ∗ owns (c : Thread nD τ) arg9 fullShare (step0 xs ws xt wt p).2.1
            ∗ owns (c : Thread nD τ) arg10 fullShare (step0 xs ws xt wt p).2.2.1 ∗ owns (c : Thread nD τ) arg11 fullShare (step0 xs ws xt wt p).2.2.2) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K := by
  dsimp only [step0]
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H8]
  · iexists _; isplitr; swap; · iexact H8
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H9]
  · iexists _; isplitr; swap; · iexact H9
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H10]
  · iexists _; isplitr; swap; · iexact H10
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  iexists _; isplitr; swap; · iexact H11
  ipureintro
  refine (read_col_stored0 _ _ _ _).trans ?_
  (try dsimp only); sl_unfold_words
  simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]

set_option maxHeartbeats 4000000 in
/-- A tile's LAST chunk: the four columns go from `p` to `step0 … p`, and the two output blocks, whatever they held,
    receive maximum + log(sum) of the UPDATED columns (the body reads the columns back after storing them). -/
theorem run0_last (c : Dev nD) (i : grid0.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole) (arg11 : Memref sig .tc .vmem S512x1 .f32) (harg11 : arg11.IsWhole)
    (hc0 : ¬cond0_0 i) (hc1 : cond0_1 i)
    (xs : Vec F S512x2048 .f32) (ws : Vec F S256x2048 .f32) (xt : Vec F S512x2048 .f32) (wt : Vec F S256x2048 .f32)
    (p : St0 F) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg8 fullShare p.1 ∗ owns (c : Thread nD τ) arg9 fullShare p.2.1 ∗ owns (c : Thread nD τ) arg10 fullShare p.2.2.1 ∗ owns (c : Thread nD τ) arg11 fullShare p.2.2.2
        ∗ (∃ d, owns (c : Thread nD τ) arg6 fullShare d) ∗ (∃ d, owns (c : Thread nD τ) arg7 fullShare d)
        ∗ (iprop(owns (c : Thread nD τ) arg2 fullShare xs ∗ owns (c : Thread nD τ) arg3 fullShare ws ∗ owns (c : Thread nD τ) arg4 fullShare xt ∗ owns (c : Thread nD τ) arg5 fullShare wt
            ∗ owns (c : Thread nD τ) arg8 fullShare (step0 xs ws xt wt p).1 ∗ owns (c : Thread nD τ) arg9 fullShare (step0 xs ws xt wt p).2.1
            ∗ owns (c : Thread nD τ) arg10 fullShare (step0 xs ws xt wt p).2.2.1 ∗ owns (c : Thread nD τ) arg11 fullShare (step0 xs ws xt wt p).2.2.2
            ∗ owns (c : Thread nD τ) arg6 fullShare (lse0_s (step0 xs ws xt wt p)) ∗ owns (c : Thread nD τ) arg7 fullShare (lse0_t (step0 xs ws xt wt p))) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11) K := by
  dsimp only [lse0_s, lse0_t, step0]
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, ⟨%d6, %f6, -, H6⟩, ⟨%d7, %f7, -, H7⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10; obtain rfl := harg11.eq_unread hf11
  sl_exec (disch := first | exact hc0 | exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H8]
  · iexists _; isplitr; swap; · iexact H8
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H9]
  · iexists _; isplitr; swap; · iexact H9
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H10]
  · iexists _; isplitr; swap; · iexact H10
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H11]
  · iexists _; isplitr; swap; · iexact H11
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  isplitl [H6]
  · iexists _; isplitr; swap; · iexact H6
    ipureintro
    refine (read_col_stored0 _ _ _ _).trans ?_
    (try dsimp only); sl_unfold_words
    simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]
  iexists _; isplitr; swap; · iexact H7
  ipureintro
  refine (read_col_stored0 _ _ _ _).trans ?_
  (try dsimp only); sl_unfold_words
  simp only [View.readAt_eq_ld, Memref.IsWhole.read_unread, View.ld_unit_zero (S := S512x1) zeros0,
      View.ld_unit_zero (S := S512x2048) zeros0, View.ld_unit_zero (S := S256x2048) zeros0,
      View.readCov_unit_zero (S := S512x1) _ zeros0]

end Cert.Kernel.Gen

end
-- ==== Proof.R0BodyB.lean ====
/-
  Region 0, the statistics pass: the pipeline's body obligation. At every grid point the body, called on the windows'
  current staging buffers and the four scratch columns, takes the region invariant before the point to the invariant
  after it and leaves every window's buffer at what the proof data says: an input at its block; an output as found,
  except at a tile's last chunk, where it holds maximum + log(sum) of the columns the point leaves.

  The invariant carries the four columns at what the point before left, beside "the rest" — a wand that turns the four
  columns, at any contents, back into the class invariant the launch hands over and takes back.
-/
import proofs.«126184_j41180146434370_1_alg».proof.Proof.Gen.Kernel.Launch
import proofs.«126184_j41180146434370_1_alg».proof.Proof.Gen.Kernel.Skeleton
import proofs.«126184_j41180146434370_1_alg».proof.Proof.Gen.Kernel.Points
import proofs.«126184_j41180146434370_1_alg».proof.Proof.R0RunsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What the inputs' staging buffers hold when the body runs -/

/-- The student rows' current staging buffer holds its block at every point, fetched there or not: where the pipeline does not fetch it the block index has
    not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The student weights' current staging buffer holds its block at every point, fetched there or not: where the pipeline does not fetch it the block index has
    not moved, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The teacher rows' current staging buffer holds its block at every point, fetched there or not: where the pipeline does not fetch it the block index has
    not moved, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The teacher weights' current staging buffer holds its block at every point, fetched there or not: where the pipeline does not fetch it the block index has
    not moved, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The class invariant, split into the four carried columns and the rest -/

/-- What the launch hands the region holds the four scratch columns at some contents; everything else it holds (the
    other region's staging and scratch buffers, the generator register) is exactly what gives it back once the four
    columns return, at whatever contents. -/
theorem PhiA_split0 (c : Dev nD) : (Pipeline.ΦA spec0 c : sProp 𝕄) ⊢ iprop(scAny0 c ∗ hole0 c) := by
  unfold hole0 scAny0 Pipeline.ΦA
  rw [scopedRest0_eq]
  simp only [scM0_0, scM0_1, scM0_2, scM0_3, owns_whole]
  iintro ⟨⟨S0, S1, S2, S3, Hrest⟩, Hg⟩
  isplitl [S0 S1 S2 S3]
  · isplitl [S0]; · iexact S0
    isplitl [S1]; · iexact S1
    isplitl [S2]; · iexact S2
    iexact S3
  iintro ⟨S0, S1, S2, S3⟩
  isplitr [Hg]
  · isplitl [S0]; · iexact S0
    isplitl [S1]; · iexact S1
    isplitl [S2]; · iexact S2
    isplitl [S3]; · iexact S3
    iexact Hrest
  iexact Hg

/-- The four columns at named contents are, in particular, the four columns at some contents. -/
theorem scAt0_forget (c : Dev nD) (p : St0 F) : (scAt0 c p : sProp 𝕄) ⊢ scAny0 c := by
  unfold scAt0 scAny0
  iintro ⟨S0, S1, S2, S3⟩
  isplitl [S0]; · iexists _; iexact S0
  isplitl [S1]; · iexists _; iexact S1
  isplitl [S2]; · iexists _; iexact S2
  iexists _; iexact S3

/-! ## The body obligation, at a generic point -/

/-- What the body is called with at point `t`: the invariant, the core's debts, and each window's current staging buffer
    at what it holds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any point. The inputs' buffers hold their blocks; the point's place in its tile (first chunk, last
    chunk, neither) says which case of the body runs. The invariant hands the body the four columns — at what the
    point before left, or at anything before the very first point and at a tile's first chunk, where they are reset —
    and takes them back at this point's update; an output block is left as found except at a tile's last chunk, where it
    receives maximum + log(sum) of the updated columns; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hN : t.val < 1000 := lt_of_lt_of_eq t.isLt (show cfg0.N = 1000 from N_0)
  by_cases h0 : t.val % 125 = 0
  · -- a tile's first chunk
    have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [stat0_first V c t h0, Phi0_castSucc V c t]
    have hPhi : Phi0 V c t.val (Nat.le_of_lt t.isLt) ⊢ iprop(scAny0 c ∗ hole0 c) := by
      by_cases hz : t.val = 0
      · rw [Phi0_zero V c _ _ hz]; exact PhiA_split0 c
      · rw [Phi0_pos V c _ _ hz]
        iintro ⟨Hs, Hh⟩
        isplitl [Hs]; · iapply (scAt0_forget c _); iexact Hs
        iexact Hh
    iintro ⟨HPhi, Ho, ⟨%d0, H0⟩, ⟨%d1, H1⟩, ⟨%d2, H2⟩, ⟨%d3, H3⟩, H4, H5⟩
    ihave Hx := (hPhi) $$ HPhi
    icases Hx with ⟨Hs, Hh⟩
    unfold scAny0
    icases Hs with ⟨S0, S1, S2, S3⟩
    iapply (run0_first c (grid0.coords t) _ _ _ _ _ _ _ _ _ _ _ _ _ _ _ _ _ _ _ _ hc0 hc1
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iintro ⟨H0, H1, H2, H3, S0, S1, S2, S3⟩
    isplitl [S0 S1 S2 S3 Hh]
    · isplitr [Hh]
      · unfold scAt0
        isplitl [S0]; · iexact S0
        isplitl [S1]; · iexact S1
        isplitl [S2]; · iexact S2
        iexact S3
      iexact Hh
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond0_0 (grid0.coords t) := fun h => h0 ((hcond0_0 t).mp h)
    have hz : t.val ≠ 0 := fun e => h0 (by rw [e])
    rw [stat0_next V c t h0, Phi0_castSucc V c t, Phi0_pos V c _ _ hz]
    by_cases h1 : t.val % 125 = 124
    · -- a tile's last chunk
      have hc1 : cond0_1 (grid0.coords t) := (hcond0_1 t).mpr h1
      rw [show (dat0 V c).leavesExact 4 t = owns (c : Thread nD τ) (st0_4 t) fullShare ((dat0 V c).after 4 t) from by
        unfold Dat.leavesExact; rw [liveAt0_4 t hc1], after0_4]
      rw [show (dat0 V c).leavesExact 5 t = owns (c : Thread nD τ) (st0_5 t) fullShare ((dat0 V c).after 5 t) from by
        unfold Dat.leavesExact; rw [liveAt0_5 t hc1], after0_5]
      rw [stat0_next V c t h0]
      iintro ⟨⟨Hs, Hh⟩, Ho, ⟨%d0, H0⟩, ⟨%d1, H1⟩, ⟨%d2, H2⟩, ⟨%d3, H3⟩, ⟨%d4, H4⟩, ⟨%d5, H5⟩⟩
      unfold scAt0
      icases Hs with ⟨S0, S1, S2, S3⟩
      iapply (run0_last c (grid0.coords t) _ _ _ _ _ _ _ _ _ _ _ _ _ _ _ _ _ _ _ _ hc0 hc1
        (iblk0 V c 0 t) (iblk0 V c 1 t) (iblk0 V c 2 t) (iblk0 V c 3 t)
        (stat0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      isplitl [H4]; · iexists _; iexact H4
      isplitl [H5]; · iexists _; iexact H5
      iintro ⟨H0, H1, H2, H3, S0, S1, S2, S3, H4, H5⟩
      isplitl [S0 S1 S2 S3 Hh]
      · isplitr [Hh]
        · isplitl [S0]; · iexact S0
          isplitl [S1]; · iexact S1
          isplitl [S2]; · iexact S2
          iexact S3
        iexact Hh
      isplitl [Ho]; · iexact Ho
      isplitl [H0]; · iexact H0
      isplitl [H1]; · iexact H1
      isplitl [H2]; · iexact H2
      isplitl [H3]; · iexact H3
      isplitl [H4]; · iexact H4
      iexact H5
    · -- neither first nor last
      have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨Hs, Hh⟩, Ho, ⟨%d0, H0⟩, ⟨%d1, H1⟩, ⟨%d2, H2⟩, ⟨%d3, H3⟩, H4, H5⟩
      unfold scAt0
      icases Hs with ⟨S0, S1, S2, S3⟩
      iapply (run0_mid c (grid0.coords t) _ _ _ _ _ _ _ _ _ _ _ _ _ _ _ _ _ _ _ _ hc0 hc1
        (iblk0 V c 0 t) (iblk0 V c 1 t) (iblk0 V c 2 t) (iblk0 V c 3 t)
        (stat0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      iintro ⟨H0, H1, H2, H3, S0, S1, S2, S3⟩
      isplitl [S0 S1 S2 S3 Hh]
      · isplitr [Hh]
        · isplitl [S0]; · iexact S0
          isplitl [S1]; · iexact S1
          isplitl [S2]; · iexact S2
          iexact S3
        iexact Hh
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class invariant back: the columns' named contents are forgotten and the
    rest takes them in. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 1000 := N_0; omega)]
  unfold hole0
  iintro ⟨Hs, Hh⟩
  iapply Hh
  iapply (scAt0_forget c _)
  iexact Hs

end Region0

end Cert.Kernel.Gen

end
-- ==== Proof.R1DefsB.lean ====
/-
  Region 1 (the loss pass) as proof data, at any float instance and at any contents `V` of the TensorCore's buffers
  when the region is entered.

  The grid is again 8 token tiles by 125 vocabulary chunks, point t = 125·i + j. The body keeps one column of 512 numbers
  between points: the per-token sum, over the chunks seen so far, of the chunk's row sums of
  ½·p·(log p − log m) + ½·q·(log q − log m), with log q = student logit − student log-sum-exp, log p the teacher's, and
  m = ½p + ½q. `step1` is one point's update from the point's six input blocks; at a tile's first chunk it starts from 0,
  at the others from what the point before left: `stat1`. At a tile's last chunk the output block receives the column.
-/
import proofs.«126184_j41180146434370_1_alg».proof.Proof.Gen.Kernel.Launch
import proofs.«126184_j41180146434370_1_alg».proof.Proof.Gen.Kernel.Skeleton
import proofs.«126184_j41180146434370_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a tile's first chunk starts from: 0. -/
def init1 : Vec F S512x1 .f32 := k1_pay2

/-- One point's update of the carried column from the point's input blocks (student rows, student weights, teacher rows,
    teacher weights, student log-sum-exp, teacher log-sum-exp): the old column plus the chunk's row sums. -/
def step1 (xs : Vec F S512x2048 .f32) (ws : Vec F S256x2048 .f32) (xt : Vec F S512x2048 .f32) (wt : Vec F S256x2048 .f32)
    (ls lt : Vec F S512x1 .f32) (acc : Vec F S512x1 .f32) : Vec F S512x1 .f32 :=
  k1_pay1 (k1_pay3 xs ws ls) (k1_pay6 xs ws ls) (k1_pay7 xs ws xt wt ls lt) (k1_pay8 xt wt lt) (k1_pay9 xs ws xt wt ls lt) acc

/-- The carried column after the body at position `n`. -/
def stat1 (c : Dev nD) : (n : ℕ) → n < cfg1.N → Vec F S512x1 .f32
  | 0, hn => step1 (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) init1
  | n + 1, hn =>
    if (n + 1) % 125 = 0 then
      step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) init1
    else
      step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
        (stat1 c n (Nat.lt_of_succ_lt hn))

/-- At a tile's first chunk the column restarts. -/
theorem stat1_first (c : Dev nD) (t : Fin cfg1.N) (h : t.val % 125 = 0) :
    stat1 V c t.val t.isLt = step1 (iblk1 V c 0 t) (iblk1 V c 1 t) (iblk1 V c 2 t) (iblk1 V c 3 t) (iblk1 V c 4 t) (iblk1 V c 5 t) init1 := by
  obtain ⟨n, hn⟩ := t
  cases n with
  | zero => rfl
  | succ n => exact if_pos h

/-- At any other chunk it continues from the point before. -/
theorem stat1_next (c : Dev nD) (t : Fin cfg1.N) (h : ¬t.val % 125 = 0) :
    stat1 V c t.val t.isLt = step1 (iblk1 V c 0 t) (iblk1 V c 1 t) (iblk1 V c 2 t) (iblk1 V c 3 t) (iblk1 V c 4 t) (iblk1 V c 5 t)
      (stat1 V c (t.val - 1) (Nat.lt_of_le_of_lt (Nat.sub_le _ _) t.isLt)) := by
  obtain ⟨n, hn⟩ := t
  cases n with
  | zero => exact absurd (Nat.zero_mod _) h
  | succ n => exact if_neg h

/-! ## The scratch operand and the invariant -/

abbrev scM1_0 : Memref sig .tc .vmem S512x1 .f32 := Memref.whole cc1_scratch0

/-- Everything else the region's invariant holds (the other scoped buffers, the generator register): what turns the
    scratch buffer, at any contents, back into the class invariant. -/
def hole1 (c : Dev nD) : sProp 𝕄 := iprop((∃ d, owns (c : Thread nD τ) scM1_0 fullShare d) -∗ Pipeline.ΦA spec1 c)

/-- The region invariant before position `n`: the class invariant before the first point; afterwards the scratch buffer
    at what the point before left, beside the rest. -/
def Phi1 (c : Dev nD) : (n : ℕ) → n ≤ cfg1.N → sProp 𝕄
  | 0, _ => Pipeline.ΦA spec1 c
  | n + 1, hn => iprop(owns (c : Thread nD τ) scM1_0 fullShare (stat1 V c n hn) ∗ hole1 c)

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1_0 fullShare (stat1 V c n hn) ∗ hole1 c) := rfl
theorem Phi1_pos (c : Dev nD) (n : ℕ) (h : n ≤ cfg1.N) (hz : n ≠ 0) :
    Phi1 V c n h = iprop(owns (c : Thread nD τ) scM1_0 fullShare (stat1 V c (n - 1) (by omega)) ∗ hole1 c) := by
  cases n with
  | zero => exact absurd rfl hz
  | succ n => rfl

/-! ## The proof data -/

/-- Pipeline 1's proof data on core `c`: the arrays as the region finds them; after the body each input's buffer at its
    block and the output's at the point's carried column (read only where the pipeline writes it back: a tile's last
    chunk); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => stat1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = stat1 V c t.val t.isLt := by dsimp only [dat1]

/-! ## The body's two conditions over the grid -/

/-- The first `scf.if`: the point is a tile's first chunk. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 125 = 0 :=
  (by decide +kernel : ∀ t : Fin grid1.N, cond1_0 (grid1.coords t) ↔ t.val % 125 = 0)
/-- The second: it is a tile's last chunk. -/
abbrev cond1_1 (i : grid1.Coords) : Prop := k1_cond2 i = 1#1
theorem hcond1_1 : ∀ t : Fin cfg1.N, cond1_1 (grid1.coords t) ↔ t.val % 125 = 124 :=
  (by decide +kernel : ∀ t : Fin grid1.N, cond1_1 (grid1.coords t) ↔ t.val % 125 = 124)

/-- The inputs are never idle; the output is idle, and not written back, except at a tile's last chunk. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

end Region1

end Cert.Kernel.Gen

end
-- ==== Proof.R1RunsB.lean ====
/-
  The loss pass's body at one grid point, in each of the three ways its two conditions can fall, on any whole buffers and at
  any float instance.

  The body reads its six input blocks (student rows and weights, teacher rows and weights, the two log-sum-exp columns) and
  keeps one column of 512 partial sums between points. At a tile's first chunk it overwrites that column with zeros before
  adding the chunk's row sums; at the other chunks it adds them to what the point before left; at a tile's last chunk it
  then copies the column into the output block. So the column ends at `step1` of the six blocks and of what it started
  from (zeros at a first chunk), the inputs are left as they were, and the output block is touched only at a last chunk,
  where it receives the same column. A tile has 125 chunks, so its first chunk is never its last.

  Every load and store of the body goes through the whole of its buffer, which is why the buffer's earlier contents never
  matter after a store and a load after a store reads exactly what was stored.
-/
import proofs.«126184_j41180146434370_1_alg».proof.Proof.R1DefsB
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores through a whole buffer

Every access of the body goes through the rectangle that is the whole of its buffer (zero offsets, the buffer's own sizes):
a load through it reads the contents, and a store through it, made last, leaves its payload whatever was there. -/

/-- The zero offsets of a two-axis rectangle. -/
theorem r1_off_zero : (![0, 0] : Fin 2 → Nat) = fun _ => 0 := by
  funext a; fin_cases a <;> rfl

/-- Loading the whole of a column buffer reads its contents. -/
theorem r1_load_col (m : Memref sig .tc .vmem S512x1 .f32) (hm : m.IsWhole) (x : Vec F S512x1 .f32) :
    View.readAt (Elt F) m.view (Rect.unit (s := S512x1) ![0, 0] S512x1.size inb_S512x1_S512x1_0_0).toLoadRect (hm.unread x) = x := by
  rw [View.readAt_eq_ld, hm.read_unread]; exact View.ld_unit_zero (S := S512x1) r1_off_zero _ x

/-- Loading the whole of a rows buffer reads its contents. -/
theorem r1_load_rows (m : Memref sig .tc .vmem S512x2048 .f32) (hm : m.IsWhole) (x : Vec F S512x2048 .f32) :
    View.readAt (Elt F) m.view (Rect.unit (s := S512x2048) ![0, 0] S512x2048.size inb_S512x2048_S512x2048_0_0).toLoadRect (hm.unread x) = x := by
  rw [View.readAt_eq_ld, hm.read_unread]; exact View.ld_unit_zero (S := S512x2048) r1_off_zero _ x

/-- Loading the whole of a weights buffer reads its contents. -/
theorem r1_load_wts (m : Memref sig .tc .vmem S256x2048 .f32) (hm : m.IsWhole) (x : Vec F S256x2048 .f32) :
    View.readAt (Elt F) m.view (Rect.unit (s := S256x2048) ![0, 0] S256x2048.size inb_S256x2048_S256x2048_0_0).toLoadRect (hm.unread x) = x := by
  rw [View.readAt_eq_ld, hm.read_unread]; exact View.ld_unit_zero (S := S256x2048) r1_off_zero _ x

/-- The same with the sizes written out. -/
theorem r1_load_col' (m : Memref sig .tc .vmem S512x1 .f32) (hm : m.IsWhole) (x : Vec F S512x1 .f32) :
    View.readAt (Elt F) m.view (Rect.unit (s := S512x1) ![0, 0] ![512, 1] inb_S512x1_S512x1_0_0).toLoadRect (hm.unread x) = x :=
  r1_load_col m hm x

theorem r1_load_rows' (m : Memref sig .tc .vmem S512x2048 .f32) (hm : m.IsWhole) (x : Vec F S512x2048 .f32) :
    View.readAt (Elt F) m.view (Rect.unit (s := S512x2048) ![0, 0] ![512, 2048] inb_S512x2048_S512x2048_0_0).toLoadRect (hm.unread x) = x :=
  r1_load_rows m hm x

theorem r1_load_wts' (m : Memref sig .tc .vmem S256x2048 .f32) (hm : m.IsWhole) (x : Vec F S256x2048 .f32) :
    View.readAt (Elt F) m.view (Rect.unit (s := S256x2048) ![0, 0] ![256, 2048] inb_S256x2048_S256x2048_0_0).toLoadRect (hm.unread x) = x :=
  r1_load_wts m hm x

/-- The whole of a column buffer as a rectangle. -/
abbrev r1_col : Rect S512x1 := Rect.unit (s := S512x1) ![0, 0] S512x1.size inb_S512x1_S512x1_0_0

/-- It holds every index, so a list of stores that has it covers the column. -/
theorem r1_cover_col (w : Vec F S512x1 .f32) (L : List (View.Piece (Elt F) S512x1 .f32)) (y : S512x1.Idx) :
    ∃ p ∈ ((⟨r1_col, w⟩ : View.Piece (Elt F) S512x1 .f32) :: L), y ∈ p.1.set :=
  ⟨⟨r1_col, w⟩, List.mem_cons_self, View.mem_set_unit_zero (S := S512x1) r1_off_zero inb_S512x1_S512x1_0_0 y⟩

/-- The last store through it is what the stores leave. -/
theorem r1_canon_col (w : Vec F S512x1 .f32) (L : List (View.Piece (Elt F) S512x1 .f32)) :
    View.canon ((⟨r1_col, w⟩ : View.Piece (Elt F) S512x1 .f32) :: L) = w :=
  View.canon_cons_unit_zero (S := S512x1) r1_off_zero inb_S512x1_S512x1_0_0 w L

/-- A store of a whole column, made last, is what the buffer then reads, whatever it held and whatever was stored before. -/
theorem r1_read_store_col (v : View sig .tc .vmem S512x1 .f32) (f : v.ty.Contents (Elt F)) (w : Vec F S512x1 .f32)
    (L : List (View.Piece (Elt F) S512x1 .f32)) :
    v.read (Elt F) (v.writes (Elt F) f ((⟨r1_col, w⟩ : View.Piece (Elt F) S512x1 .f32) :: L)) = w := by
  rw [View.read_writes_eq_canon v f _ (r1_cover_col w L)]
  exact r1_canon_col w L

/-- Loading the whole column back after one store of a whole column reads what was stored. -/
theorem r1_readCov_col (v : View sig .tc .vmem S512x1 .f32) (w : Vec F S512x1 .f32) :
    v.readCov [(⟨r1_col, w⟩ : View.Piece (Elt F) S512x1 .f32)] r1_col.toLoadRect = w :=
  View.readCov_unit_zero (S := S512x1) v r1_off_zero inb_S512x1_S512x1_0_0 w

/-- The same with the sizes written out. -/
theorem r1_readCov_col' (v : View sig .tc .vmem S512x1 .f32) (w : Vec F S512x1 .f32) :
    v.readCov [(⟨Rect.unit (s := S512x1) ![0, 0] ![512, 1] inb_S512x1_S512x1_0_0, w⟩ : View.Piece (Elt F) S512x1 .f32)]
      (Rect.unit (s := S512x1) ![0, 0] ![512, 1] inb_S512x1_S512x1_0_0).toLoadRect = w :=
  r1_readCov_col v w

/-! ## The body's three runs -/

set_option maxHeartbeats 4000000 in
/-- A tile's first chunk: whatever the carried column held, it ends at the chunk's row sums added to zeros. The output block
    is not touched. -/
theorem run1_first (c : Dev nD) (i : grid1.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : cond1_0 i) (hc1 : ¬cond1_1 i)
    (xs : Vec F S512x2048 .f32) (ws : Vec F S256x2048 .f32) (xt : Vec F S512x2048 .f32) (wt : Vec F S256x2048 .f32)
    (ls lt : Vec F S512x1 .f32) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt ∗ (∃ d, owns (c : Thread nD τ) arg9 fullShare d)
        ∗ (iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt
            ∗ owns (c : Thread nD τ) arg9 fullShare (step1 xs ws xt wt ls lt init1)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H9
  ipureintro
  rw [r1_read_store_col]
  dsimp only
  simp only [r1_load_col, r1_load_col', r1_load_rows, r1_load_rows', r1_load_wts, r1_load_wts']
  sl_unfold_run_names
  simp only [r1_readCov_col, r1_readCov_col']
  rfl

set_option maxHeartbeats 4000000 in
/-- A chunk that is neither first nor last: the carried column ends at the chunk's row sums added to what it held. The output
    block is not touched. -/
theorem run1_mid (c : Dev nD) (i : grid1.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond1_0 i) (hc1 : ¬cond1_1 i)
    (xs : Vec F S512x2048 .f32) (ws : Vec F S256x2048 .f32) (xt : Vec F S512x2048 .f32) (wt : Vec F S256x2048 .f32)
    (ls lt acc : Vec F S512x1 .f32) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt ∗ owns (c : Thread nD τ) arg9 fullShare acc
        ∗ (iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt
            ∗ owns (c : Thread nD τ) arg9 fullShare (step1 xs ws xt wt ls lt acc)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  swap; · iexact H9
  ipureintro
  rw [r1_read_store_col]
  dsimp only
  simp only [r1_load_col, r1_load_col', r1_load_rows, r1_load_rows', r1_load_wts, r1_load_wts']
  rfl

set_option maxHeartbeats 4000000 in
/-- A tile's last chunk: the carried column is updated as at a middle chunk and then read back and stored over the whole
    output block, which therefore ends at the same column whatever it held. -/
theorem run1_last (c : Dev nD) (i : grid1.Coords)
    (arg2 : Memref sig .tc .vmem S512x2048 .f32) (harg2 : arg2.IsWhole) (arg3 : Memref sig .tc .vmem S256x2048 .f32) (harg3 : arg3.IsWhole)
    (arg4 : Memref sig .tc .vmem S512x2048 .f32) (harg4 : arg4.IsWhole) (arg5 : Memref sig .tc .vmem S256x2048 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond1_0 i) (hc1 : cond1_1 i)
    (xs : Vec F S512x2048 .f32) (ws : Vec F S256x2048 .f32) (xt : Vec F S512x2048 .f32) (wt : Vec F S256x2048 .f32)
    (ls lt acc : Vec F S512x1 .f32) (E : Set ℕ) (K : PUnit → sProp 𝕄) :
    iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt ∗ owns (c : Thread nD τ) arg9 fullShare acc ∗ (∃ d, owns (c : Thread nD τ) arg8 fullShare d)
        ∗ (iprop(owns (c : Thread nD τ) arg2 fullShare xs ∗ owns (c : Thread nD τ) arg3 fullShare ws ∗ owns (c : Thread nD τ) arg4 fullShare xt ∗ owns (c : Thread nD τ) arg5 fullShare wt
        ∗ owns (c : Thread nD τ) arg6 fullShare ls ∗ owns (c : Thread nD τ) arg7 fullShare lt
            ∗ owns (c : Thread nD τ) arg9 fullShare (step1 xs ws xt wt ls lt acc)
            ∗ owns (c : Thread nD τ) arg8 fullShare (step1 xs ws xt wt ls lt acc)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9) K := by
  simp only [cc1__loss_kernel_eq_skeleton]; unfold cc1__loss_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%d8, %f8, -, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H9]
  · iexists _; isplitr
    swap; · iexact H9
    ipureintro
    sl_unfold_run_names
    rw [r1_read_store_col]
    dsimp only
    simp only [r1_load_col, r1_load_col', r1_load_rows, r1_load_rows', r1_load_wts, r1_load_wts']
    rfl
  iexists _; isplitr
  swap; · iexact H8
  ipureintro
  sl_unfold_run_names
  rw [r1_read_store_col]
  simp only [r1_readCov_col, r1_readCov_col']
  try dsimp only
  simp only [r1_load_col, r1_load_col', r1_load_rows, r1_load_rows', r1_load_wts, r1_load_wts']
  rfl

end Cert.Kernel.Gen

end
-- ==== Proof.R1BodyB.lean ====
/-
  Region 1 (the loss pass): the body obligation of its pipeline, and the invariant at the region's two ends.

  At every grid point the six input buffers hold their windows' blocks. The region's invariant carries the scratch column:
  before the first point it is the launch's invariant, in which the scratch buffer is one of the scoped buffers at unknown
  contents; after point n it is the scratch buffer at the column `stat1` of point n, beside the wand that gives the
  launch's invariant back. A point that is a tile's first chunk (t ≡ 0 mod 125) restarts the column, any other continues
  it, and a tile's last chunk (t ≡ 124 mod 125) also leaves the column in the output block, which is exactly where the
  pipeline writes that block back; at every other point the output block is idle and handed back as it was found.
-/
import proofs.«126184_j41180146434370_1_alg».proof.Proof.R1RunsB
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What the input buffers hold -/

/-- Input window 0 (student rows): its current buffer holds the window's block at every point, moved there at this point
    or left from an earlier one. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [after1_0]; unfold Dat.blockOf iblk1; rw [A_eq1 V c 0]; try rfl
  rw [(dat1 V c).before_in_eq_fetched 0 rfl (fun _ => rfl) (fun _ _ _ => rfl) hkeep t d]
  unfold Dat.fetched Dat.blockOf iblk1; rw [A_eq1 V c 0]; try rfl

/-- Input window 1 (student weights): its current buffer holds the window's block at every point, moved there at this point
    or left from an earlier one. -/
theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [after1_1]; unfold Dat.blockOf iblk1; rw [A_eq1 V c 1]; try rfl
  rw [(dat1 V c).before_in_eq_fetched 1 rfl (fun _ => rfl) (fun _ _ _ => rfl) hkeep t d]
  unfold Dat.fetched Dat.blockOf iblk1; rw [A_eq1 V c 1]; try rfl

/-- Input window 2 (teacher rows): its current buffer holds the window's block at every point, moved there at this point
    or left from an earlier one. -/
theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [after1_2]; unfold Dat.blockOf iblk1; rw [A_eq1 V c 2]; try rfl
  rw [(dat1 V c).before_in_eq_fetched 2 rfl (fun _ => rfl) (fun _ _ _ => rfl) hkeep t d]
  unfold Dat.fetched Dat.blockOf iblk1; rw [A_eq1 V c 2]; try rfl

/-- Input window 3 (teacher weights): its current buffer holds the window's block at every point, moved there at this point
    or left from an earlier one. -/
theorem before1_3 (c : Dev nD) (t : Fin cfg1.N) (d) : (dat1 V c).before 3 t d = iblk1 V c 3 t := by
  have hkeep : ∀ t, (cfg1.win 3).cut (cfg1.grid.coords t) ((dat1 V c).after 3 t) = (dat1 V c).blockOf 3 t := by
    intro t; rw [after1_3]; unfold Dat.blockOf iblk1; rw [A_eq1 V c 3]; try rfl
  rw [(dat1 V c).before_in_eq_fetched 3 rfl (fun _ => rfl) (fun _ _ _ => rfl) hkeep t d]
  unfold Dat.fetched Dat.blockOf iblk1; rw [A_eq1 V c 3]; try rfl

/-- Input window 4 (student log-sum-exp): its current buffer holds the window's block at every point, moved there at this point
    or left from an earlier one. -/
theorem before1_4 (c : Dev nD) (t : Fin cfg1.N) (d) : (dat1 V c).before 4 t d = iblk1 V c 4 t := by
  have hkeep : ∀ t, (cfg1.win 4).cut (cfg1.grid.coords t) ((dat1 V c).after 4 t) = (dat1 V c).blockOf 4 t := by
    intro t; rw [after1_4]; unfold Dat.blockOf iblk1; rw [A_eq1 V c 4]; try rfl
  rw [(dat1 V c).before_in_eq_fetched 4 rfl (fun _ => rfl) (fun _ _ _ => rfl) hkeep t d]
  unfold Dat.fetched Dat.blockOf iblk1; rw [A_eq1 V c 4]; try rfl

/-- Input window 5 (teacher log-sum-exp): its current buffer holds the window's block at every point, moved there at this point
    or left from an earlier one. -/
theorem before1_5 (c : Dev nD) (t : Fin cfg1.N) (d) : (dat1 V c).before 5 t d = iblk1 V c 5 t := by
  have hkeep : ∀ t, (cfg1.win 5).cut (cfg1.grid.coords t) ((dat1 V c).after 5 t) = (dat1 V c).blockOf 5 t := by
    intro t; rw [after1_5]; unfold Dat.blockOf iblk1; rw [A_eq1 V c 5]; try rfl
  rw [(dat1 V c).before_in_eq_fetched 5 rfl (fun _ => rfl) (fun _ _ _ => rfl) hkeep t d]
  unfold Dat.fetched Dat.blockOf iblk1; rw [A_eq1 V c 5]; try rfl

/-! ## What the body leaves in them: the block, every input being live at every point -/

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (st1_5 t) fullShare (iblk1 V c 5 t) := by
  unfold Dat.leavesExact; rw [liveAt1_5 t, after1_5]

/-! ## The launch's invariant, with the scratch buffer taken out -/

/-- The launch's invariant owns seventeen scoped buffers at unknown contents, the loss pass's scratch column last among them,
    and the generator register. Taking the scratch buffer out leaves the wand that puts it back at any contents. -/
theorem PhiA_split1 (c : Dev nD) :
    (Pipeline.ΦA spec1 c : sProp 𝕄) ⊢ iprop((∃ d, owns (c : Thread nD τ) scM1_0 fullShare d) ∗ hole1 c) := by
  unfold hole1 Pipeline.ΦA
  rw [scopedRest1_eq]
  simp only [scM1_0, owns_whole]
  iintro ⟨⟨B0, B1, B2, B3, B4, B5, B6, B7, B8, B9, B10, B11, B12, B13, B14, B15, Hs⟩, Hg⟩
  isplitl [Hs]; · iexact Hs
  iintro Hs
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexact Hs
  · iexact Hg

/-! ## The body obligation, at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point, by the point's place in its tile. The inputs hold their blocks; the scratch column comes out of
    the invariant (at unknown contents before the very first point, at the previous point's column afterwards) and goes back
    at this point's column; the output block is idle except at a tile's last chunk, where it ends at the column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, leaves1_4, leaves1_5]
  have hN : t.val < 1000 := lt_of_lt_of_eq t.isLt (show cfg1.N = 1000 from N_1)
  by_cases h0 : t.val % 125 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1), stat1_first V c t h0]
    by_cases hz : t.val = 0
    · rw [Phi1_castSucc, Phi1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HS := (PhiA_split1 c) $$ HΦ
      icases HS with ⟨HS, Hh⟩
      iapply (run1_first c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc, Phi1_pos V c _ _ hz]
      iintro ⟨⟨HS, Hh⟩, Ho, ⟨%d0, H0⟩, ⟨%d1, H1⟩, ⟨%d2, H2⟩, ⟨%d3, H3⟩, ⟨%d4, H4⟩, ⟨%d5, H5⟩, ⟨%d6, H6⟩⟩
      iapply (run1_first c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun e => h0 (by rw [e])
    rw [Phi1_castSucc, Phi1_pos V c _ _ hz]
    by_cases h1 : t.val % 125 = 124
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      rw [stat1_next V c t h0]
      iintro ⟨⟨HS, Hh⟩, Ho, ⟨%d0, H0⟩, ⟨%d1, H1⟩, ⟨%d2, H2⟩, ⟨%d3, H3⟩, ⟨%d4, H4⟩, ⟨%d5, H5⟩, ⟨%d6, H6⟩⟩
      iapply (run1_last c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [H6]; · iexists _; iexact H6
      iintro ⟨H0, H1, H2, H3, H4, H5, HS, H6⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1), stat1_next V c t h0]
      iintro ⟨⟨HS, Hh⟩, Ho, ⟨%d0, H0⟩, ⟨%d1, H1⟩, ⟨%d2, H2⟩, ⟨%d3, H3⟩, ⟨%d4, H4⟩, ⟨%d5, H5⟩, ⟨%d6, H6⟩⟩
      iapply (run1_mid c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hh]
      · isplitl [HS]; · iexact HS
        iexact Hh
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the region -/

/-- The launch's invariant is the region's invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last of the 1000 points the invariant is the scratch column beside the wand: forgetting which column it is
    gives the launch's invariant back. -/
theorem hout1 (c : Dev nD) : (dat1 V c).Φ (Fin.last cfg1.N) ⊢ Pipeline.ΦA spec1 c := by
  have hpos : (Fin.last cfg1.N).val ≠ 0 := by
    rw [Fin.val_last]; have : cfg1.N = 1000 := N_1; omega
  rw [show (dat1 V c).Φ (Fin.last cfg1.N) = Phi1 V c (Fin.last cfg1.N).val (Nat.le_of_lt_succ (Fin.last cfg1.N).isLt) from rfl,
    Phi1_pos V c _ _ hpos]
  unfold hole1
  iintro ⟨HS, Hh⟩
  iapply Hh
  iexists _; iexact HS

end Region1

end Cert.Kernel.Gen

end
-- ==== Proof.Launch.lean ====
/-
  The launch: from the two regions' body obligations to the run of @main, at any float instance.

  @main is region 0 (the statistics pass), region 1 (the loss pass), then four host operations: the constant 0, the
  sum of region 1's output column over both axes starting from that 0, the constant 4096, and the quotient of the two.
  Between two items every core holds all its unscoped buffers whole, at contents that are a fold through @main from the
  launch memory `m`:

    * region 0 is entered at `m` itself (`V₀`); it may change only its two output arrays, which it leaves at the fold
      of all its points' write-backs (`left0_s`, `left0_t`): the contents `W1`;
    * region 1 is entered at `W1` (`V₁`: the four arguments as launched, region 0's outputs as region 0 left them); it
      may change only its output array, left at the fold of its write-backs (`left1`): the contents `W2`;
    * the host tail then writes the two constants, the sum and the quotient; what the result buffer ends at is
      `resultK`, and `resultK_eq` computes it: the mean over the 4096 tokens of `left1`.

  Beside the buffers rides the core's generator register at some state, which each region's invariant takes in and
  gives back, and the core owing nothing. Each region is a segment record over these thread states: its arrays are
  split out of the unscoped buffers at entry and put back at exit, where each input array is unchanged and each output
  array holds what the pipeline leaves (`hF0`, `hF1`), every other buffer being as entered (`hrest0`, `hrest1`).
  What the regions' bodies must provide is taken as hypotheses, at ANY entry contents: the body obligation over the
  region's proof data, and that its invariant starts from and ends as the class invariant (`BodyAt0` … `OutAt1`).
  From these, `frame_of_bodies` is the frame claim (the arguments end as launched) and `run_of_bodies` adds that the
  result buffer ends at `resultK`.
-/
import proofs.«126184_j41180146434370_1_alg».proof.Proof.R0Defs
import proofs.«126184_j41180146434370_1_alg».proof.Proof.R1Defs
import proofs.«126184_j41180146434370_1_alg».proof.Proof.Gen.KernelIdeal.Regions
import proofs.«126184_j41180146434370_1_alg».proof.Proof.RegionsV
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Launch

variable (m : (ℓ : Loc nD τ sig) → Buf (Elt F) ℓ) (ρ : Dev nD → PrngReg)

/-! ## The buffers' contents at the regions' boundaries -/

/-- Region 0 is entered at the launch memory. -/
def V₀ : (c : Dev nD) → (b : Ref sig .tc) → Buf (Elt F) ((c : Thread nD τ).loc b) := fun c b => m ((c : Thread nD τ).loc b)

/-- What region 0 leaves in its two output arrays: the write-backs of all its points folded. -/
def left0_s (c : Dev nD) : Buf (Elt F) ((c : Thread nD τ).loc main_v0_0) := (dat0 (V₀ m) c).arrAt 4 cfg0.N
def left0_t (c : Dev nD) : Buf (Elt F) ((c : Thread nD τ).loc main_v0_1) := (dat0 (V₀ m) c).arrAt 5 cfg0.N

/-- Core `c`'s buffers between the two regions: the launch memory, but for region 0's two outputs. -/
def W1 (c : Dev nD) : Valuation τ sig (Elt F) :=
  Function.update (Function.update (V0 m c) main_v0_0 (left0_s m c)) main_v0_1 (left0_t m c)

/-- The same read at the TensorCore's references: what region 1 is entered at. -/
def V₁ : (c : Dev nD) → (b : Ref sig .tc) → Buf (Elt F) ((c : Thread nD τ).loc b) := fun c b => W1 m c b

/-- What region 1 leaves in its output array. -/
def left1 (c : Dev nD) : Buf (Elt F) ((c : Thread nD τ).loc main_v1) := (dat1 (V₁ m) c).arrAt 6 cfg1.N

/-- Core `c`'s buffers after region 1: as between the regions, but for region 1's output. -/
def W2 (c : Dev nD) : Valuation τ sig (Elt F) := Function.update (W1 m c) main_v1 (left1 m c)

/-- The contents the two regions leave, in the shape the conditional frame is stated over: after item 0 the
    buffers are at `W1`, after item 1 at `W2`. -/
def outsK : Outs (F := F) := fun J r c => if J = 1 then W1 m c r else W2 m c r

theorem W1_v0_0 (c : Dev nD) : W1 m c main_v0_0 = left0_s m c := by
  unfold W1
  rw [Function.update_of_ne (StableHlo.devRef_ne_of_ne (by decide)), Function.update_self]
theorem W1_v0_1 (c : Dev nD) : W1 m c main_v0_1 = left0_t m c := by
  unfold W1
  rw [Function.update_self]
/-- Any other buffer is as launched. -/
theorem W1_of (c : Dev nD) (b : Ref sig .tc) (h0 : b ≠ main_v0_0) (h1 : b ≠ main_v0_1) :
    W1 m c b = m ((c : Thread nD τ).loc b) := by
  unfold W1
  rw [Function.update_of_ne (StableHlo.devRef_ne_of_ne h1), Function.update_of_ne (StableHlo.devRef_ne_of_ne h0)]
theorem W2_v1 (c : Dev nD) : W2 m c main_v1 = left1 m c := by
  unfold W2
  rw [Function.update_self]
theorem W2_of (c : Dev nD) (b : Ref sig .tc) (h : b ≠ main_v1) : W2 m c b = W1 m c b := by
  unfold W2
  rw [Function.update_of_ne (StableHlo.devRef_ne_of_ne h)]

/-- The conditional frame's valuation after item 0, at these contents, is `W1`. -/
theorem V1_eq (c : Dev nD) : V1 m (outsK m) c = W1 m c := by
  have h4 : outsK m 1 main_v0_0 c = left0_s m c := (if_pos rfl).trans (W1_v0_0 m c)
  have h5 : outsK m 1 main_v0_1 c = left0_t m c := (if_pos rfl).trans (W1_v0_1 m c)
  unfold V1 W1
  rw [h4, h5]
/-- The one after item 1 is `W2`. -/
theorem V2_eq (c : Dev nD) : V2 m (outsK m) c = W2 m c := by
  have h6 : outsK m 2 main_v1 c = left1 m c := (if_neg (by decide)).trans (W2_v1 m c)
  unfold V2 W2
  rw [V1_eq, h6]

/-! ### What the value proof reads off these -/

/-- (a) Region 0 finds every buffer as launched. -/
theorem V₀_eq (c : Dev nD) (b : Ref sig .tc) : V₀ m c b = m ((c : Thread nD τ).loc b) := rfl

/-- (b) Region 1 finds region 0's two outputs at what region 0 left, and the four arguments as launched. -/
theorem V₁_v0_0 (c : Dev nD) : V₁ m c main_v0_0 = (dat0 (V₀ m) c).arrAt 4 cfg0.N := W1_v0_0 m c
theorem V₁_v0_1 (c : Dev nD) : V₁ m c main_v0_1 = (dat0 (V₀ m) c).arrAt 5 cfg0.N := W1_v0_1 m c
theorem V₁_arg0 (c : Dev nD) : V₁ m c main_arg0 = m ((c : Thread nD τ).loc main_arg0) := W1_of m c main_arg0 (by decide) (by decide)
theorem V₁_arg1 (c : Dev nD) : V₁ m c main_arg1 = m ((c : Thread nD τ).loc main_arg1) := W1_of m c main_arg1 (by decide) (by decide)
theorem V₁_arg2 (c : Dev nD) : V₁ m c main_arg2 = m ((c : Thread nD τ).loc main_arg2) := W1_of m c main_arg2 (by decide) (by decide)
theorem V₁_arg3 (c : Dev nD) : V₁ m c main_arg3 = m ((c : Thread nD τ).loc main_arg3) := W1_of m c main_arg3 (by decide) (by decide)

/-- What @main returns: the last valuation at the result buffer. -/
def resultK (c : Dev nD) : Buf (Elt F) ((c : Thread nD τ).loc main_v3) := V3 m (outsK m) c main_v3

/-- (c) It is the mean over the 4096 tokens of what region 1 left: the host tail sums region 1's output column from 0
    and divides by 4096. -/
theorem resultK_eq (c : Dev nD) :
    resultK m c = Host.divf (Host.reduceAdd ((dat1 (V₁ m) c).arrAt 6 cfg1.N) (constant S_ .f32 0x00000000#32) reducesTo_S4096x1_S_d0_1 h_S_)
      (constant S_ .f32 0x45800000#32) := by
  unfold resultK V3
  rw [V2_eq]
  unfold hostOps2
  after_results
  rw [W2_v1]
  rfl

/-! ### The regions' exits: each array at what the pipeline leaves, every other buffer as entered -/

theorem hF0 (c : Dev nD) : ∀ w : Fin cfg0.W, (dat0 (V₀ m) c).arrAt w cfg0.N = V₁ m c (Pipeline.arrRef spec0 w)
  | ⟨0, _⟩ => ((dat0 (V₀ m) c).arrAt_in 0 rfl _).trans ((A_eq0 (V₀ m) c 0).trans (V₁_arg0 m c).symm)
  | ⟨1, _⟩ => ((dat0 (V₀ m) c).arrAt_in 1 rfl _).trans ((A_eq0 (V₀ m) c 1).trans (V₁_arg2 m c).symm)
  | ⟨2, _⟩ => ((dat0 (V₀ m) c).arrAt_in 2 rfl _).trans ((A_eq0 (V₀ m) c 2).trans (V₁_arg1 m c).symm)
  | ⟨3, _⟩ => ((dat0 (V₀ m) c).arrAt_in 3 rfl _).trans ((A_eq0 (V₀ m) c 3).trans (V₁_arg3 m c).symm)
  | ⟨4, _⟩ => (V₁_v0_0 m c).symm
  | ⟨5, _⟩ => (V₁_v0_1 m c).symm
theorem hrest0 (c : Dev nD) : ∀ b, b ∉ Finset.univ.image (Pipeline.arrRef spec0) → V₁ m c b = V₀ m c b :=
  fun b hb => W1_of m c b (fun e => hb (Finset.mem_image.mpr ⟨4, Finset.mem_univ _, e.symm⟩))
    (fun e => hb (Finset.mem_image.mpr ⟨5, Finset.mem_univ _, e.symm⟩))

/-- Region 1's exit contents read at the TensorCore's references. -/
def V₂ : (c : Dev nD) → (b : Ref sig .tc) → Buf (Elt F) ((c : Thread nD τ).loc b) := fun c b => W2 m c b

theorem hF1 (c : Dev nD) : ∀ w : Fin cfg1.W, (dat1 (V₁ m) c).arrAt w cfg1.N = V₂ m c (Pipeline.arrRef spec1 w)
  | ⟨0, _⟩ => ((dat1 (V₁ m) c).arrAt_in 0 rfl _).trans ((A_eq1 (V₁ m) c 0).trans (W2_of m c main_arg0 (by decide)).symm)
  | ⟨1, _⟩ => ((dat1 (V₁ m) c).arrAt_in 1 rfl _).trans ((A_eq1 (V₁ m) c 1).trans (W2_of m c main_arg2 (by decide)).symm)
  | ⟨2, _⟩ => ((dat1 (V₁ m) c).arrAt_in 2 rfl _).trans ((A_eq1 (V₁ m) c 2).trans (W2_of m c main_arg1 (by decide)).symm)
  | ⟨3, _⟩ => ((dat1 (V₁ m) c).arrAt_in 3 rfl _).trans ((A_eq1 (V₁ m) c 3).trans (W2_of m c main_arg3 (by decide)).symm)
  | ⟨4, _⟩ => ((dat1 (V₁ m) c).arrAt_in 4 rfl _).trans ((A_eq1 (V₁ m) c 4).trans (W2_of m c main_v0_0 (by decide)).symm)
  | ⟨5, _⟩ => ((dat1 (V₁ m) c).arrAt_in 5 rfl _).trans ((A_eq1 (V₁ m) c 5).trans (W2_of m c main_v0_1 (by decide)).symm)
  | ⟨6, _⟩ => (W2_v1 m c).symm
theorem hrest1 (c : Dev nD) : ∀ b, b ∉ Finset.univ.image (Pipeline.arrRef spec1) → V₂ m c b = V₁ m c b :=
  fun b hb => W2_of m c b (fun e => hb (Finset.mem_image.mpr ⟨6, Finset.mem_univ _, e.symm⟩))

/-! ## The proof data family, the launch data and the rest that rides along -/

/-- Every pipeline's proof data, each at its region's entry contents: a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V₀ m) c
  | ⟨1, _⟩ => fun c => dat1 (V₁ m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (each region's
    invariant takes it in and gives it back) and the core owing nothing. -/
abbrev R (c : Dev nD) : sProp 𝕄 := iprop((∃ r, prngReg c r) ∗ ∃ W, owes (c : Thread nD τ) (0 : CellTallies nD τ sig Unit) W)

end Launch

section Records

variable (m : (ℓ : Loc nD τ sig) → Buf (Elt F) ℓ) (ρ : Dev nD → PrngReg)
/-- What the two regions' body proofs provide, at ANY entry contents `V`: the body obligation over the region's proof
    data, and that the region's invariant starts from, and ends as, the class invariant (the scoped buffers no window
    stages, each at some contents, beside the generator register at some state). -/
abbrev BodyAt0 : Prop := ∀ (V : (c : Dev nD) → (b : Ref sig .tc) → Buf (Elt F) ((c : Thread nD τ).loc b)) (c : Dev nD),
  BodyObligation (dat0 (F := F) V c) (defs₀ (F := F)) Variants.none () Set.univ
abbrev InAt0 : Prop := ∀ (V : (c : Dev nD) → (b : Ref sig .tc) → Buf (Elt F) ((c : Thread nD τ).loc b)) (c : Dev nD),
  (Pipeline.ΦA spec0 c : sProp 𝕄) ⊢ (dat0 (F := F) V c).Φ 0
abbrev OutAt0 : Prop := ∀ (V : (c : Dev nD) → (b : Ref sig .tc) → Buf (Elt F) ((c : Thread nD τ).loc b)) (c : Dev nD),
  (dat0 (F := F) V c).Φ (Fin.last cfg0.N) ⊢ (Pipeline.ΦA spec0 c : sProp 𝕄)
abbrev BodyAt1 : Prop := ∀ (V : (c : Dev nD) → (b : Ref sig .tc) → Buf (Elt F) ((c : Thread nD τ).loc b)) (c : Dev nD),
  BodyObligation (dat1 (F := F) V c) (defs₀ (F := F)) Variants.none () Set.univ
abbrev InAt1 : Prop := ∀ (V : (c : Dev nD) → (b : Ref sig .tc) → Buf (Elt F) ((c : Thread nD τ).loc b)) (c : Dev nD),
  (Pipeline.ΦA spec1 c : sProp 𝕄) ⊢ (dat1 (F := F) V c).Φ 0
abbrev OutAt1 : Prop := ∀ (V : (c : Dev nD) → (b : Ref sig .tc) → Buf (Elt F) ((c : Thread nD τ).loc b)) (c : Dev nD),
  (dat1 (F := F) V c).Φ (Fin.last cfg1.N) ⊢ (Pipeline.ΦA spec1 c : sProp 𝕄)

variable (hbody0 : BodyAt0 (F := F)) (hin0 : InAt0 (F := F)) (hout0 : OutAt0 (F := F))
  (hbody1 : BodyAt1 (F := F)) (hin1 : InAt1 (F := F)) (hout1 : OutAt1 (F := F))

/-! ## The regions as segments -/

set_option backward.isDefEq.respectTransparency.types false in
/-- REGION 0 over the thread state: entered with every unscoped buffer as launched, left with them at `W1`. Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hbody0 (V₀ m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V₀ m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V₀ m c) fun w => A_eq0 (V₀ m) c w
    rw [show unscopedBufs c (V₀ m c) = StableHlo.held (c : Thread nD τ) (Pipeline.ucRefs τ sig) (V0 m c)
      from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V₀ m) c)
    unfold Pipeline.ΦA
    iintro ⟨Hp, -, Hr⟩
    isplitl [Hr]; · iexact Hr
    iexact Hp
  hout c := by
    rw [Pipeline.ownSems0_none]
    refine (hout0 (V₀ m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V₀ m c) (V₁ m c) ((pdats m 0 c).arrAt · cfg0.N) (hF0 m c) (hrest0 m c)
    rw [show unscopedBufs c (V₁ m c) = StableHlo.held (c : Thread nD τ) (Pipeline.ucRefs τ sig) (W1 m c)
      from Pipeline.unscopedBufs_held c (W1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with the unscoped buffers at `W1`, left with them at `W2`; otherwise as
    region 0. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hbody1 (V₁ m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V₁ m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V₁ m c) fun w => A_eq1 (V₁ m) c w
    rw [show unscopedBufs c (V₁ m c) = StableHlo.held (c : Thread nD τ) (Pipeline.ucRefs τ sig) (W1 m c)
      from Pipeline.unscopedBufs_held c (W1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V₁ m) c)
    unfold Pipeline.ΦA
    iintro ⟨Hp, -, Hr⟩
    isplitl [Hr]; · iexact Hr
    iexact Hp
  hout c := by
    rw [Pipeline.ownSems0_none]
    refine (hout1 (V₁ m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V₁ m c) (V₂ m c) ((pdats m 1 c).arrAt · cfg1.N) (hF1 m c) (hrest1 m c)
    rw [show unscopedBufs c (V₂ m c) = StableHlo.held (c : Thread nD τ) (Pipeline.ucRefs τ sig) (W2 m c)
      from Pipeline.unscopedBufs_held c (W2 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipeline library's at every pipeline's staging cells; no core needs a resource of
    its own. -/
theorem hu₀K :
    (ownU (initOf (Pipeline.cells cfgs cellOf_inj) (Pipeline.launchToks cfgs cellOf_inj)) : sProp 𝕄)
      ⊢ |={Set.univ}=> iprop(BI.own ((emb₁ : Emb (URounds (GSem nD τ sig) Unit) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest is made on every core from what the launch deals it: its generator register, and its owing nothing. -/
theorem hE0K :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The thread states chain: each region is left at the valuation the conditional frame names after its item. -/
theorem hpost0K (c : Dev nD) : (reg0 m hbody0 hin0 hout0).post c
    ⊢ iprop(StableHlo.held (c : Thread nD τ) (Pipeline.ucRefs τ sig) (V1 m (outsK m) c) ∗ R c) := by
  rw [V1_eq]; exact .rfl
theorem hpre1K (c : Dev nD) : iprop(StableHlo.held (c : Thread nD τ) (Pipeline.ucRefs τ sig) (V1 m (outsK m) c) ∗ R c)
    ⊢ (reg1 m hbody1 hin1 hout1).pre c := by
  rw [V1_eq]; exact .rfl
theorem hpost1K (c : Dev nD) : (reg1 m hbody1 hin1 hout1).post c
    ⊢ iprop(StableHlo.held (c : Thread nD τ) (Pipeline.ucRefs τ sig) (V2 m (outsK m) c) ∗ R c) := by
  rw [V2_eq]; exact .rfl

include hbody0 hin0 hout0 hbody1 hin1 hout1 in
set_option backward.isDefEq.respectTransparency.types false in
/-- THE FRAME, given the two regions' bodies: every weakly fair execution of @main from memory `m` with zero counters
    terminates, and every final memory holds each argument as launched. -/
theorem frame_of_bodies : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outsK m) (pdats m) 0 (fun _ => iprop(emp))
    (initOf (Pipeline.cells cfgs cellOf_inj) (Pipeline.launchToks cfgs cellOf_inj)) hu₀K
    (fun _ c => R c) (hE0K ρ)
    (fun c => by iintro ⟨-, H⟩; iexact H)
    (reg0 m hbody0 hin0 hout0) (fun _ => .rfl) (hpost0K m hbody0 hin0 hout0)
    (reg1 m hbody1 hin1 hout1) (hpre1K m hbody1 hin1 hout1) (hpost1K m hbody1 hin1 hout1)

include hbody0 hin0 hout0 hbody1 hin1 hout1 in
set_option backward.isDefEq.respectTransparency.types false in
/-- THE RUN, given the two regions' bodies: besides the frame, every final memory holds `resultK m c` in the result
    buffer. -/
theorem run_of_bodies : θ_run defs (onTc (τ := τ) (main (F := F))) ⟨m, fun _ => 0, ρ⟩ (fun r => ∀ c : Dev nD,
      r.2.mem ((c.tc : Thread nD τ).loc main_v3) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  GenV.run_cond m emb₁ () 𝒱₀ L lv (fun _ _ => rfl) ρ (outsK m) (pdats m) 0 (fun _ => iprop(emp))
    (initOf (Pipeline.cells cfgs cellOf_inj) (Pipeline.launchToks cfgs cellOf_inj)) hu₀K
    (fun _ c => R c) (hE0K ρ)
    (fun c => by iintro ⟨-, H⟩; iexact H)
    (reg0 m hbody0 hin0 hout0) (fun _ => .rfl) (hpost0K m hbody0 hin0 hout0)
    (reg1 m hbody1 hin1 hout1) (hpre1K m hbody1 hin1 hout1) (hpost1K m hbody1 hin1 hout1)

end Records

end Cert.KernelIdeal.Gen

end
-- ==== Proof.LaunchB.lean ====
/-
  The launch: from the two regions' body obligations to the run of @main, at any float instance.

  @main is region 0 (the statistics pass), region 1 (the loss pass), then four host operations: the constant 0, the
  sum of region 1's output column over both axes starting from that 0, the constant 4096, and the quotient of the two.
  Between two items every core holds all its unscoped buffers whole, at contents that are a fold through @main from the
  launch memory `m`:

    * region 0 is entered at `m` itself (`V₀`); it may change only its two output arrays, which it leaves at the fold
      of all its points' write-backs (`left0_s`, `left0_t`): the contents `W1`;
    * region 1 is entered at `W1` (`V₁`: the four arguments as launched, region 0's outputs as region 0 left them); it
      may change only its output array, left at the fold of its write-backs (`left1`): the contents `W2`;
    * the host tail then writes the two constants, the sum and the quotient; what the result buffer ends at is
      `resultK`, and `resultK_eq` computes it: the mean over the 4096 tokens of `left1`.

  Beside the buffers rides the core's generator register at some state, which each region's invariant takes in and
  gives back, and the core owing nothing. Each region is a segment record over these thread states: its arrays are
  split out of the unscoped buffers at entry and put back at exit, where each input array is unchanged and each output
  array holds what the pipeline leaves (`hF0`, `hF1`), every other buffer being as entered (`hrest0`, `hrest1`).
  What the regions' bodies must provide is taken as hypotheses, at ANY entry contents: the body obligation over the
  region's proof data, and that its invariant starts from and ends as the class invariant (`BodyAt0` … `OutAt1`).
  From these, `frame_of_bodies` is the frame claim (the arguments end as launched) and `run_of_bodies` adds that the
  result buffer ends at `resultK`.
-/
import proofs.«126184_j41180146434370_1_alg».proof.Proof.R0DefsB
import proofs.«126184_j41180146434370_1_alg».proof.Proof.R1DefsB
import proofs.«126184_j41180146434370_1_alg».proof.Proof.Gen.Kernel.Regions
import proofs.«126184_j41180146434370_1_alg».proof.Proof.RegionsVB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Launch

variable (m : (ℓ : Loc nD τ sig) → Buf (Elt F) ℓ) (ρ : Dev nD → PrngReg)

/-! ## The buffers' contents at the regions' boundaries -/

/-- Region 0 is entered at the launch memory. -/
def V₀ : (c : Dev nD) → (b : Ref sig .tc) → Buf (Elt F) ((c : Thread nD τ).loc b) := fun c b => m ((c : Thread nD τ).loc b)

/-- What region 0 leaves in its two output arrays: the write-backs of all its points folded. -/
def left0_s (c : Dev nD) : Buf (Elt F) ((c : Thread nD τ).loc main_v0_0) := (dat0 (V₀ m) c).arrAt 4 cfg0.N
def left0_t (c : Dev nD) : Buf (Elt F) ((c : Thread nD τ).loc main_v0_1) := (dat0 (V₀ m) c).arrAt 5 cfg0.N

/-- Core `c`'s buffers between the two regions: the launch memory, but for region 0's two outputs. -/
def W1 (c : Dev nD) : Valuation τ sig (Elt F) :=
  Function.update (Function.update (V0 m c) main_v0_0 (left0_s m c)) main_v0_1 (left0_t m c)

/-- The same read at the TensorCore's references: what region 1 is entered at. -/
def V₁ : (c : Dev nD) → (b : Ref sig .tc) → Buf (Elt F) ((c : Thread nD τ).loc b) := fun c b => W1 m c b

/-- What region 1 leaves in its output array. -/
def left1 (c : Dev nD) : Buf (Elt F) ((c : Thread nD τ).loc main_v1) := (dat1 (V₁ m) c).arrAt 6 cfg1.N

/-- Core `c`'s buffers after region 1: as between the regions, but for region 1's output. -/
def W2 (c : Dev nD) : Valuation τ sig (Elt F) := Function.update (W1 m c) main_v1 (left1 m c)

/-- The contents the two regions leave, in the shape the conditional frame is stated over: after item 0 the
    buffers are at `W1`, after item 1 at `W2`. -/
def outsK : Outs (F := F) := fun J r c => if J = 1 then W1 m c r else W2 m c r

theorem W1_v0_0 (c : Dev nD) : W1 m c main_v0_0 = left0_s m c := by
  unfold W1
  rw [Function.update_of_ne (StableHlo.devRef_ne_of_ne (by decide)), Function.update_self]
theorem W1_v0_1 (c : Dev nD) : W1 m c main_v0_1 = left0_t m c := by
  unfold W1
  rw [Function.update_self]
/-- Any other buffer is as launched. -/
theorem W1_of (c : Dev nD) (b : Ref sig .tc) (h0 : b ≠ main_v0_0) (h1 : b ≠ main_v0_1) :
    W1 m c b = m ((c : Thread nD τ).loc b) := by
  unfold W1
  rw [Function.update_of_ne (StableHlo.devRef_ne_of_ne h1), Function.update_of_ne (StableHlo.devRef_ne_of_ne h0)]
theorem W2_v1 (c : Dev nD) : W2 m c main_v1 = left1 m c := by
  unfold W2
  rw [Function.update_self]
theorem W2_of (c : Dev nD) (b : Ref sig .tc) (h : b ≠ main_v1) : W2 m c b = W1 m c b := by
  unfold W2
  rw [Function.update_of_ne (StableHlo.devRef_ne_of_ne h)]

/-- The conditional frame's valuation after item 0, at these contents, is `W1`. -/
theorem V1_eq (c : Dev nD) : V1 m (outsK m) c = W1 m c := by
  have h4 : outsK m 1 main_v0_0 c = left0_s m c := (if_pos rfl).trans (W1_v0_0 m c)
  have h5 : outsK m 1 main_v0_1 c = left0_t m c := (if_pos rfl).trans (W1_v0_1 m c)
  unfold V1 W1
  rw [h4, h5]
/-- The one after item 1 is `W2`. -/
theorem V2_eq (c : Dev nD) : V2 m (outsK m) c = W2 m c := by
  have h6 : outsK m 2 main_v1 c = left1 m c := (if_neg (by decide)).trans (W2_v1 m c)
  unfold V2 W2
  rw [V1_eq, h6]

/-! ### What the value proof reads off these -/

/-- (a) Region 0 finds every buffer as launched. -/
theorem V₀_eq (c : Dev nD) (b : Ref sig .tc) : V₀ m c b = m ((c : Thread nD τ).loc b) := rfl

/-- (b) Region 1 finds region 0's two outputs at what region 0 left, and the four arguments as launched. -/
theorem V₁_v0_0 (c : Dev nD) : V₁ m c main_v0_0 = (dat0 (V₀ m) c).arrAt 4 cfg0.N := W1_v0_0 m c
theorem V₁_v0_1 (c : Dev nD) : V₁ m c main_v0_1 = (dat0 (V₀ m) c).arrAt 5 cfg0.N := W1_v0_1 m c
theorem V₁_arg0 (c : Dev nD) : V₁ m c main_arg0 = m ((c : Thread nD τ).loc main_arg0) := W1_of m c main_arg0 (by decide) (by decide)
theorem V₁_arg1 (c : Dev nD) : V₁ m c main_arg1 = m ((c : Thread nD τ).loc main_arg1) := W1_of m c main_arg1 (by decide) (by decide)
theorem V₁_arg2 (c : Dev nD) : V₁ m c main_arg2 = m ((c : Thread nD τ).loc main_arg2) := W1_of m c main_arg2 (by decide) (by decide)
theorem V₁_arg3 (c : Dev nD) : V₁ m c main_arg3 = m ((c : Thread nD τ).loc main_arg3) := W1_of m c main_arg3 (by decide) (by decide)

/-- What @main returns: the last valuation at the result buffer. -/
def resultK (c : Dev nD) : Buf (Elt F) ((c : Thread nD τ).loc main_v3) := V3 m (outsK m) c main_v3

/-- (c) It is the mean over the 4096 tokens of what region 1 left: the host tail sums region 1's output column from 0
    and divides by 4096. -/
theorem resultK_eq (c : Dev nD) :
    resultK m c = Host.divf (Host.reduceAdd ((dat1 (V₁ m) c).arrAt 6 cfg1.N) (constant S_ .f32 0x00000000#32) reducesTo_S4096x1_S_d0_1 h_S_)
      (constant S_ .f32 0x45800000#32) := by
  unfold resultK V3
  rw [V2_eq]
  unfold hostOps2
  after_results
  rw [W2_v1]
  rfl

/-! ### The regions' exits: each array at what the pipeline leaves, every other buffer as entered -/

theorem hF0 (c : Dev nD) : ∀ w : Fin cfg0.W, (dat0 (V₀ m) c).arrAt w cfg0.N = V₁ m c (Pipeline.arrRef spec0 w)
  | ⟨0, _⟩ => ((dat0 (V₀ m) c).arrAt_in 0 rfl _).trans ((A_eq0 (V₀ m) c 0).trans (V₁_arg0 m c).symm)
  | ⟨1, _⟩ => ((dat0 (V₀ m) c).arrAt_in 1 rfl _).trans ((A_eq0 (V₀ m) c 1).trans (V₁_arg2 m c).symm)
  | ⟨2, _⟩ => ((dat0 (V₀ m) c).arrAt_in 2 rfl _).trans ((A_eq0 (V₀ m) c 2).trans (V₁_arg1 m c).symm)
  | ⟨3, _⟩ => ((dat0 (V₀ m) c).arrAt_in 3 rfl _).trans ((A_eq0 (V₀ m) c 3).trans (V₁_arg3 m c).symm)
  | ⟨4, _⟩ => (V₁_v0_0 m c).symm
  | ⟨5, _⟩ => (V₁_v0_1 m c).symm
theorem hrest0 (c : Dev nD) : ∀ b, b ∉ Finset.univ.image (Pipeline.arrRef spec0) → V₁ m c b = V₀ m c b :=
  fun b hb => W1_of m c b (fun e => hb (Finset.mem_image.mpr ⟨4, Finset.mem_univ _, e.symm⟩))
    (fun e => hb (Finset.mem_image.mpr ⟨5, Finset.mem_univ _, e.symm⟩))

/-- Region 1's exit contents read at the TensorCore's references. -/
def V₂ : (c : Dev nD) → (b : Ref sig .tc) → Buf (Elt F) ((c : Thread nD τ).loc b) := fun c b => W2 m c b

theorem hF1 (c : Dev nD) : ∀ w : Fin cfg1.W, (dat1 (V₁ m) c).arrAt w cfg1.N = V₂ m c (Pipeline.arrRef spec1 w)
  | ⟨0, _⟩ => ((dat1 (V₁ m) c).arrAt_in 0 rfl _).trans ((A_eq1 (V₁ m) c 0).trans (W2_of m c main_arg0 (by decide)).symm)
  | ⟨1, _⟩ => ((dat1 (V₁ m) c).arrAt_in 1 rfl _).trans ((A_eq1 (V₁ m) c 1).trans (W2_of m c main_arg2 (by decide)).symm)
  | ⟨2, _⟩ => ((dat1 (V₁ m) c).arrAt_in 2 rfl _).trans ((A_eq1 (V₁ m) c 2).trans (W2_of m c main_arg1 (by decide)).symm)
  | ⟨3, _⟩ => ((dat1 (V₁ m) c).arrAt_in 3 rfl _).trans ((A_eq1 (V₁ m) c 3).trans (W2_of m c main_arg3 (by decide)).symm)
  | ⟨4, _⟩ => ((dat1 (V₁ m) c).arrAt_in 4 rfl _).trans ((A_eq1 (V₁ m) c 4).trans (W2_of m c main_v0_0 (by decide)).symm)
  | ⟨5, _⟩ => ((dat1 (V₁ m) c).arrAt_in 5 rfl _).trans ((A_eq1 (V₁ m) c 5).trans (W2_of m c main_v0_1 (by decide)).symm)
  | ⟨6, _⟩ => (W2_v1 m c).symm
theorem hrest1 (c : Dev nD) : ∀ b, b ∉ Finset.univ.image (Pipeline.arrRef spec1) → V₂ m c b = V₁ m c b :=
  fun b hb => W2_of m c b (fun e => hb (Finset.mem_image.mpr ⟨6, Finset.mem_univ _, e.symm⟩))

/-! ## The proof data family, the launch data and the rest that rides along -/

/-- Every pipeline's proof data, each at its region's entry contents: a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V₀ m) c
  | ⟨1, _⟩ => fun c => dat1 (V₁ m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (each region's
    invariant takes it in and gives it back) and the core owing nothing. -/
abbrev R (c : Dev nD) : sProp 𝕄 := iprop((∃ r, prngReg c r) ∗ ∃ W, owes (c : Thread nD τ) (0 : CellTallies nD τ sig Unit) W)

end Launch

section Records

variable (m : (ℓ : Loc nD τ sig) → Buf (Elt F) ℓ) (ρ : Dev nD → PrngReg)
/-- What the two regions' body proofs provide, at ANY entry contents `V`: the body obligation over the region's proof
    data, and that the region's invariant starts from, and ends as, the class invariant (the scoped buffers no window
    stages, each at some contents, beside the generator register at some state). -/
abbrev BodyAt0 : Prop := ∀ (V : (c : Dev nD) → (b : Ref sig .tc) → Buf (Elt F) ((c : Thread nD τ).loc b)) (c : Dev nD),
  BodyObligation (dat0 (F := F) V c) (defs₀ (F := F)) Variants.none () Set.univ
abbrev InAt0 : Prop := ∀ (V : (c : Dev nD) → (b : Ref sig .tc) → Buf (Elt F) ((c : Thread nD τ).loc b)) (c : Dev nD),
  (Pipeline.ΦA spec0 c : sProp 𝕄) ⊢ (dat0 (F := F) V c).Φ 0
abbrev OutAt0 : Prop := ∀ (V : (c : Dev nD) → (b : Ref sig .tc) → Buf (Elt F) ((c : Thread nD τ).loc b)) (c : Dev nD),
  (dat0 (F := F) V c).Φ (Fin.last cfg0.N) ⊢ (Pipeline.ΦA spec0 c : sProp 𝕄)
abbrev BodyAt1 : Prop := ∀ (V : (c : Dev nD) → (b : Ref sig .tc) → Buf (Elt F) ((c : Thread nD τ).loc b)) (c : Dev nD),
  BodyObligation (dat1 (F := F) V c) (defs₀ (F := F)) Variants.none () Set.univ
abbrev InAt1 : Prop := ∀ (V : (c : Dev nD) → (b : Ref sig .tc) → Buf (Elt F) ((c : Thread nD τ).loc b)) (c : Dev nD),
  (Pipeline.ΦA spec1 c : sProp 𝕄) ⊢ (dat1 (F := F) V c).Φ 0
abbrev OutAt1 : Prop := ∀ (V : (c : Dev nD) → (b : Ref sig .tc) → Buf (Elt F) ((c : Thread nD τ).loc b)) (c : Dev nD),
  (dat1 (F := F) V c).Φ (Fin.last cfg1.N) ⊢ (Pipeline.ΦA spec1 c : sProp 𝕄)

variable (hbody0 : BodyAt0 (F := F)) (hin0 : InAt0 (F := F)) (hout0 : OutAt0 (F := F))
  (hbody1 : BodyAt1 (F := F)) (hin1 : InAt1 (F := F)) (hout1 : OutAt1 (F := F))

/-! ## The regions as segments -/

set_option backward.isDefEq.respectTransparency.types false in
/-- REGION 0 over the thread state: entered with every unscoped buffer as launched, left with them at `W1`. Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hbody0 (V₀ m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V₀ m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V₀ m c) fun w => A_eq0 (V₀ m) c w
    rw [show unscopedBufs c (V₀ m c) = StableHlo.held (c : Thread nD τ) (Pipeline.ucRefs τ sig) (V0 m c)
      from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V₀ m) c)
    unfold Pipeline.ΦA
    iintro ⟨Hp, -, Hr⟩
    isplitl [Hr]; · iexact Hr
    iexact Hp
  hout c := by
    rw [Pipeline.ownSems0_none]
    refine (hout0 (V₀ m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V₀ m c) (V₁ m c) ((pdats m 0 c).arrAt · cfg0.N) (hF0 m c) (hrest0 m c)
    rw [show unscopedBufs c (V₁ m c) = StableHlo.held (c : Thread nD τ) (Pipeline.ucRefs τ sig) (W1 m c)
      from Pipeline.unscopedBufs_held c (W1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with the unscoped buffers at `W1`, left with them at `W2`; otherwise as
    region 0. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hbody1 (V₁ m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V₁ m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V₁ m c) fun w => A_eq1 (V₁ m) c w
    rw [show unscopedBufs c (V₁ m c) = StableHlo.held (c : Thread nD τ) (Pipeline.ucRefs τ sig) (W1 m c)
      from Pipeline.unscopedBufs_held c (W1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V₁ m) c)
    unfold Pipeline.ΦA
    iintro ⟨Hp, -, Hr⟩
    isplitl [Hr]; · iexact Hr
    iexact Hp
  hout c := by
    rw [Pipeline.ownSems0_none]
    refine (hout1 (V₁ m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V₁ m c) (V₂ m c) ((pdats m 1 c).arrAt · cfg1.N) (hF1 m c) (hrest1 m c)
    rw [show unscopedBufs c (V₂ m c) = StableHlo.held (c : Thread nD τ) (Pipeline.ucRefs τ sig) (W2 m c)
      from Pipeline.unscopedBufs_held c (W2 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipeline library's at every pipeline's staging cells; no core needs a resource of
    its own. -/
theorem hu₀K :
    (ownU (initOf (Pipeline.cells cfgs cellOf_inj) (Pipeline.launchToks cfgs cellOf_inj)) : sProp 𝕄)
      ⊢ |={Set.univ}=> iprop(BI.own ((emb₁ : Emb (URounds (GSem nD τ sig) Unit) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest is made on every core from what the launch deals it: its generator register, and its owing nothing. -/
theorem hE0K :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The thread states chain: each region is left at the valuation the conditional frame names after its item. -/
theorem hpost0K (c : Dev nD) : (reg0 m hbody0 hin0 hout0).post c
    ⊢ iprop(StableHlo.held (c : Thread nD τ) (Pipeline.ucRefs τ sig) (V1 m (outsK m) c) ∗ R c) := by
  rw [V1_eq]; exact .rfl
theorem hpre1K (c : Dev nD) : iprop(StableHlo.held (c : Thread nD τ) (Pipeline.ucRefs τ sig) (V1 m (outsK m) c) ∗ R c)
    ⊢ (reg1 m hbody1 hin1 hout1).pre c := by
  rw [V1_eq]; exact .rfl
theorem hpost1K (c : Dev nD) : (reg1 m hbody1 hin1 hout1).post c
    ⊢ iprop(StableHlo.held (c : Thread nD τ) (Pipeline.ucRefs τ sig) (V2 m (outsK m) c) ∗ R c) := by
  rw [V2_eq]; exact .rfl

include hbody0 hin0 hout0 hbody1 hin1 hout1 in
set_option backward.isDefEq.respectTransparency.types false in
/-- THE FRAME, given the two regions' bodies: every weakly fair execution of @main from memory `m` with zero counters
    terminates, and every final memory holds each argument as launched. -/
theorem frame_of_bodies : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outsK m) (pdats m) 0 (fun _ => iprop(emp))
    (initOf (Pipeline.cells cfgs cellOf_inj) (Pipeline.launchToks cfgs cellOf_inj)) hu₀K
    (fun _ c => R c) (hE0K ρ)
    (fun c => by iintro ⟨-, H⟩; iexact H)
    (reg0 m hbody0 hin0 hout0) (fun _ => .rfl) (hpost0K m hbody0 hin0 hout0)
    (reg1 m hbody1 hin1 hout1) (hpre1K m hbody1 hin1 hout1) (hpost1K m hbody1 hin1 hout1)

include hbody0 hin0 hout0 hbody1 hin1 hout1 in
set_option backward.isDefEq.respectTransparency.types false in
/-- THE RUN, given the two regions' bodies: besides the frame, every final memory holds `resultK m c` in the result
    buffer. -/
theorem run_of_bodies : θ_run defs (onTc (τ := τ) (main (F := F))) ⟨m, fun _ => 0, ρ⟩ (fun r => ∀ c : Dev nD,
      r.2.mem ((c.tc : Thread nD τ).loc main_v3) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  GenV.run_cond m emb₁ () 𝒱₀ L lv (fun _ _ => rfl) ρ (outsK m) (pdats m) 0 (fun _ => iprop(emp))
    (initOf (Pipeline.cells cfgs cellOf_inj) (Pipeline.launchToks cfgs cellOf_inj)) hu₀K
    (fun _ c => R c) (hE0K ρ)
    (fun c => by iintro ⟨-, H⟩; iexact H)
    (reg0 m hbody0 hin0 hout0) (fun _ => .rfl) (hpost0K m hbody0 hin0 hout0)
    (reg1 m hbody1 hin1 hout1) (hpre1K m hbody1 hin1 hout1) (hpost1K m hbody1 hin1 hout1)

end Records

end Cert.Kernel.Gen

end
-- ==== Proof.Val0Pay.lean ====
/-
  Region 0's arithmetic at one row, on the extended reals. A chunk of logits is a block of 512 rows times a block of 256
  weight rows, contracted over the 2048 hidden coordinates and divided by the temperature 1. From a chunk the body takes,
  row by row, the maximum over the 256 lanes (from −∞) and joins it with the running maximum; it rescales the running sum
  by exp(old maximum − new maximum) and adds the lanes' exponentials relative to the new maximum. Read at row r these are
  the model's one-chunk update of the pair (maximum, sum); the start of a tile is (−∞, 0) and the block written out is
  maximum + log(sum).
-/
import proofs.«126184_j41180146434370_1_alg».proof.Proof.R0Defs
import proofs.«126184_j41180146434370_1_alg».proof.Proof.Model
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem

/-- The temperature's word is the real number one. -/
theorem lit_one : Ideal.ofBits .f32 0x3F800000#32 = ((1 : ℝ) : EReal) := by
  simp [Ideal.ofBits, Ideal.ieee, -EReal.coe_mul]; norm_num

/-- The maximum's starting word is −∞. -/
theorem lit_ninf : Ideal.ofBits .f32 0xFF800000#32 = (⊥ : EReal) := by
  simp [Ideal.ofBits, Ideal.ieee]

theorem lhs_ax0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_ax1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_ax0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_ax1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- The product of a block of rows with a block of weight rows, into the zero accumulator, at row r and column u: the
    sum over the 2048 hidden coordinates. -/
theorem mm_apply (a : FVec Ideal S512x2048 .bf16) (b : FVec Ideal S256x2048 .bf16) (r : Fin 512) (u : Fin 256) :
    matmul dot_S512x2048_S256x2048_S512x256_1_1_0_0_n_n none a b (constant (F := Ideal) S512x256 .f32 0x00000000#32) (ix2 r u)
      = ∑ k : Fin 2048, a (ix2 r k) * b (ix2 u k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 r u) ((ValueIdx.contrEquiv1 dot_S512x2048_S256x2048_S512x256_1_1_0_0_n_n 2048 rfl rfl).symm k) = ix2 r k := funext fun a => Fin.ext (by
    match a with
    | ⟨0, _⟩ => exact lhs_ax0 _ _
    | ⟨1, _⟩ => exact (lhs_ax1 _ _).trans hk)
  have er : dot_S512x2048_S256x2048_S512x256_1_1_0_0_n_n.rhsIdx (ix2 r u) ((ValueIdx.contrEquiv1 dot_S512x2048_S256x2048_S512x256_1_1_0_0_n_n 2048 rfl rfl).symm k) = ix2 u k := funext fun a => Fin.ext (by
    match a with
    | ⟨0, _⟩ => exact rhs_ax0 _ _
    | ⟨1, _⟩ => exact (rhs_ax1 _ _).trans hk)
  rw [el, er]

/-- The student's chunk of logits at row r and column u. -/
theorem pay12_apply (xs : Vec Ideal S512x2048 .f32) (ws : Vec Ideal S256x2048 .f32) (r : Fin 512) (u : Fin 256) :
    k0_pay12 xs ws (ix2 r u) = Ideal.div (∑ k : Fin 2048, xs (ix2 r k) * ws (ix2 u k)) ((1 : ℝ) : EReal) := by
  unfold k0_pay12
  show Ideal.div (matmul dot_S512x2048_S256x2048_S512x256_1_1_0_0_n_n none _ _ (constant (F := Ideal) S512x256 .f32 0x00000000#32) (ix2 r u)) (Ideal.ofBits .f32 0x3F800000#32) = _
  rw [lit_one]
  refine congrArg (fun z => Ideal.div z ((1 : ℝ) : EReal)) ?_
  exact mm_apply _ _ r u

theorem pay13_apply (xt : Vec Ideal S512x2048 .f32) (wt : Vec Ideal S256x2048 .f32) (r : Fin 512) (u : Fin 256) :
    k0_pay13 xt wt (ix2 r u) = Ideal.div (∑ k : Fin 2048, xt (ix2 r k) * wt (ix2 u k)) ((1 : ℝ) : EReal) := by
  unfold k0_pay13
  show Ideal.div (matmul dot_S512x2048_S256x2048_S512x256_1_1_0_0_n_n none _ _ (constant (F := Ideal) S512x256 .f32 0x00000000#32) (ix2 r u)) (Ideal.ofBits .f32 0x3F800000#32) = _
  rw [lit_one]
  refine congrArg (fun z => Ideal.div z ((1 : ℝ) : EReal)) ?_
  exact mm_apply _ _ r u

/-! ## The lane reductions and the column layout, at a row -/

/-- The source index over row r with lane u inserted is (r, u). -/
theorem lift_eq (r : Fin 512) (u : Fin 256) : reduces_S512x256_S512.lift (ix1 r) u = ix2 r u :=
  funext fun a => Fin.ext (by match a with | ⟨0, _⟩ => rfl | ⟨1, _⟩ => rfl)

/-- A row's maximum over its 256 lanes, from −∞. -/
theorem lanemax_apply (src : FVec Ideal S512x256 .f32) (r : Fin 512) :
    multiReduction .maximumf [1] S512 src 0xFF800000#32 reduces_S512x256_S512 (.inl rfl) rfl (ix1 r)
      = Finset.univ.fold max (⊥ : EReal) (fun u : Fin 256 => src (ix2 r u)) := by
  refine (Ideal.multiReduction_maximumf_single src 0xFF800000#32 reduces_S512x256_S512 (.inl rfl) rfl (ix1 r)).trans ?_
  show (Finset.univ : Finset (Fin 256)).fold max (Ideal.ofBits .f32 0xFF800000#32) (fun u : Fin 256 => src (reduces_S512x256_S512.lift (ix1 r) u)) = _
  rw [lit_ninf]
  exact congrArg (fun f : Fin 256 → EReal => Finset.univ.fold max (⊥ : EReal) f) (funext fun u => congrArg src (lift_eq r u))

/-- A row's sum over its 256 lanes. -/
theorem lanesum_apply (src : FVec Ideal S512x256 .f32) (r : Fin 512) :
    multiReduction .add [1] S512 src 0x00000000#32 reduces_S512x256_S512 (.inl rfl) rfl (ix1 r)
      = ∑ u : Fin 256, src (ix2 r u) := by
  refine (Ideal.multiReduction_add_single src 0x00000000#32 reduces_S512x256_S512 (.inl rfl) rfl (ix1 r)).trans ?_
  show ∑ u : Fin 256, src (reduces_S512x256_S512.lift (ix1 r) u) = _
  exact Finset.sum_congr rfl fun u _ => congrArg src (lift_eq r u)

/-- A vector of 512 numbers viewed as a column reads, at row r, entry r. -/
theorem col_apply (x : FVec Ideal S512 .f32) (r : Fin 512) :
    shapeCast S512x1 x shapeCasts_S512_S512x1 (ix2 r (0 : Fin 1)) = x (ix1 r) :=
  shapeCast_apply x shapeCasts_S512_S512x1 _ _ (by
    rw [Shape.rowMajor_val_two, Shape.rowMajor_val_one]
    show r.val = r.val * 1 + 0
    omega)

/-- A column spread over the 256 lanes reads, at (r, u), the column's row r. -/
theorem spread_apply (x : FVec Ideal S512x1 .f32) (r : Fin 512) (u : Fin 256) :
    broadcastTo S512x256 x broadcasts_S512x1_S512x256 (ix2 r u) = x (ix2 r (0 : Fin 1)) :=
  broadcastTo_apply x broadcasts_S512x1_S512x256 _ _ (fun a => by
    match a with
    | ⟨0, _⟩ => rfl
    | ⟨1, _⟩ => rfl)

/-! ## The payloads at a row -/

/-- The student's new maximum: the old one joined with the chunk's row maximum. -/
theorem pay14_apply (xs : Vec Ideal S512x2048 .f32) (ws : Vec Ideal S256x2048 .f32) (m : Vec Ideal S512x1 .f32) (r : Fin 512) :
    k0_pay14 xs ws m (ix2 r (0 : Fin 1))
      = max (m (ix2 r 0)) (Finset.univ.fold max (⊥ : EReal) (fun u : Fin 256 => k0_pay12 xs ws (ix2 r u))) := by
  unfold k0_pay14
  show max (m (ix2 r 0)) (shapeCast S512x1 (multiReduction .maximumf [1] S512 (k0_pay12 xs ws) 0xFF800000#32 reduces_S512x256_S512 (.inl rfl) rfl) shapeCasts_S512_S512x1 (ix2 r 0)) = _
  rw [col_apply, lanemax_apply]

/-- The student's new sum: the old one rescaled, plus the chunk's exponentials relative to the new maximum. -/
theorem pay15_apply (xs : Vec Ideal S512x2048 .f32) (ws : Vec Ideal S256x2048 .f32) (m m' l : Vec Ideal S512x1 .f32) (r : Fin 512) :
    k0_pay15 xs ws m m' l (ix2 r (0 : Fin 1))
      = Ideal.exp (m' (ix2 r 0) - k0_pay14 xs ws m (ix2 r 0)) * l (ix2 r 0)
        + ∑ u : Fin 256, Ideal.exp (k0_pay12 xs ws (ix2 r u) - k0_pay14 xs ws m (ix2 r 0)) := by
  unfold k0_pay15
  show Ideal.exp (m' (ix2 r 0) - k0_pay14 xs ws m (ix2 r 0)) * l (ix2 r 0)
      + shapeCast S512x1 (multiReduction .add [1] S512 (exp (subf (k0_pay12 xs ws) (broadcastTo S512x256 (k0_pay14 xs ws m) broadcasts_S512x1_S512x256))) 0x00000000#32 reduces_S512x256_S512 (.inl rfl) rfl) shapeCasts_S512_S512x1 (ix2 r 0) = _
  rw [col_apply, lanesum_apply]
  refine congrArg (fun z => Ideal.exp (m' (ix2 r 0) - k0_pay14 xs ws m (ix2 r 0)) * l (ix2 r 0) + z) (Finset.sum_congr rfl fun u _ => ?_)
  show Ideal.exp (k0_pay12 xs ws (ix2 r u) - broadcastTo S512x256 (k0_pay14 xs ws m) broadcasts_S512x1_S512x256 (ix2 r u)) = _
  rw [spread_apply]

/-- The teacher's new maximum. -/
theorem pay3_apply (y : FVec Ideal S512x256 .f32) (m : Vec Ideal S512x1 .f32) (r : Fin 512) :
    k0_pay3 y m (ix2 r (0 : Fin 1))
      = max (m (ix2 r 0)) (Finset.univ.fold max (⊥ : EReal) (fun u : Fin 256 => y (ix2 r u))) := by
  unfold k0_pay3
  show max (m (ix2 r 0)) (shapeCast S512x1 (multiReduction .maximumf [1] S512 y 0xFF800000#32 reduces_S512x256_S512 (.inl rfl) rfl) shapeCasts_S512_S512x1 (ix2 r 0)) = _
  rw [col_apply, lanemax_apply]

/-- The teacher's new sum. -/
theorem pay4_apply (y : FVec Ideal S512x256 .f32) (m m' l : Vec Ideal S512x1 .f32) (r : Fin 512) :
    k0_pay4 y m m' l (ix2 r (0 : Fin 1))
      = Ideal.exp (m' (ix2 r 0) - k0_pay3 y m (ix2 r 0)) * l (ix2 r 0)
        + ∑ u : Fin 256, Ideal.exp (y (ix2 r u) - k0_pay3 y m (ix2 r 0)) := by
  unfold k0_pay4
  rw [shapeCast_self]
  show Ideal.exp (m' (ix2 r 0) - k0_pay3 y m (ix2 r 0)) * l (ix2 r 0)
      + shapeCast S512x1 (multiReduction .add [1] S512 (exp (subf y (broadcastTo S512x256 (k0_pay3 y m) broadcasts_S512x1_S512x256))) 0x00000000#32 reduces_S512x256_S512 (.inl rfl) rfl) shapeCasts_S512_S512x1 (ix2 r 0) = _
  rw [col_apply, lanesum_apply]
  refine congrArg (fun z => Ideal.exp (m' (ix2 r 0) - k0_pay3 y m (ix2 r 0)) * l (ix2 r 0) + z) (Finset.sum_congr rfl fun u _ => ?_)
  show Ideal.exp (y (ix2 r u) - broadcastTo S512x256 (k0_pay3 y m) broadcasts_S512x1_S512x256 (ix2 r u)) = _
  rw [spread_apply]

theorem pay5_eq (y : FVec Ideal S512x256 .f32) (m : Vec Ideal S512x1 .f32) : k0_pay5 y m = k0_pay3 y m := by
  unfold k0_pay5
  exact shapeCast_self _ _
theorem pay1_eq (v : FVec Ideal S512x1 .f32) : k0_pay1 v = v := by
  unfold k0_pay1
  exact shapeCast_self _ _
theorem pay2_eq (v : FVec Ideal S512x1 .f32) : k0_pay2 v = v := by
  unfold k0_pay2
  exact shapeCast_self _ _

/-- What the output block receives: maximum + log(sum). -/
theorem pay6_apply (m l : Vec Ideal S512x1 .f32) (i : S512x1.Idx) : k0_pay6 m l i = m i + Ideal.log (l i) := rfl
theorem pay7_apply (m l : Vec Ideal S512x1 .f32) (i : S512x1.Idx) : k0_pay7 m l i = m i + Ideal.log (l i) := rfl

/-- The starting columns: −∞ and 0. -/
theorem pay8_apply (i : S512x1.Idx) : (k0_pay8 (F := Ideal)) i = (⊥ : EReal) := by
  unfold k0_pay8
  rw [shapeCast_self]
  exact lit_ninf
theorem pay10_apply (i : S512x1.Idx) : (k0_pay10 (F := Ideal)) i = (⊥ : EReal) := by
  unfold k0_pay10
  rw [shapeCast_self]
  exact lit_ninf
theorem pay9_apply (i : S512x1.Idx) : (k0_pay9 (F := Ideal)) i = (0 : EReal) := by
  unfold k0_pay9
  rw [shapeCast_self]
  exact Ideal.ofBits_zero_f32
theorem pay11_apply (i : S512x1.Idx) : (k0_pay11 (F := Ideal)) i = (0 : EReal) := by
  unfold k0_pay11
  rw [shapeCast_self]
  exact Ideal.ofBits_zero_f32

/-! ## One point's update, the start, and the output, at a row -/

/-- One point's update of the student's pair at row r is the model's step on that row's chunk of logits. -/
theorem step0_row_s (xs : Vec Ideal S512x2048 .f32) (ws : Vec Ideal S256x2048 .f32) (xt : Vec Ideal S512x2048 .f32)
    (wt : Vec Ideal S256x2048 .f32) (p : St0 Ideal) (r : Fin 512) :
    ((step0 xs ws xt wt p).1 (ix2 r (0 : Fin 1)), (step0 xs ws xt wt p).2.1 (ix2 r (0 : Fin 1)))
      = Cert.JSD.onlStep (p.1 (ix2 r (0 : Fin 1)), p.2.1 (ix2 r (0 : Fin 1))) (fun u : Fin 256 => k0_pay12 xs ws (ix2 r u)) := by
  unfold step0 Cert.JSD.onlStep Cert.JSD.cmax
  refine Prod.ext ?_ ?_
  · show k0_pay2 (k0_pay14 xs ws p.1) (ix2 r 0) = _
    rw [pay2_eq]
    exact pay14_apply xs ws p.1 r
  · show k0_pay1 (k0_pay15 xs ws p.1 p.1 p.2.1) (ix2 r 0) = _
    rw [pay1_eq, pay15_apply, pay14_apply]

/-- The same for the teacher's pair. -/
theorem step0_row_t (xs : Vec Ideal S512x2048 .f32) (ws : Vec Ideal S256x2048 .f32) (xt : Vec Ideal S512x2048 .f32)
    (wt : Vec Ideal S256x2048 .f32) (p : St0 Ideal) (r : Fin 512) :
    ((step0 xs ws xt wt p).2.2.1 (ix2 r (0 : Fin 1)), (step0 xs ws xt wt p).2.2.2 (ix2 r (0 : Fin 1)))
      = Cert.JSD.onlStep (p.2.2.1 (ix2 r (0 : Fin 1)), p.2.2.2 (ix2 r (0 : Fin 1))) (fun u : Fin 256 => k0_pay13 xt wt (ix2 r u)) := by
  unfold step0 Cert.JSD.onlStep Cert.JSD.cmax
  refine Prod.ext ?_ ?_
  · show k0_pay5 (k0_pay13 xt wt) p.2.2.1 (ix2 r 0) = _
    rw [pay5_eq]
    exact pay3_apply (k0_pay13 xt wt) p.2.2.1 r
  · show k0_pay4 (k0_pay13 xt wt) p.2.2.1 p.2.2.1 p.2.2.2 (ix2 r 0) = _
    rw [pay4_apply, pay3_apply]

/-- A tile's first chunk starts every row from (−∞, 0), student and teacher. -/
theorem init0_row_s (i : S512x1.Idx) : ((init0 (F := Ideal)).1 i, (init0 (F := Ideal)).2.1 i) = ((⊥ : EReal), (0 : EReal)) :=
  Prod.ext (pay8_apply i) (pay9_apply i)
theorem init0_row_t (i : S512x1.Idx) : ((init0 (F := Ideal)).2.2.1 i, (init0 (F := Ideal)).2.2.2 i) = ((⊥ : EReal), (0 : EReal)) :=
  Prod.ext (pay10_apply i) (pay11_apply i)

/-- The output blocks at a row: maximum + log(sum). -/
theorem lse0_s_apply (p : St0 Ideal) (i : S512x1.Idx) : lse0_s p i = p.1 i + Ideal.log (p.2.1 i) := rfl
theorem lse0_t_apply (p : St0 Ideal) (i : S512x1.Idx) : lse0_t p i = p.2.2.1 i + Ideal.log (p.2.2.2 i) := rfl

end Cert.KernelIdeal.Gen

end
-- ==== Proof.Val0Blk.lean ====
/-
  Region 0 point by point, on the extended reals. At point t = 125·i + j the four input windows hold rows 512·i … 512·i + 511 of
  the student's and the teacher's inputs and weight rows 256·j … 256·j + 255 of the two weight matrices, so the point's chunk of
  logits at row r of the tile is chunk j of logit row 512·i + r. By induction on the point, the four carried columns hold at
  row r the model's running (maximum, sum) of that logit row through chunk j — restarted from (−∞, 0) at each tile's first
  chunk — and at the tile's last chunk the block written out is the row's log-sum-exp.
-/
import proofs.«126184_j41180146434370_1_alg».proof.Proof.Val0Pay
import proofs.«126184_j41180146434370_1_alg».proof.Proof.Logits
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## Where each window's block sits -/

/-- Over the 1000 points: the row windows sit at tile t / 125, the weight windows at chunk t % 125, all at column block 0. -/
theorem idx_maps : ∀ t : Fin cfg0.N,
    win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0
    ∧ win0_3.index t (0 : Fin 2) = t.val % 125 ∧ win0_3.index t (1 : Fin 2) = 0
    ∧ win0_4.index t (0 : Fin 2) = t.val / 125 ∧ win0_4.index t (1 : Fin 2) = 0
    ∧ win0_5.index t (0 : Fin 2) = t.val / 125 ∧ win0_5.index t (1 : Fin 2) = 0 :=
  (by decide +kernel : ∀ t : Fin grid0.N, _)

/-- The student's row block at point t, read at (r, k): row 512·(t / 125) + r of the student inputs. -/
theorem iblk0_0_apply (c : Dev nD) (t : Fin cfg0.N) (r : Fin 512) (k : Fin 2048) (n : Fin 4096)
    (hn : n.val = 512 * (t.val / 125) + r.val) :
    (iblk0 V c 0 t : Vec Ideal S512x2048 .f32) (ix2 r k) = (V c main_arg0 : S4096x2048.Idx → EReal) (ix2 n k) := by
  obtain ⟨e0, e1, -⟩ := idx_maps t
  show (V c main_arg0 : S4096x2048.Idx → EReal) (((cfg0.win 0).blk t).view.emb (ix2 r k)) = _
  refine congrArg (V c main_arg0 : S4096x2048.Idx → EReal) (funext fun a => Fin.ext ?_)
  match a with
  | ⟨0, _⟩ => show win0_0.index t (0 : Fin 2) * 512 + 1 * r.val = n.val; rw [e0, hn]; omega
  | ⟨1, _⟩ => show win0_0.index t (1 : Fin 2) * 2048 + 1 * k.val = k.val; rw [e1]; omega

/-- The student's weight block at point t, read at (u, k): weight row 256·(t % 125) + u. -/
theorem iblk0_1_apply (c : Dev nD) (t : Fin cfg0.N) (u : Fin 256) (k : Fin 2048) (v : Fin 32000)
    (hv : v.val = 256 * (t.val % 125) + u.val) :
    (iblk0 V c 1 t : Vec Ideal S256x2048 .f32) (ix2 u k) = (V c main_arg2 : S32000x2048.Idx → EReal) (ix2 v k) := by
  obtain ⟨-, -, e0, e1, -⟩ := idx_maps t
  show (V c main_arg2 : S32000x2048.Idx → EReal) (((cfg0.win 1).blk t).view.emb (ix2 u k)) = _
  refine congrArg (V c main_arg2 : S32000x2048.Idx → EReal) (funext fun a => Fin.ext ?_)
  match a with
  | ⟨0, _⟩ => show win0_1.index t (0 : Fin 2) * 256 + 1 * u.val = v.val; rw [e0, hv]; omega
  | ⟨1, _⟩ => show win0_1.index t (1 : Fin 2) * 2048 + 1 * k.val = k.val; rw [e1]; omega

/-- The teacher's row block. -/
theorem iblk0_2_apply (c : Dev nD) (t : Fin cfg0.N) (r : Fin 512) (k : Fin 2048) (n : Fin 4096)
    (hn : n.val = 512 * (t.val / 125) + r.val) :
    (iblk0 V c 2 t : Vec Ideal S512x2048 .f32) (ix2 r k) = (V c main_arg1 : S4096x2048.Idx → EReal) (ix2 n k) := by
  obtain ⟨-, -, -, -, e0, e1, -⟩ := idx_maps t
  show (V c main_arg1 : S4096x2048.Idx → EReal) (((cfg0.win 2).blk t).view.emb (ix2 r k)) = _
  refine congrArg (V c main_arg1 : S4096x2048.Idx → EReal) (funext fun a => Fin.ext ?_)
  match a with
  | ⟨0, _⟩ => show win0_2.index t (0 : Fin 2) * 512 + 1 * r.val = n.val; rw [e0, hn]; omega
  | ⟨1, _⟩ => show win0_2.index t (1 : Fin 2) * 2048 + 1 * k.val = k.val; rw [e1]; omega

/-- The teacher's weight block. -/
theorem iblk0_3_apply (c : Dev nD) (t : Fin cfg0.N) (u : Fin 256) (k : Fin 2048) (v : Fin 32000)
    (hv : v.val = 256 * (t.val % 125) + u.val) :
    (iblk0 V c 3 t : Vec Ideal S256x2048 .f32) (ix2 u k) = (V c main_arg3 : S32000x2048.Idx → EReal) (ix2 v k) := by
  obtain ⟨-, -, -, -, -, -, e0, e1, -⟩ := idx_maps t
  show (V c main_arg3 : S32000x2048.Idx → EReal) (((cfg0.win 3).blk t).view.emb (ix2 u k)) = _
  refine congrArg (V c main_arg3 : S32000x2048.Idx → EReal) (funext fun a => Fin.ext ?_)
  match a with
  | ⟨0, _⟩ => show win0_3.index t (0 : Fin 2) * 256 + 1 * u.val = v.val; rw [e0, hv]; omega
  | ⟨1, _⟩ => show win0_3.index t (1 : Fin 2) * 2048 + 1 * k.val = k.val; rw [e1]; omega

/-! ## A point's chunk of logits is the model's chunk of the row -/

/-- The student's chunk at point t, row r of the tile: chunk t % 125 of logit row 512·(t / 125) + r. -/
theorem chunk_s (c : Dev nD) (t : Fin cfg0.N) (r : Fin 512) (n : Fin 4096) (hn : n.val = 512 * (t.val / 125) + r.val)
    (j : ℕ) (hj : t.val % 125 = j) (u : Fin 256) :
    k0_pay12 (iblk0 V c 0 t) (iblk0 V c 1 t) (ix2 r u)
      = Cert.JSD.chunk (Cert.JSD.logitRow (V c main_arg0) (V c main_arg2) n) j u := by
  subst hj
  have hlt : 256 * (t.val % 125) + u.val < 32000 := by have := u.isLt; omega
  refine (pay12_apply (iblk0 V c 0 t) (iblk0 V c 1 t) r u).trans ?_
  unfold Cert.JSD.chunk
  rw [dif_pos hlt]
  unfold Cert.JSD.logitRow
  refine congrArg (fun z => Ideal.div z ((1 : ℝ) : EReal)) (Finset.sum_congr rfl fun k _ => ?_)
  exact congrArg₂ (· * ·) (iblk0_0_apply V c t r k n hn) (iblk0_1_apply V c t u k ⟨256 * (t.val % 125) + u.val, hlt⟩ rfl)

/-- The teacher's chunk. -/
theorem chunk_t (c : Dev nD) (t : Fin cfg0.N) (r : Fin 512) (n : Fin 4096) (hn : n.val = 512 * (t.val / 125) + r.val)
    (j : ℕ) (hj : t.val % 125 = j) (u : Fin 256) :
    k0_pay13 (iblk0 V c 2 t) (iblk0 V c 3 t) (ix2 r u)
      = Cert.JSD.chunk (Cert.JSD.logitRow (V c main_arg1) (V c main_arg3) n) j u := by
  subst hj
  have hlt : 256 * (t.val % 125) + u.val < 32000 := by have := u.isLt; omega
  refine (pay13_apply (iblk0 V c 2 t) (iblk0 V c 3 t) r u).trans ?_
  unfold Cert.JSD.chunk
  rw [dif_pos hlt]
  unfold Cert.JSD.logitRow
  refine congrArg (fun z => Ideal.div z ((1 : ℝ) : EReal)) (Finset.sum_congr rfl fun k _ => ?_)
  exact congrArg₂ (· * ·) (iblk0_2_apply V c t r k n hn) (iblk0_3_apply V c t u k ⟨256 * (t.val % 125) + u.val, hlt⟩ rfl)

/-! ## The four columns after every point -/

/-- At a tile's first chunk the update from (−∞, 0) leaves, at row r, the model's pair after chunk 0. -/
theorem first_rows (c : Dev nD) (t : Fin cfg0.N) (h0 : t.val % 125 = 0) (r : Fin 512) (m : Fin 4096)
    (hm : m.val = 512 * (t.val / 125) + r.val) :
    (((step0 (iblk0 V c 0 t) (iblk0 V c 1 t) (iblk0 V c 2 t) (iblk0 V c 3 t) init0).1 (ix2 r (0 : Fin 1)),
      (step0 (iblk0 V c 0 t) (iblk0 V c 1 t) (iblk0 V c 2 t) (iblk0 V c 3 t) init0).2.1 (ix2 r (0 : Fin 1)))
        = Cert.JSD.onl (Cert.JSD.logitRow (V c main_arg0) (V c main_arg2) m) 0)
    ∧ (((step0 (iblk0 V c 0 t) (iblk0 V c 1 t) (iblk0 V c 2 t) (iblk0 V c 3 t) init0).2.2.1 (ix2 r (0 : Fin 1)),
      (step0 (iblk0 V c 0 t) (iblk0 V c 1 t) (iblk0 V c 2 t) (iblk0 V c 3 t) init0).2.2.2 (ix2 r (0 : Fin 1)))
        = Cert.JSD.onl (Cert.JSD.logitRow (V c main_arg1) (V c main_arg3) m) 0) := by
  refine ⟨?_, ?_⟩
  · refine (step0_row_s (iblk0 V c 0 t) (iblk0 V c 1 t) (iblk0 V c 2 t) (iblk0 V c 3 t) init0 r).trans ?_
    rw [init0_row_s]
    show Cert.JSD.onlStep ((⊥ : EReal), (0 : EReal)) _
      = Cert.JSD.onlStep ((⊥ : EReal), (0 : EReal)) (Cert.JSD.chunk (Cert.JSD.logitRow (V c main_arg0) (V c main_arg2) m) 0)
    exact congrArg (Cert.JSD.onlStep ((⊥ : EReal), (0 : EReal))) (funext fun u => chunk_s V c t r m hm 0 h0 u)
  · refine (step0_row_t (iblk0 V c 0 t) (iblk0 V c 1 t) (iblk0 V c 2 t) (iblk0 V c 3 t) init0 r).trans ?_
    rw [init0_row_t]
    show Cert.JSD.onlStep ((⊥ : EReal), (0 : EReal)) _
      = Cert.JSD.onlStep ((⊥ : EReal), (0 : EReal)) (Cert.JSD.chunk (Cert.JSD.logitRow (V c main_arg1) (V c main_arg3) m) 0)
    exact congrArg (Cert.JSD.onlStep ((⊥ : EReal), (0 : EReal))) (funext fun u => chunk_t V c t r m hm 0 h0 u)

/-- At a later chunk j + 1 the update of columns that hold the model's pairs after chunk j leaves the pairs after chunk j + 1. -/
theorem next_rows (c : Dev nD) (t : Fin cfg0.N) (p : St0 Ideal) (j : ℕ) (hj : t.val % 125 = j + 1) (r : Fin 512) (m : Fin 4096)
    (hm : m.val = 512 * (t.val / 125) + r.val)
    (ihs : (p.1 (ix2 r (0 : Fin 1)), p.2.1 (ix2 r (0 : Fin 1))) = Cert.JSD.onl (Cert.JSD.logitRow (V c main_arg0) (V c main_arg2) m) j)
    (iht : (p.2.2.1 (ix2 r (0 : Fin 1)), p.2.2.2 (ix2 r (0 : Fin 1))) = Cert.JSD.onl (Cert.JSD.logitRow (V c main_arg1) (V c main_arg3) m) j) :
    (((step0 (iblk0 V c 0 t) (iblk0 V c 1 t) (iblk0 V c 2 t) (iblk0 V c 3 t) p).1 (ix2 r (0 : Fin 1)),
      (step0 (iblk0 V c 0 t) (iblk0 V c 1 t) (iblk0 V c 2 t) (iblk0 V c 3 t) p).2.1 (ix2 r (0 : Fin 1)))
        = Cert.JSD.onl (Cert.JSD.logitRow (V c main_arg0) (V c main_arg2) m) (j + 1))
    ∧ (((step0 (iblk0 V c 0 t) (iblk0 V c 1 t) (iblk0 V c 2 t) (iblk0 V c 3 t) p).2.2.1 (ix2 r (0 : Fin 1)),
      (step0 (iblk0 V c 0 t) (iblk0 V c 1 t) (iblk0 V c 2 t) (iblk0 V c 3 t) p).2.2.2 (ix2 r (0 : Fin 1)))
        = Cert.JSD.onl (Cert.JSD.logitRow (V c main_arg1) (V c main_arg3) m) (j + 1)) := by
  refine ⟨?_, ?_⟩
  · refine (step0_row_s (iblk0 V c 0 t) (iblk0 V c 1 t) (iblk0 V c 2 t) (iblk0 V c 3 t) p r).trans ?_
    rw [ihs]
    show Cert.JSD.onlStep (Cert.JSD.onl (Cert.JSD.logitRow (V c main_arg0) (V c main_arg2) m) j) _
      = Cert.JSD.onlStep (Cert.JSD.onl (Cert.JSD.logitRow (V c main_arg0) (V c main_arg2) m) j)
          (Cert.JSD.chunk (Cert.JSD.logitRow (V c main_arg0) (V c main_arg2) m) (j + 1))
    exact congrArg (Cert.JSD.onlStep (Cert.JSD.onl (Cert.JSD.logitRow (V c main_arg0) (V c main_arg2) m) j))
      (funext fun u => chunk_s V c t r m hm (j + 1) hj u)
  · refine (step0_row_t (iblk0 V c 0 t) (iblk0 V c 1 t) (iblk0 V c 2 t) (iblk0 V c 3 t) p r).trans ?_
    rw [iht]
    show Cert.JSD.onlStep (Cert.JSD.onl (Cert.JSD.logitRow (V c main_arg1) (V c main_arg3) m) j) _
      = Cert.JSD.onlStep (Cert.JSD.onl (Cert.JSD.logitRow (V c main_arg1) (V c main_arg3) m) j)
          (Cert.JSD.chunk (Cert.JSD.logitRow (V c main_arg1) (V c main_arg3) m) (j + 1))
    exact congrArg (Cert.JSD.onlStep (Cert.JSD.onl (Cert.JSD.logitRow (V c main_arg1) (V c main_arg3) m) j))
      (funext fun u => chunk_t V c t r m hm (j + 1) hj u)

/-- After point n the four columns hold, at row r of the tile, the model's running pairs of logit row 512·(n / 125) + r
    through chunk n % 125: the student's and the teacher's. -/
theorem stat0_rows (c : Dev nD) : ∀ (n : ℕ) (hn : n < cfg0.N) (r : Fin 512) (m : Fin 4096) (hm : m.val = 512 * (n / 125) + r.val),
    (((stat0 V c n hn).1 (ix2 r (0 : Fin 1)), (stat0 V c n hn).2.1 (ix2 r (0 : Fin 1)))
        = Cert.JSD.onl (Cert.JSD.logitRow (V c main_arg0) (V c main_arg2) m) (n % 125))
    ∧ (((stat0 V c n hn).2.2.1 (ix2 r (0 : Fin 1)), (stat0 V c n hn).2.2.2 (ix2 r (0 : Fin 1)))
        = Cert.JSD.onl (Cert.JSD.logitRow (V c main_arg1) (V c main_arg3) m) (n % 125))
  | 0, hn, r, m, hm => first_rows V c ⟨0, hn⟩ rfl r m hm
  | n + 1, hn, r, m, hm => by
    by_cases h : (n + 1) % 125 = 0
    · have e : stat0 V c (n + 1) hn
          = step0 (iblk0 V c 0 ⟨n + 1, hn⟩) (iblk0 V c 1 ⟨n + 1, hn⟩) (iblk0 V c 2 ⟨n + 1, hn⟩) (iblk0 V c 3 ⟨n + 1, hn⟩) init0 :=
        if_pos h
      rw [e, h]
      exact first_rows V c ⟨n + 1, hn⟩ h r m hm
    · have e : stat0 V c (n + 1) hn
          = step0 (iblk0 V c 0 ⟨n + 1, hn⟩) (iblk0 V c 1 ⟨n + 1, hn⟩) (iblk0 V c 2 ⟨n + 1, hn⟩) (iblk0 V c 3 ⟨n + 1, hn⟩)
              (stat0 V c n (Nat.lt_of_succ_lt hn)) :=
        if_neg h
      have hj : (n + 1) % 125 = n % 125 + 1 := by omega
      have hm' : m.val = 512 * (n / 125) + r.val := by omega
      obtain ⟨ihs, iht⟩ := stat0_rows c n (Nat.lt_of_succ_lt hn) r m hm'
      rw [e, hj]
      exact next_rows V c ⟨n + 1, hn⟩ (stat0 V c n (Nat.lt_of_succ_lt hn)) (n % 125) hj r m hm ihs iht

/-! ## What a tile's last chunk writes out -/

/-- The student's output block at a tile's last chunk, at row r: the row's log-sum-exp as the running pair forms it. -/
theorem out_s_row (c : Dev nD) (t : Fin cfg0.N) (h : t.val % 125 = 124) (r : Fin 512) (m : Fin 4096)
    (hm : m.val = 512 * (t.val / 125) + r.val) :
    lse0_s (stat0 V c t.val t.isLt) (ix2 r (0 : Fin 1))
      = Cert.JSD.lseOnl (Cert.JSD.logitRow (V c main_arg0) (V c main_arg2) m) := by
  have inv := (stat0_rows V c t.val t.isLt r m hm).1
  rw [h] at inv
  exact congrArg (fun p : EReal × EReal => p.1 + Ideal.log p.2) inv

/-- The teacher's. -/
theorem out_t_row (c : Dev nD) (t : Fin cfg0.N) (h : t.val % 125 = 124) (r : Fin 512) (m : Fin 4096)
    (hm : m.val = 512 * (t.val / 125) + r.val) :
    lse0_t (stat0 V c t.val t.isLt) (ix2 r (0 : Fin 1))
      = Cert.JSD.lseOnl (Cert.JSD.logitRow (V c main_arg1) (V c main_arg3) m) := by
  have inv := (stat0_rows V c t.val t.isLt r m hm).2
  rw [h] at inv
  exact congrArg (fun p : EReal × EReal => p.1 + Ideal.log p.2) inv

end Cert.KernelIdeal.Gen

end
-- ==== Proof.Val0.lean ====
/-
  What region 0 leaves in its two output arrays, on the extended reals: row n of the first holds the student logits'
  log-sum-exp as the running maximum and running sum over the 125 chunks form it, row n of the second the teacher's.
-/
import proofs.«126184_j41180146434370_1_alg».proof.Proof.R0Defs
import proofs.«126184_j41180146434370_1_alg».proof.Proof.Model
import proofs.«126184_j41180146434370_1_alg».proof.Proof.Logits
import proofs.«126184_j41180146434370_1_alg».proof.Proof.Val0Blk
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The student array the region should leave: row n holds logit row n's log-sum-exp. -/
abbrev lseArr_s (c : Dev nD) : S4096x1.Idx → EReal := fun i =>
  Cert.JSD.lseOnl (Cert.JSD.logitRow (V c main_arg0) (V c main_arg2) ⟨(i 0).val, (i 0).isLt⟩)
/-- The teacher array. -/
abbrev lseArr_t (c : Dev nD) : S4096x1.Idx → EReal := fun i =>
  Cert.JSD.lseOnl (Cert.JSD.logitRow (V c main_arg1) (V c main_arg3) ⟨(i 0).val, (i 0).isLt⟩)

/-- At a tile's last chunk the student's output block is that tile's block of the array above. -/
theorem out_s_blk (c : Dev nD) (t : Fin cfg0.N) (h : t.val % 125 = 124) (j : S512x1.Idx) :
    lse0_s (stat0 V c t.val t.isLt) j = lseArr_s V c (((cfg0.win 4).blk t).view.emb j) := by
  obtain ⟨r, q, rfl⟩ : ∃ (r : Fin 512) (q : Fin 1), j = ix2 r q := ⟨j 0, j 1, eq_ix2 j⟩
  obtain rfl : q = 0 := Subsingleton.elim _ _
  obtain ⟨-, -, -, -, -, -, -, -, e0, -⟩ := idx_maps t
  refine out_s_row V c t h r _ ?_
  show win0_4.index t (0 : Fin 2) * 512 + 1 * r.val = 512 * (t.val / 125) + r.val
  rw [e0]; omega

theorem out_t_blk (c : Dev nD) (t : Fin cfg0.N) (h : t.val % 125 = 124) (j : S512x1.Idx) :
    lse0_t (stat0 V c t.val t.isLt) j = lseArr_t V c (((cfg0.win 5).blk t).view.emb j) := by
  obtain ⟨r, q, rfl⟩ : ∃ (r : Fin 512) (q : Fin 1), j = ix2 r q := ⟨j 0, j 1, eq_ix2 j⟩
  obtain rfl : q = 0 := Subsingleton.elim _ _
  obtain ⟨-, -, -, -, -, -, -, -, -, -, e0, -⟩ := idx_maps t
  refine out_t_row V c t h r _ ?_
  show win0_5.index t (0 : Fin 2) * 512 + 1 * r.val = 512 * (t.val / 125) + r.val
  rw [e0]; omega

/-- What a writing point writes back into the student array is its block of `lseArr_s`. -/
theorem flushed_s (c : Dev nD) (t : Fin cfg0.N) (hf : (cfg0.win 4).flush t = true) :
    (dat0 (F := Ideal) V c).flushed 4 t = ((cfg0.win 4).blk t).view.read (Elt Ideal) (lseArr_s V c) := by
  have h124 : t.val % 125 = 124 := (flush0_4 t).mp hf
  show (cfg0.win 4).cut (grid0.coords t) ((dat0 (F := Ideal) V c).after 4 t) = _
  rw [after0_4]
  funext j
  exact out_s_blk V c t h124 j

theorem flushed_t (c : Dev nD) (t : Fin cfg0.N) (hf : (cfg0.win 5).flush t = true) :
    (dat0 (F := Ideal) V c).flushed 5 t = ((cfg0.win 5).blk t).view.read (Elt Ideal) (lseArr_t V c) := by
  have h124 : t.val % 125 = 124 := (flush0_5 t).mp hf
  show (cfg0.win 5).cut (grid0.coords t) ((dat0 (F := Ideal) V c).after 5 t) = _
  rw [after0_5]
  funext j
  exact out_t_blk V c t h124 j

/-- Row n of the 4096 × 1 student array lies in the block written at the last chunk of tile n / 512. -/
theorem cover_s (i : S4096x1.Idx) :
    ∃ t : Fin cfg0.N, (cfg0.win 4).flush t = true ∧ i ∈ ((cfg0.win 4).blk t).view.set := by
  have hN : cfg0.N = 1000 := N_0
  have hi0 : (i 0).val < 4096 := (i 0).isLt
  have hi1 : (i 1).val < 1 := (i 1).isLt
  have hlt : 125 * ((i 0).val / 512) + 124 < cfg0.N := by omega
  obtain ⟨-, -, -, -, -, -, -, -, e0, e1, -⟩ := idx_maps ⟨125 * ((i 0).val / 512) + 124, hlt⟩
  have e0' : win0_4.index ⟨125 * ((i 0).val / 512) + 124, hlt⟩ (0 : Fin 2) = (125 * ((i 0).val / 512) + 124) / 125 := e0
  refine ⟨⟨125 * ((i 0).val / 512) + 124, hlt⟩,
    (flush0_4 _).mpr (show (125 * ((i 0).val / 512) + 124) % 125 = 124 by omega), ?_⟩
  show i ∈ ((View.whole main_v0_0).slice (win0_4.rect ⟨125 * ((i 0).val / 512) + 124, hlt⟩)).set
  rw [View.set_slice_whole, Rect.mem_set_unit]
  intro a
  match a with
  | ⟨0, _⟩ =>
    show win0_4.index ⟨125 * ((i 0).val / 512) + 124, hlt⟩ (0 : Fin 2) * 512 ≤ (i 0).val
      ∧ (i 0).val < win0_4.index ⟨125 * ((i 0).val / 512) + 124, hlt⟩ (0 : Fin 2) * 512 + 512
    rw [e0']; omega
  | ⟨1, _⟩ =>
    show win0_4.index ⟨125 * ((i 0).val / 512) + 124, hlt⟩ (1 : Fin 2) * 1 ≤ (i 1).val
      ∧ (i 1).val < win0_4.index ⟨125 * ((i 0).val / 512) + 124, hlt⟩ (1 : Fin 2) * 1 + 1
    rw [e1]; omega

theorem cover_t (i : S4096x1.Idx) :
    ∃ t : Fin cfg0.N, (cfg0.win 5).flush t = true ∧ i ∈ ((cfg0.win 5).blk t).view.set := by
  have hN : cfg0.N = 1000 := N_0
  have hi0 : (i 0).val < 4096 := (i 0).isLt
  have hi1 : (i 1).val < 1 := (i 1).isLt
  have hlt : 125 * ((i 0).val / 512) + 124 < cfg0.N := by omega
  obtain ⟨-, -, -, -, -, -, -, -, -, -, e0, e1⟩ := idx_maps ⟨125 * ((i 0).val / 512) + 124, hlt⟩
  have e0' : win0_5.index ⟨125 * ((i 0).val / 512) + 124, hlt⟩ (0 : Fin 2) = (125 * ((i 0).val / 512) + 124) / 125 := e0
  refine ⟨⟨125 * ((i 0).val / 512) + 124, hlt⟩,
    (flush0_5 _).mpr (show (125 * ((i 0).val / 512) + 124) % 125 = 124 by omega), ?_⟩
  show i ∈ ((View.whole main_v0_1).slice (win0_5.rect ⟨125 * ((i 0).val / 512) + 124, hlt⟩)).set
  rw [View.set_slice_whole, Rect.mem_set_unit]
  intro a
  match a with
  | ⟨0, _⟩ =>
    show win0_5.index ⟨125 * ((i 0).val / 512) + 124, hlt⟩ (0 : Fin 2) * 512 ≤ (i 0).val
      ∧ (i 0).val < win0_5.index ⟨125 * ((i 0).val / 512) + 124, hlt⟩ (0 : Fin 2) * 512 + 512
    rw [e0']; omega
  | ⟨1, _⟩ =>
    show win0_5.index ⟨125 * ((i 0).val / 512) + 124, hlt⟩ (1 : Fin 2) * 1 ≤ (i 1).val
      ∧ (i 1).val < win0_5.index ⟨125 * ((i 0).val / 512) + 124, hlt⟩ (1 : Fin 2) * 1 + 1
    rw [e1]; omega

/-- The student log-sum-exp array after the region. -/
theorem lse_s_final (c : Dev nD) :
    (dat0 (F := Ideal) V c).arrAt 4 cfg0.N = fun i : S4096x1.Idx =>
      Cert.JSD.lseOnl (Cert.JSD.logitRow (V c main_arg0) (V c main_arg2) ⟨(i 0).val, (i 0).isLt⟩) :=
  (dat0 (F := Ideal) V c).arrAt_eq_of_cover 4 (lseArr_s V c) (fun t hf => flushed_s V c t hf) (fun i => cover_s i)

/-- The teacher log-sum-exp array after the region. -/
theorem lse_t_final (c : Dev nD) :
    (dat0 (F := Ideal) V c).arrAt 5 cfg0.N = fun i : S4096x1.Idx =>
      Cert.JSD.lseOnl (Cert.JSD.logitRow (V c main_arg1) (V c main_arg3) ⟨(i 0).val, (i 0).isLt⟩) :=
  (dat0 (F := Ideal) V c).arrAt_eq_of_cover 5 (lseArr_t V c) (fun t hf => flushed_t V c t hf) (fun i => cover_t i)

end Cert.KernelIdeal.Gen

end
-- ==== Proof.Val1.lean ====
/-
  What region 1 leaves in its output array, on the extended reals, when it is entered with the two log-sum-exp arrays
  region 0 left: row n holds the row's contributions ½p(log p − log m) + ½q(log q − log m) accumulated chunk by chunk.

  The road. (1) One chunk's matrix product, read at row r and column u, is the sum over the 2048 hidden coordinates of
  input (r, k) times weight (u, k); divided by the temperature 1 and less the row's log-sum-exp it is the log-probability
  at (r, u): the student's log q and the teacher's log p. (2) One point's update of the carried column at row r is the old
  entry plus the sum over the chunk's 256 columns of (½p)(log p − log m) + (½q)(log q − log m), m = ½p + ½q. (3) At point
  t = 125·i + j the token blocks are rows 512·i … of their arrays and the weight blocks rows 256·j … of theirs, so row r
  of the point is token 512·i + r and column u is vocabulary entry 256·j + u; by induction on the point, the column
  after point t holds at row r the token's contributions accumulated over chunks 0 … j. (4) A tile's last chunk writes
  the column back as rows 512·i … of the output, and these eight blocks cover the 4096 rows.
-/
import proofs.«126184_j41180146434370_1_alg».proof.Proof.R1Defs
import proofs.«126184_j41180146434370_1_alg».proof.Proof.Model
import proofs.«126184_j41180146434370_1_alg».proof.Proof.Logits
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

-- The lemmas of this pass, kept under one name so that they meet no other pass's.
namespace LossPass

/-! ## The float literals -/

/-- The float word 0x3F800000 is the number one. -/
theorem lit_one : Ideal.ofBits .f32 0x3F800000#32 = ((1 : ℝ) : EReal) := by
  simp [Ideal.ofBits, Ideal.ieee]
  rw [← EReal.coe_mul]
  norm_num

/-- The float word 0x3F000000 is one half. -/
theorem lit_half : Ideal.ofBits .f32 0x3F000000#32 = ((1 / 2 : ℝ) : EReal) := by
  simp [Ideal.ofBits, Ideal.ieee]
  rw [← EReal.coe_mul]
  norm_num

/-! ## A chunk's matrix product at an index -/

theorem lhs_mm_0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_mm_1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_mm_0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_mm_1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- The chunk's matrix product into the zero accumulator, at row r and column u: the sum over the 2048 hidden
    coordinates of input (r, k) times weight (u, k). -/
theorem mm_apply (xs : FVec Ideal S512x2048 .bf16) (ws : FVec Ideal S256x2048 .bf16) (r : Fin 512) (u : Fin 256) :
    matmul dot_S512x2048_S256x2048_S512x256_1_1_0_0_n_n none xs ws (constant (F := Ideal) S512x256 .f32 0x00000000#32) (ix2 r u)
      = ∑ k : Fin 2048, xs (ix2 r k) * ws (ix2 u k) := by
  simp only [matmul]
  rw [Ideal.matmul_constant_zero_apply, ← Equiv.sum_comp (ValueIdx.contrEquiv1 dot_S512x2048_S256x2048_S512x256_1_1_0_0_n_n 2048 rfl rfl).symm]
  refine Finset.sum_congr rfl fun k _ => ?_
  have hk := ValueIdx.contrEquiv1_symm_val dot_S512x2048_S256x2048_S512x256_1_1_0_0_n_n 2048 rfl rfl k
  have el : dot_S512x2048_S256x2048_S512x256_1_1_0_0_n_n.lhsIdx (ix2 r u) ((ValueIdx.contrEquiv1 dot_S512x2048_S256x2048_S512x256_1_1_0_0_n_n 2048 rfl rfl).symm k) = ix2 r k := funext fun a => Fin.ext (by
    match a with
    | ⟨0, _⟩ => exact lhs_mm_0 _ _
    | ⟨1, _⟩ => exact (lhs_mm_1 _ _).trans hk)
  have er : dot_S512x2048_S256x2048_S512x256_1_1_0_0_n_n.rhsIdx (ix2 r u) ((ValueIdx.contrEquiv1 dot_S512x2048_S256x2048_S512x256_1_1_0_0_n_n 2048 rfl rfl).symm k) = ix2 u k := funext fun a => Fin.ext (by
    match a with
    | ⟨0, _⟩ => exact rhs_mm_0 _ _
    | ⟨1, _⟩ => exact (rhs_mm_1 _ _).trans hk)
  rw [el, er]

/-! ## The log-probabilities of a chunk at an index -/

/-- A column of 512 numbers spread over 256 columns reads, at (r, u), the column at row r. -/
theorem col_spread (ls : Vec Ideal S512x1 .f32) (r : Fin 512) (u : Fin 256) :
    broadcastTo S512x256 (shapeCast S512x1 ls shapeCasts_S512x1_S512x1) broadcasts_S512x1_S512x256 (ix2 r u) = ls (ix2 r (0 : Fin 1)) := by
  rw [shapeCast_self]
  exact broadcastTo_apply ls broadcasts_S512x1_S512x256 (ix2 r u) (ix2 r (0 : Fin 1)) (fun a => by
    match a with
    | ⟨0, _⟩ => rfl
    | ⟨1, _⟩ => rfl)

/-- The student's log-probabilities of the chunk at (r, u): the logit (the product over the hidden coordinates, over
    the temperature 1) less the row's log-sum-exp. -/
theorem pay3_apply (xs : Vec Ideal S512x2048 .f32) (ws : Vec Ideal S256x2048 .f32) (ls : Vec Ideal S512x1 .f32) (r : Fin 512) (u : Fin 256) :
    k1_pay3 (F := Ideal) xs ws ls (ix2 r u)
      = Ideal.div (∑ k : Fin 2048, xs (ix2 r k) * ws (ix2 u k)) ((1 : ℝ) : EReal) - ls (ix2 r (0 : Fin 1)) := by
  unfold k1_pay3
  rw [subf_apply, divf_apply, broadcast_apply, col_spread, mm_apply]
  simp only [truncf_apply, Ideal.ofBits_def, lit_one]

/-- The teacher's, likewise. -/
theorem pay4_apply (xt : Vec Ideal S512x2048 .f32) (wt : Vec Ideal S256x2048 .f32) (lt : Vec Ideal S512x1 .f32) (r : Fin 512) (u : Fin 256) :
    k1_pay4 (F := Ideal) xt wt lt (ix2 r u)
      = Ideal.div (∑ k : Fin 2048, xt (ix2 r k) * wt (ix2 u k)) ((1 : ℝ) : EReal) - lt (ix2 r (0 : Fin 1)) := by
  unfold k1_pay4
  rw [subf_apply, divf_apply, broadcast_apply, col_spread, mm_apply]
  simp only [truncf_apply, Ideal.ofBits_def, lit_one]

/-! ## One point's update at a row -/

/-- The start of a tile's column is zero at every row. -/
theorem init1_row (r : Fin 512) : init1 (F := Ideal) (ix2 r (0 : Fin 1)) = 0 := by
  unfold init1 k1_pay2
  rw [shapeCast_self, broadcast_apply]
  exact Ideal.ofBits_zero_f32

/-- One point's update at row r: the old entry plus the sum over the chunk's 256 columns of the column's contribution
    ½p(log p − log m) + ½q(log q − log m), with log p the teacher's and log q the student's log-probability there. -/
theorem step1_row (xs : Vec Ideal S512x2048 .f32) (ws : Vec Ideal S256x2048 .f32) (xt : Vec Ideal S512x2048 .f32)
    (wt : Vec Ideal S256x2048 .f32) (ls lt acc : Vec Ideal S512x1 .f32) (r : Fin 512) :
    step1 (F := Ideal) xs ws xt wt ls lt acc (ix2 r (0 : Fin 1))
      = acc (ix2 r (0 : Fin 1))
        + ∑ u : Fin 256, Cert.JSD.contribK (k1_pay4 (F := Ideal) xt wt lt (ix2 r u)) (k1_pay3 (F := Ideal) xs ws ls (ix2 r u)) := by
  unfold step1 k1_pay1
  rw [shapeCast_self, addf_apply]
  congr 1
  refine (shapeCast_apply _ shapeCasts_S512_S512x1 (ix2 r (0 : Fin 1)) (ix1 r) ?_).trans ?_
  · rw [Shape.rowMajor_val_one, Shape.rowMajor_val_two]
    show r.val = r.val * 1 + 0
    omega
  refine (Ideal.multiReduction_add_single _ _ reduces_S512x256_S512 _ _ (ix1 r)).trans ?_
  refine Finset.sum_congr rfl fun u _ => ?_
  have e : reduces_S512x256_S512.lift (ix1 r) u = ix2 r u := funext fun a => Fin.ext (by
    match a with
    | ⟨0, _⟩ => rfl
    | ⟨1, _⟩ => rfl)
  rw [e]
  unfold k1_pay8 k1_pay9 k1_pay7 k1_pay6 k1_pay5 Cert.JSD.contribK Cert.JSD.logMix Cert.JSD.half
  simp only [addf_apply, mulf_apply, subf_apply, broadcast_apply, Ideal.ofBits_def, lit_half]
  rfl

/-! ## The blocks where they sit -/

/-- The six input blocks at point t, each at its block's own shape. -/
abbrev xsB (c : Dev nD) (t : Fin cfg1.N) : Vec Ideal S512x2048 .f32 := iblk1 V c 0 t
abbrev wsB (c : Dev nD) (t : Fin cfg1.N) : Vec Ideal S256x2048 .f32 := iblk1 V c 1 t
abbrev xtB (c : Dev nD) (t : Fin cfg1.N) : Vec Ideal S512x2048 .f32 := iblk1 V c 2 t
abbrev wtB (c : Dev nD) (t : Fin cfg1.N) : Vec Ideal S256x2048 .f32 := iblk1 V c 3 t
abbrev lsB (c : Dev nD) (t : Fin cfg1.N) : Vec Ideal S512x1 .f32 := iblk1 V c 4 t
abbrev ltB (c : Dev nD) (t : Fin cfg1.N) : Vec Ideal S512x1 .f32 := iblk1 V c 5 t

/-- Where each window's block sits at point t = 125·i + j: the token windows at tile i = t / 125, the weight windows at
    chunk j = t % 125, all at column block 0. -/
theorem idx_facts1 : ∀ t : Fin cfg1.N,
    win1_0.index t (0 : Fin 2) = t.val / 125 ∧ win1_0.index t (1 : Fin 2) = 0
    ∧ win1_1.index t (0 : Fin 2) = t.val % 125 ∧ win1_1.index t (1 : Fin 2) = 0
    ∧ win1_2.index t (0 : Fin 2) = t.val / 125 ∧ win1_2.index t (1 : Fin 2) = 0
    ∧ win1_3.index t (0 : Fin 2) = t.val % 125 ∧ win1_3.index t (1 : Fin 2) = 0
    ∧ win1_4.index t (0 : Fin 2) = t.val / 125 ∧ win1_4.index t (1 : Fin 2) = 0
    ∧ win1_5.index t (0 : Fin 2) = t.val / 125 ∧ win1_5.index t (1 : Fin 2) = 0
    ∧ win1_6.index t (0 : Fin 2) = t.val / 125 ∧ win1_6.index t (1 : Fin 2) = 0 :=
  (by decide +kernel : ∀ t : Fin grid1.N, _)

/-- Row r of tile t / 125 is a token. -/
theorem tok_lt (t : Fin cfg1.N) (r : Fin 512) : 512 * (t.val / 125) + r.val < 4096 := by
  have h := t.isLt
  have hN : cfg1.N = 1000 := N_1
  have hr := r.isLt
  omega

/-- Column u of chunk t % 125 is a vocabulary entry. -/
theorem voc_lt (t : Fin cfg1.N) (u : Fin 256) : 256 * (t.val % 125) + u.val < 32000 := by
  have hu := u.isLt
  omega

/-- The student rows' block at point t: rows 512·(t / 125) … of the student inputs. -/
theorem blk0_apply (c : Dev nD) (t : Fin cfg1.N) (r : Fin 512) (k : Fin 2048) :
    xsB V c t (ix2 r k)
      = (V c main_arg0 : S4096x2048.Idx → EReal) (ix2 ⟨512 * (t.val / 125) + r.val, tok_lt t r⟩ k) := by
  obtain ⟨e0, e1, -⟩ := idx_facts1 t
  unfold xsB iblk1
  rw [View.read_apply]
  show V c main_arg0 _ = V c main_arg0 _
  congr 1
  funext a
  apply Fin.ext
  match a with
  | ⟨0, _⟩ => show win1_0.index t (0 : Fin 2) * 512 + 1 * r.val = 512 * (t.val / 125) + r.val; rw [e0]; omega
  | ⟨1, _⟩ => show win1_0.index t (1 : Fin 2) * 2048 + 1 * k.val = k.val; rw [e1]; omega

/-- The student weights' block at point t: rows 256·(t % 125) … of the student weights. -/
theorem blk1_apply (c : Dev nD) (t : Fin cfg1.N) (u : Fin 256) (k : Fin 2048) :
    wsB V c t (ix2 u k)
      = (V c main_arg2 : S32000x2048.Idx → EReal) (ix2 ⟨256 * (t.val % 125) + u.val, voc_lt t u⟩ k) := by
  obtain ⟨-, -, e0, e1, -⟩ := idx_facts1 t
  unfold wsB iblk1
  rw [View.read_apply]
  show V c main_arg2 _ = V c main_arg2 _
  congr 1
  funext a
  apply Fin.ext
  match a with
  | ⟨0, _⟩ => show win1_1.index t (0 : Fin 2) * 256 + 1 * u.val = 256 * (t.val % 125) + u.val; rw [e0]; omega
  | ⟨1, _⟩ => show win1_1.index t (1 : Fin 2) * 2048 + 1 * k.val = k.val; rw [e1]; omega

/-- The teacher rows' block. -/
theorem blk2_apply (c : Dev nD) (t : Fin cfg1.N) (r : Fin 512) (k : Fin 2048) :
    xtB V c t (ix2 r k)
      = (V c main_arg1 : S4096x2048.Idx → EReal) (ix2 ⟨512 * (t.val / 125) + r.val, tok_lt t r⟩ k) := by
  obtain ⟨-, -, -, -, e0, e1, -⟩ := idx_facts1 t
  unfold xtB iblk1
  rw [View.read_apply]
  show V c main_arg1 _ = V c main_arg1 _
  congr 1
  funext a
  apply Fin.ext
  match a with
  | ⟨0, _⟩ => show win1_2.index t (0 : Fin 2) * 512 + 1 * r.val = 512 * (t.val / 125) + r.val; rw [e0]; omega
  | ⟨1, _⟩ => show win1_2.index t (1 : Fin 2) * 2048 + 1 * k.val = k.val; rw [e1]; omega

/-- The teacher weights' block. -/
theorem blk3_apply (c : Dev nD) (t : Fin cfg1.N) (u : Fin 256) (k : Fin 2048) :
    wtB V c t (ix2 u k)
      = (V c main_arg3 : S32000x2048.Idx → EReal) (ix2 ⟨256 * (t.val % 125) + u.val, voc_lt t u⟩ k) := by
  obtain ⟨-, -, -, -, -, -, e0, e1, -⟩ := idx_facts1 t
  unfold wtB iblk1
  rw [View.read_apply]
  show V c main_arg3 _ = V c main_arg3 _
  congr 1
  funext a
  apply Fin.ext
  match a with
  | ⟨0, _⟩ => show win1_3.index t (0 : Fin 2) * 256 + 1 * u.val = 256 * (t.val % 125) + u.val; rw [e0]; omega
  | ⟨1, _⟩ => show win1_3.index t (1 : Fin 2) * 2048 + 1 * k.val = k.val; rw [e1]; omega

/-- The student log-sum-exp block: rows 512·(t / 125) … of that column. -/
theorem blk4_apply (c : Dev nD) (t : Fin cfg1.N) (r : Fin 512) :
    lsB V c t (ix2 r (0 : Fin 1))
      = (V c main_v0_0 : S4096x1.Idx → EReal) (ix2 ⟨512 * (t.val / 125) + r.val, tok_lt t r⟩ (0 : Fin 1)) := by
  obtain ⟨-, -, -, -, -, -, -, -, e0, e1, -⟩ := idx_facts1 t
  unfold lsB iblk1
  rw [View.read_apply]
  show V c main_v0_0 _ = V c main_v0_0 _
  congr 1
  funext a
  apply Fin.ext
  match a with
  | ⟨0, _⟩ => show win1_4.index t (0 : Fin 2) * 512 + 1 * r.val = 512 * (t.val / 125) + r.val; rw [e0]; omega
  | ⟨1, _⟩ => show win1_4.index t (1 : Fin 2) * 1 + 1 * 0 = 0; rw [e1]

/-- The teacher log-sum-exp block. -/
theorem blk5_apply (c : Dev nD) (t : Fin cfg1.N) (r : Fin 512) :
    ltB V c t (ix2 r (0 : Fin 1))
      = (V c main_v0_1 : S4096x1.Idx → EReal) (ix2 ⟨512 * (t.val / 125) + r.val, tok_lt t r⟩ (0 : Fin 1)) := by
  obtain ⟨-, -, -, -, -, -, -, -, -, -, e0, e1, -⟩ := idx_facts1 t
  unfold ltB iblk1
  rw [View.read_apply]
  show V c main_v0_1 _ = V c main_v0_1 _
  congr 1
  funext a
  apply Fin.ext
  match a with
  | ⟨0, _⟩ => show win1_5.index t (0 : Fin 2) * 512 + 1 * r.val = 512 * (t.val / 125) + r.val; rw [e0]; omega
  | ⟨1, _⟩ => show win1_5.index t (1 : Fin 2) * 1 + 1 * 0 = 0; rw [e1]

/-! ## The carried column, point by point -/

/-- Token n's student logits. -/
abbrev rowS (c : Dev nD) (n : Fin 4096) : Fin 32000 → EReal := Cert.JSD.logitRow (V c main_arg0) (V c main_arg2) n
/-- Token n's teacher logits. -/
abbrev rowT (c : Dev nD) (n : Fin 4096) : Fin 32000 → EReal := Cert.JSD.logitRow (V c main_arg1) (V c main_arg3) n
/-- Token n's contributions along the vocabulary. -/
abbrev rowC (c : Dev nD) (n : Fin 4096) : Fin 32000 → EReal :=
  fun v => Cert.JSD.contribK (Cert.JSD.lsmK (rowT V c n) v) (Cert.JSD.lsmK (rowS V c n) v)

/-- One point's update at row r, with the blocks read where they sit: the old entry plus the sum over chunk t % 125 of
    the token's contributions. -/
theorem step_at (c : Dev nD)
    (hs : V c main_v0_0 = fun i : S4096x1.Idx => Cert.JSD.lseOnl (rowS V c ⟨(i 0).val, (i 0).isLt⟩))
    (ht : V c main_v0_1 = fun i : S4096x1.Idx => Cert.JSD.lseOnl (rowT V c ⟨(i 0).val, (i 0).isLt⟩))
    (t : Fin cfg1.N) (acc : Vec Ideal S512x1 .f32) (r : Fin 512) :
    step1 (F := Ideal) (iblk1 V c 0 t) (iblk1 V c 1 t) (iblk1 V c 2 t) (iblk1 V c 3 t) (iblk1 V c 4 t) (iblk1 V c 5 t) acc (ix2 r (0 : Fin 1))
      = acc (ix2 r (0 : Fin 1)) + ∑ u : Fin 256, Cert.JSD.chunk (rowC V c ⟨512 * (t.val / 125) + r.val, tok_lt t r⟩) (t.val % 125) u := by
  refine (step1_row (xsB V c t) (wsB V c t) (xtB V c t) (wtB V c t) (lsB V c t) (ltB V c t) acc r).trans ?_
  congr 1
  refine Finset.sum_congr rfl fun u _ => ?_
  have h3 := pay3_apply (xsB V c t) (wsB V c t) (lsB V c t) r u
  have h4 := pay4_apply (xtB V c t) (wtB V c t) (ltB V c t) r u
  have es : Ideal.div (∑ k : Fin 2048, xsB V c t (ix2 r k) * wsB V c t (ix2 u k)) ((1 : ℝ) : EReal)
      = rowS V c ⟨512 * (t.val / 125) + r.val, tok_lt t r⟩ ⟨256 * (t.val % 125) + u.val, voc_lt t u⟩ :=
    congrArg (fun s => Ideal.div s ((1 : ℝ) : EReal)) (Finset.sum_congr rfl fun k _ => by rw [blk0_apply V c t r k, blk1_apply V c t u k])
  have et : Ideal.div (∑ k : Fin 2048, xtB V c t (ix2 r k) * wtB V c t (ix2 u k)) ((1 : ℝ) : EReal)
      = rowT V c ⟨512 * (t.val / 125) + r.val, tok_lt t r⟩ ⟨256 * (t.val % 125) + u.val, voc_lt t u⟩ :=
    congrArg (fun s => Ideal.div s ((1 : ℝ) : EReal)) (Finset.sum_congr rfl fun k _ => by rw [blk2_apply V c t r k, blk3_apply V c t u k])
  have els : lsB V c t (ix2 r (0 : Fin 1)) = Cert.JSD.lseOnl (rowS V c ⟨512 * (t.val / 125) + r.val, tok_lt t r⟩) :=
    (blk4_apply V c t r).trans (congrFun hs (ix2 ⟨512 * (t.val / 125) + r.val, tok_lt t r⟩ (0 : Fin 1)))
  have elt : ltB V c t (ix2 r (0 : Fin 1)) = Cert.JSD.lseOnl (rowT V c ⟨512 * (t.val / 125) + r.val, tok_lt t r⟩) :=
    (blk5_apply V c t r).trans (congrFun ht (ix2 ⟨512 * (t.val / 125) + r.val, tok_lt t r⟩ (0 : Fin 1)))
  rw [h3, h4, es, et, els, elt]
  unfold Cert.JSD.chunk
  rw [dif_pos (voc_lt t u)]
  rfl

/-- A tile's first chunk at row r: the sum of chunk 0 of the token's contributions, from zero. -/
theorem stat1_row_first (c : Dev nD)
    (hs : V c main_v0_0 = fun i : S4096x1.Idx => Cert.JSD.lseOnl (rowS V c ⟨(i 0).val, (i 0).isLt⟩))
    (ht : V c main_v0_1 = fun i : S4096x1.Idx => Cert.JSD.lseOnl (rowT V c ⟨(i 0).val, (i 0).isLt⟩))
    (t : Fin cfg1.N) (h : t.val % 125 = 0) (r : Fin 512) :
    stat1 V c t.val t.isLt (ix2 r (0 : Fin 1))
      = Cert.JSD.accK (rowC V c ⟨512 * (t.val / 125) + r.val, tok_lt t r⟩) (t.val % 125) := by
  refine (congrFun (stat1_first V c t h) (ix2 r (0 : Fin 1))).trans ?_
  refine (step_at V c hs ht t init1 r).trans ?_
  rw [init1_row, h]
  rfl

/-- The carried column after point n, at row r: the token's contributions accumulated over chunks 0 … n % 125. -/
theorem stat1_row (c : Dev nD)
    (hs : V c main_v0_0 = fun i : S4096x1.Idx => Cert.JSD.lseOnl (rowS V c ⟨(i 0).val, (i 0).isLt⟩))
    (ht : V c main_v0_1 = fun i : S4096x1.Idx => Cert.JSD.lseOnl (rowT V c ⟨(i 0).val, (i 0).isLt⟩)) :
    ∀ (n : ℕ) (hn : n < cfg1.N) (r : Fin 512),
      stat1 V c n hn (ix2 r (0 : Fin 1))
        = Cert.JSD.accK (rowC V c ⟨512 * (n / 125) + r.val, tok_lt ⟨n, hn⟩ r⟩) (n % 125) := by
  intro n
  induction n with
  | zero => intro hn r; exact stat1_row_first V c hs ht ⟨0, hn⟩ rfl r
  | succ m ih =>
    intro hn r
    by_cases h0 : (m + 1) % 125 = 0
    · exact stat1_row_first V c hs ht ⟨m + 1, hn⟩ h0 r
    · have hm : m < cfg1.N := Nat.lt_of_succ_lt hn
      have hq : (m + 1) / 125 = m / 125 := by omega
      have hj : (m + 1) % 125 = m % 125 + 1 := by omega
      have hrow : (⟨512 * ((m + 1) / 125) + r.val, tok_lt ⟨m + 1, hn⟩ r⟩ : Fin 4096) = ⟨512 * (m / 125) + r.val, tok_lt ⟨m, hm⟩ r⟩ :=
        Fin.ext (by show 512 * ((m + 1) / 125) + r.val = 512 * (m / 125) + r.val; rw [hq])
      refine (congrFun (stat1_next V c ⟨m + 1, hn⟩ h0) (ix2 r (0 : Fin 1))).trans ?_
      refine (step_at V c hs ht ⟨m + 1, hn⟩ (stat1 V c m hm) r).trans ?_
      rw [ih hm r]
      show _ + ∑ u : Fin 256, Cert.JSD.chunk (rowC V c ⟨512 * ((m + 1) / 125) + r.val, tok_lt ⟨m + 1, hn⟩ r⟩) ((m + 1) % 125) u = _
      rw [hrow, hj]
      rfl

/-- What the output array ends holding: at token n the contributions accumulated over all 125 chunks. -/
abbrev G1 (c : Dev nD) : S4096x1.Idx → EReal :=
  fun i => Cert.JSD.accK (rowC V c ⟨(i 0).val, (i 0).isLt⟩) 124

/-- What a tile's last chunk writes back is the tile's block of that array. -/
theorem flushed1_eq (c : Dev nD)
    (hs : V c main_v0_0 = fun i : S4096x1.Idx => Cert.JSD.lseOnl (rowS V c ⟨(i 0).val, (i 0).isLt⟩))
    (ht : V c main_v0_1 = fun i : S4096x1.Idx => Cert.JSD.lseOnl (rowT V c ⟨(i 0).val, (i 0).isLt⟩))
    (t : Fin cfg1.N) (hf : (cfg1.win 6).flush t = true) :
    (dat1 (F := Ideal) V c).flushed 6 t = ((cfg1.win 6).blk t).view.read (Elt Ideal) (G1 V c) := by
  have h124 : t.val % 125 = 124 := (flush1_6 t).mp hf
  obtain ⟨-, -, -, -, -, -, -, -, -, -, -, -, e0, e1⟩ := idx_facts1 t
  show (cfg1.win 6).cut (grid1.coords t) ((dat1 (F := Ideal) V c).after 6 t) = _
  rw [after1_6]
  funext y
  obtain ⟨r, z, rfl⟩ : ∃ (r : Fin 512) (z : Fin 1), y = ix2 r z := ⟨y 0, y 1, eq_ix2 y⟩
  obtain rfl : z = 0 := Subsingleton.elim _ _
  rw [View.read_apply]
  show stat1 V c t.val t.isLt (ix2 r (0 : Fin 1)) = G1 V c (((cfg1.win 6).blk t).view.emb (ix2 r (0 : Fin 1)))
  rw [stat1_row V c hs ht t.val t.isLt r, h124]
  show Cert.JSD.accK (rowC V c ⟨512 * (t.val / 125) + r.val, _⟩) 124 = Cert.JSD.accK (rowC V c ⟨win1_6.index t (0 : Fin 2) * 512 + 1 * r.val, _⟩) 124
  congr 2
  apply Fin.ext
  show 512 * (t.val / 125) + r.val = win1_6.index t (0 : Fin 2) * 512 + 1 * r.val
  rw [e0]; omega

/-- Every token's row lies in the block its tile's last chunk writes back. -/
theorem cover1 (i : S4096x1.Idx) :
    ∃ t : Fin cfg1.N, (cfg1.win 6).flush t = true ∧ i ∈ ((cfg1.win 6).blk t).view.set := by
  have hi0 : (i 0).val < 4096 := (i 0).isLt
  have hi1 : (i 1).val < 1 := (i 1).isLt
  have hN : cfg1.N = 1000 := N_1
  have hlt : 125 * ((i 0).val / 512) + 124 < cfg1.N := by omega
  obtain ⟨-, -, -, -, -, -, -, -, -, -, -, -, e0, e1⟩ := idx_facts1 ⟨125 * ((i 0).val / 512) + 124, hlt⟩
  refine ⟨⟨125 * ((i 0).val / 512) + 124, hlt⟩, (flush1_6 _).mpr (by show (125 * ((i 0).val / 512) + 124) % 125 = 124; omega), ?_⟩
  show i ∈ ((View.whole main_v1).slice (win1_6.rect ⟨125 * ((i 0).val / 512) + 124, hlt⟩)).set
  rw [View.set_slice_whole, Rect.mem_set_unit]
  intro a
  match a with
  | ⟨0, _⟩ =>
    show win1_6.index ⟨125 * ((i 0).val / 512) + 124, hlt⟩ (0 : Fin 2) * 512 ≤ (i 0).val ∧ (i 0).val < win1_6.index ⟨125 * ((i 0).val / 512) + 124, hlt⟩ (0 : Fin 2) * 512 + 512
    rw [e0]
    show (125 * ((i 0).val / 512) + 124) / 125 * 512 ≤ (i 0).val ∧ (i 0).val < (125 * ((i 0).val / 512) + 124) / 125 * 512 + 512
    omega
  | ⟨1, _⟩ =>
    show win1_6.index ⟨125 * ((i 0).val / 512) + 124, hlt⟩ (1 : Fin 2) * 1 ≤ (i 1).val ∧ (i 1).val < win1_6.index ⟨125 * ((i 0).val / 512) + 124, hlt⟩ (1 : Fin 2) * 1 + 1
    rw [e1]
    omega

/-! ## From the blocks to the array -/

end LossPass

open LossPass in
/-- The per-token loss array after the region. -/
theorem loss_rows_final (c : Dev nD)
    (hs : V c main_v0_0 = fun i : S4096x1.Idx =>
      Cert.JSD.lseOnl (Cert.JSD.logitRow (V c main_arg0) (V c main_arg2) ⟨(i 0).val, (i 0).isLt⟩))
    (ht : V c main_v0_1 = fun i : S4096x1.Idx =>
      Cert.JSD.lseOnl (Cert.JSD.logitRow (V c main_arg1) (V c main_arg3) ⟨(i 0).val, (i 0).isLt⟩)) :
    (dat1 (F := Ideal) V c).arrAt 6 cfg1.N = fun i : S4096x1.Idx =>
      Cert.JSD.accK (fun v => Cert.JSD.contribK
        (Cert.JSD.lsmK (Cert.JSD.logitRow (V c main_arg1) (V c main_arg3) ⟨(i 0).val, (i 0).isLt⟩) v)
        (Cert.JSD.lsmK (Cert.JSD.logitRow (V c main_arg0) (V c main_arg2) ⟨(i 0).val, (i 0).isLt⟩) v)) 124 :=
  (dat1 (F := Ideal) V c).arrAt_eq_of_cover 6 (G1 V c) (fun t hf => flushed1_eq V c hs ht t hf) cover1

end Cert.KernelIdeal.Gen

end
-- ==== Proof.Tail.lean ====
/-
  The host operations that close the kernel program, on the extended reals: the sum of the per-token column over both
  of its axes from 0, divided by 4096 — the sum over the 4096 rows of the column's one entry per row, over 4096.
-/
import proofs.«126184_j41180146434370_1_alg».proof.Proof.Gen.KernelIdeal
import Idealize.ShloMosaic.Lib.ValueIdx
import Idealize.ShloMosaic.PureOps.Ideal.Laws

noncomputable section

namespace Cert.KernelIdeal.Gen

open Idealize.ShloMosaic Idealize.ShloMosaic.ValueIdx

/-- The word 0x45800000 is 4096. -/
theorem word_4096 : Ideal.ofBits .f32 0x45800000#32 = ((4096 : ℝ) : EReal) := by
  simp [Ideal.ofBits, Ideal.ieee]
  norm_cast
  norm_num

/-- The column summed over both axes from zero and divided by 4096, as one sum over the rows. -/
theorem tail_eq (A : (⟨S4096x1, .f32⟩ : BufTy).Contents (Elt Ideal)) :
    Host.divf (F := Ideal) (Host.reduceAdd (F := Ideal) A (constant (F := Ideal) S_ .f32 0x00000000#32) reducesTo_S4096x1_S_d0_1 h_S_)
        (constant (F := Ideal) S_ .f32 0x45800000#32)
      = fun _ => Ideal.div (∑ n : Fin 4096, A (ix2 n 0)) ((4096 : ℝ) : EReal) := by
  funext j
  show FloatOps.hostDivf (F := Ideal) (φ := .f32) (Host.reduceAdd (F := Ideal) A (constant (F := Ideal) S_ .f32 0x00000000#32) reducesTo_S4096x1_S_d0_1 h_S_ j)
    (FloatOps.ofBits (F := Ideal) .f32 0x45800000#32) = _
  simp only [Host.reduceAdd, Ideal.hostReduceAdd_def, Ideal.hostDivf_def, Ideal.ofBits_def]
  rw [Ideal.hostReduceAdd_total reducesTo_S4096x1_S_d0_1 (fun b => b.elim0) A _ j, word_4096]
  congr 1
  show Ideal.ofBits .f32 0x00000000#32 + ∑ i : S4096x1.Idx, A i = _
  rw [Ideal.ofBits_zero_f32, zero_add, sum_idx2]
  exact Finset.sum_congr rfl fun n _ => Fin.sum_univ_one _

end Cert.KernelIdeal.Gen

end
-- ==== Proof.MathLsm.lean ====
/-
  On a row of real logits the log-softmax formed from the running maximum and running sum over chunks is the
  log-softmax formed from the row's maximum at once.

  Write r for the row's real entries, listed by position 0 … 31999. After chunk j the running pair is (M, L) with M the
  largest of the first 256·(j+1) entries (an upper bound of them that one of them attains) and
  L = Σ_{i < 256·(j+1)} exp (r_i − M). A new chunk with largest entry c moves M to M' = max M c, and
  exp (M − M') · Σ exp (r_i − M) = Σ exp (r_i − M') term by term, so the invariant passes to the next chunk. After the
  last chunk M is the largest entry of the whole row, which is also what the maximum taken at once gives, and L is the
  full sum of exponentials relative to it: a positive real number, so its logarithm is a real number. Both log-softmaxes
  are then the real number r_v − M − log L.
-/
import proofs.«126184_j41180146434370_1_alg».proof.Proof.Model
import Mathlib.Algebra.BigOperators.Fin
import Mathlib.Data.Finset.Fold
import Mathlib.Data.Finset.Max
import Mathlib.Data.EReal.Operations
import Mathlib.Analysis.SpecialFunctions.Log.Basic

noncomputable section

namespace Cert.JSD

open Idealize.ShloMosaic

namespace Onl

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- The inclusion of the reals commutes with the maximum of two numbers. -/
theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum from −∞ of finitely many (at least one) real numbers is one of them and bounds them all. -/
theorem fold_max_coe {ι : Type*} [Fintype ι] [Nonempty ι] (y : ι → EReal) (s : ι → ℝ)
    (h : ∀ i, y i = (s i : EReal)) :
    ∃ c : ℝ, Finset.univ.fold max ⊥ y = (c : EReal) ∧ (∀ i, s i ≤ c) ∧ ∃ i, s i = c := by
  obtain ⟨i₀, -, hi₀⟩ := Finset.exists_max_image Finset.univ s Finset.univ_nonempty
  refine ⟨s i₀, ?_, fun i => hi₀ i (Finset.mem_univ i), i₀, rfl⟩
  apply le_antisymm
  · rw [Finset.fold_max_le]
    refine ⟨bot_le, fun i _ => ?_⟩
    rw [h i]
    exact EReal.coe_le_coe_iff.mpr (hi₀ i (Finset.mem_univ i))
  · rw [Finset.le_fold_max]
    exact Or.inr ⟨i₀, Finset.mem_univ _, le_of_eq (h i₀).symm⟩

/-- The row's real entries listed by position (zero past the end). -/
def ent (r : Fin 32000 → ℝ) (i : ℕ) : ℝ := if h : i < 32000 then r ⟨i, h⟩ else 0

theorem ent_val (r : Fin 32000 → ℝ) (v : Fin 32000) : ent r v.val = r v := by
  unfold ent
  rw [dif_pos v.isLt]

/-- A chunk of a real row consists of the real entries at its positions. -/
theorem chunk_coe (z : Fin 32000 → EReal) (r : Fin 32000 → ℝ) (hr : ∀ v, z v = (r v : EReal)) (j : ℕ)
    (u : Fin 256) : chunk z j u = ((ent r (256 * j + u.val) : ℝ) : EReal) := by
  unfold chunk ent
  by_cases h : 256 * j + u.val < 32000
  · rw [dif_pos h, dif_pos h, hr]
  · rw [dif_neg h, dif_neg h, EReal.coe_zero]

/-- The first chunk's update, from (−∞, 0): the factor exp (−∞ − c) is 0 and kills the (zero) old sum. -/
theorem onlStep_bot (y : Fin 256 → EReal) (s : Fin 256 → ℝ) (c : ℝ) (hy : ∀ u, y u = (s u : EReal))
    (hc : cmax y = (c : EReal)) :
    onlStep (⊥, 0) y = ((c : EReal), ((∑ u, Real.exp (s u - c) : ℝ) : EReal)) := by
  unfold onlStep
  simp only [hc, max_bot_left, EReal.bot_sub, Ideal.exp_bot, mul_zero, zero_add, hy, ← EReal.coe_sub,
    Ideal.exp_coe, ← coe_sum]

/-- A later chunk's update of a real pair is the real update. -/
theorem onlStep_coe (M L : ℝ) (y : Fin 256 → EReal) (s : Fin 256 → ℝ) (c : ℝ) (hy : ∀ u, y u = (s u : EReal))
    (hc : cmax y = (c : EReal)) :
    onlStep ((M : EReal), (L : EReal)) y
      = (((max M c : ℝ) : EReal),
          ((Real.exp (M - max M c) * L + ∑ u, Real.exp (s u - max M c) : ℝ) : EReal)) := by
  unfold onlStep
  simp only [hc, ← coe_max', hy, ← EReal.coe_sub, Ideal.exp_coe, ← EReal.coe_mul, ← coe_sum, ← EReal.coe_add]

/-- A chunk's sum of exponentials, written over positions 0 … 255. -/
theorem chunk_sum (r : Fin 32000 → ℝ) (n : ℕ) (M : ℝ) :
    ∑ u : Fin 256, Real.exp (ent r (n + u.val) - M) = ∑ i ∈ Finset.range 256, Real.exp (ent r (n + i) - M) :=
  Fin.sum_univ_eq_sum_range (fun i => Real.exp (ent r (n + i) - M)) 256

/-- Moving the reference point of a sum of exponentials from M to M' multiplies it by exp (M − M'); the next 256
    terms then extend the sum. -/
theorem rescale (f : ℕ → ℝ) (n : ℕ) (M M' : ℝ) :
    Real.exp (M - M') * ∑ i ∈ Finset.range n, Real.exp (f i - M)
        + ∑ i ∈ Finset.range 256, Real.exp (f (n + i) - M')
      = ∑ i ∈ Finset.range (n + 256), Real.exp (f i - M') := by
  rw [Finset.sum_range_add (fun i => Real.exp (f i - M')) n 256, Finset.mul_sum]
  congr 1
  refine Finset.sum_congr rfl fun i _ => ?_
  rw [← Real.exp_add]
  congr 1
  ring

/-- The invariant of the walk over the chunks. -/
theorem onl_inv (z : Fin 32000 → EReal) (r : Fin 32000 → ℝ) (hr : ∀ v, z v = (r v : EReal)) (j : ℕ) :
    ∃ M : ℝ,
      onl z j = ((M : EReal), ((∑ i ∈ Finset.range (256 * (j + 1)), Real.exp (ent r i - M) : ℝ) : EReal))
        ∧ (∀ i, i < 256 * (j + 1) → ent r i ≤ M) ∧ ∃ i, i < 256 * (j + 1) ∧ ent r i = M := by
  induction j with
  | zero =>
    obtain ⟨c, hc, hcle, u₀, hu₀⟩ :=
      fold_max_coe (chunk z 0) (fun u => ent r (256 * 0 + u.val)) (chunk_coe z r hr 0)
    refine ⟨c, ?_, ?_, ?_⟩
    · show onlStep (⊥, 0) (chunk z 0) = _
      rw [onlStep_bot _ _ c (chunk_coe z r hr 0) hc, chunk_sum]
      have e : ∀ i : ℕ, 256 * 0 + i = i := fun i => by omega
      simp only [e]
    · intro i hi
      have hu : i < 256 := by omega
      have := hcle ⟨i, hu⟩
      simp only at this
      rwa [show 256 * 0 + i = i by omega] at this
    · refine ⟨256 * 0 + u₀.val, ?_, hu₀⟩
      have := u₀.isLt
      omega
  | succ j ih =>
    obtain ⟨M, hM, hle, i₀, hi₀, hi₀M⟩ := ih
    obtain ⟨c, hc, hcle, u₀, hu₀⟩ :=
      fold_max_coe (chunk z (j + 1)) (fun u => ent r (256 * (j + 1) + u.val)) (chunk_coe z r hr (j + 1))
    refine ⟨max M c, ?_, ?_, ?_⟩
    · show onlStep (onl z j) (chunk z (j + 1)) = _
      rw [hM, onlStep_coe M _ _ _ c (chunk_coe z r hr (j + 1)) hc, chunk_sum, rescale]
      have e : 256 * (j + 1) + 256 = 256 * (j + 1 + 1) := by ring
      rw [e]
    · intro i hi
      by_cases h : i < 256 * (j + 1)
      · exact (hle i h).trans (le_max_left _ _)
      · have hu : i - 256 * (j + 1) < 256 := by omega
        have := hcle ⟨i - 256 * (j + 1), hu⟩
        simp only at this
        rw [show 256 * (j + 1) + (i - 256 * (j + 1)) = i by omega] at this
        exact this.trans (le_max_right _ _)
    · rcases le_total M c with h | h
      · refine ⟨256 * (j + 1) + u₀.val, ?_, ?_⟩
        · have := u₀.isLt
          omega
        · rw [max_eq_right h]
          exact hu₀
      · refine ⟨i₀, by omega, ?_⟩
        rw [max_eq_left h]
        exact hi₀M

/-- After the last chunk: the running maximum is the row's maximum, the running sum is the full sum of exponentials
    relative to it, and that sum is positive. -/
theorem row_facts (z : Fin 32000 → EReal) (r : Fin 32000 → ℝ) (hr : ∀ v, z v = (r v : EReal)) :
    ∃ M L : ℝ, 0 < L ∧ onl z 124 = ((M : EReal), (L : EReal)) ∧ rowMax z = (M : EReal)
      ∧ ∑ v', Ideal.exp (z v' - rowMax z) = (L : EReal) := by
  obtain ⟨M, hM, hle, i₀, hi₀, hi₀M⟩ := onl_inv z r hr 124
  have e : 256 * (124 + 1) = 32000 := by norm_num
  rw [e] at hM hle hi₀
  haveI : Nonempty (Fin 32000) := ⟨⟨0, by norm_num⟩⟩
  obtain ⟨μ, hμ, hμle, v₀, hv₀⟩ := fold_max_coe z r hr
  have hMμ : μ = M := by
    apply le_antisymm
    · rw [← hv₀, ← ent_val r v₀]
      exact hle _ v₀.isLt
    · rw [← hi₀M]
      exact (le_of_eq (ent_val r ⟨i₀, hi₀⟩)).trans (hμle _)
  have hrow : rowMax z = (M : EReal) := by
    unfold rowMax
    rw [hμ, max_bot_left, hMμ]
  refine ⟨M, ∑ i ∈ Finset.range 32000, Real.exp (ent r i - M), ?_, hM, hrow, ?_⟩
  · exact Finset.sum_pos (fun i _ => Real.exp_pos _) ⟨0, Finset.mem_range.mpr (by norm_num)⟩
  · rw [hrow, ← Fin.sum_univ_eq_sum_range (fun i => Real.exp (ent r i - M)) 32000, coe_sum]
    refine Finset.sum_congr rfl fun v' _ => ?_
    rw [hr v', ← EReal.coe_sub, Ideal.exp_coe, ent_val]

end Onl

/-- The reference's log-softmax of a row of real numbers is a real number. -/
theorem lsmR_real (z : Fin 32000 → EReal) (hz : ∀ v, ∃ r : ℝ, z v = (r : EReal)) (v : Fin 32000) :
    ∃ r : ℝ, lsmR z v = (r : EReal) := by
  choose r hr using hz
  obtain ⟨M, L, hL, -, hrow, hsum⟩ := Onl.row_facts z r hr
  refine ⟨(r v - M) - Real.log L, ?_⟩
  unfold lsmR
  rw [hsum, hrow, hr v, Ideal.log_coe, if_neg (not_le.mpr hL), ← EReal.coe_sub, ← EReal.coe_sub]

/-- On a row of real numbers the kernel's log-softmax is the reference's. -/
theorem lsmK_eq_lsmR (z : Fin 32000 → EReal) (hz : ∀ v, ∃ r : ℝ, z v = (r : EReal)) (v : Fin 32000) :
    lsmK z v = lsmR z v := by
  choose r hr using hz
  obtain ⟨M, L, hL, hM, hrow, hsum⟩ := Onl.row_facts z r hr
  unfold lsmK lseOnl lsmR
  rw [hsum, hrow, hM, hr v]
  show (r v : EReal) - ((M : EReal) + Ideal.log (L : EReal)) = ((r v : EReal) - (M : EReal)) - Ideal.log (L : EReal)
  rw [Ideal.log_coe, if_neg (not_le.mpr hL), ← EReal.coe_add, ← EReal.coe_sub, ← EReal.coe_sub, ← EReal.coe_sub]
  exact congrArg Real.toEReal (by ring)

end Cert.JSD

end
-- ==== Proof.MathLoss.lean ====
/-
  On real logits the loss summed row by row and chunk by chunk is the loss summed over all rows and columns at once.

  Three facts carry the argument. First, adding up a row chunk by chunk is adding up the row: after chunks 0 … j the
  accumulator is the sum of the first 256 (j + 1) entries, and 125 chunks reach all 32000; this uses only that addition
  on the extended reals is commutative and associative with 0 neutral, so it holds for any entries. Second, where the
  two log-softmax values are real numbers a and b, the mixture ½ eᵃ + ½ eᵇ is a positive real, its logarithm is a real
  number, and so every product and difference in one contribution is an operation on real numbers. Third, the
  embedding of the reals commutes with finite sums, so both totals are embeddings of real double sums, and over the
  reals  Σ Σ [(½ eᵃ)(a − m) + (½ eᵇ)(b − m)] = ½ Σ Σ eᵃ (a − m) + ½ Σ Σ eᵇ (b − m)  by distributivity. The final
  division by 4096 is the same function applied to equal arguments.
-/
import proofs.«126184_j41180146434370_1_alg».proof.Proof.Model
import proofs.«126184_j41180146434370_1_alg».proof.Proof.MathLsm
import Mathlib.Algebra.BigOperators.Fin
import Mathlib.Algebra.BigOperators.Group.Finset.Basic
import Mathlib.Algebra.BigOperators.Ring.Finset
import Mathlib.Data.EReal.Operations
import Mathlib.Analysis.SpecialFunctions.Log.Basic

noncomputable section

namespace Cert.JSD

open Idealize.ShloMosaic

namespace Loss

/-- The embedding of the reals commutes with finite sums. -/
theorem sumCoe {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row read as a sequence on the natural numbers, zero past its end. -/
def rowSeq (c : Fin 32000 → EReal) (i : ℕ) : EReal := if h : i < 32000 then c ⟨i, h⟩ else 0

/-- The sum of chunk `j` is the sum of the 256 consecutive entries from position `256 j`. -/
theorem chunkSeq (c : Fin 32000 → EReal) (j : ℕ) :
    ∑ u, chunk c j u = ∑ k ∈ Finset.range 256, Loss.rowSeq c (256 * j + k) := by
  rw [Finset.sum_range]; rfl

/-- After chunks 0 … j the accumulator holds the sum of the first `256 (j + 1)` entries. -/
theorem accSeq (c : Fin 32000 → EReal) (j : ℕ) :
    accK c j = ∑ i ∈ Finset.range (256 * (j + 1)), Loss.rowSeq c i := by
  induction j with
  | zero =>
    rw [accK, zero_add, Loss.chunkSeq]
    simp only [Nat.mul_zero, Nat.zero_add, Nat.mul_one]
  | succ j ih =>
    rw [accK, ih, Loss.chunkSeq, Nat.mul_succ 256 (j + 1), Finset.sum_range_add]

/-- 125 chunks of 256 exhaust the row: the accumulator ends at the sum of the whole row. -/
theorem accAll (c : Fin 32000 → EReal) : accK c 124 = ∑ v, c v := by
  rw [Loss.accSeq, show 256 * (124 + 1) = 32000 from rfl, Finset.sum_range]
  refine Finset.sum_congr rfl (fun v _ => ?_)
  unfold Loss.rowSeq
  rw [dif_pos v.isLt]

/-- log (½ eᵃ + ½ eᵇ) on the reals. -/
def mixLog (a b : ℝ) : ℝ := Real.log (1 / 2 * Real.exp a + 1 / 2 * Real.exp b)

/-- The log of the mixture of two real log-probabilities is that real number: the mixture is positive. -/
theorem logMixReal (a b : ℝ) : logMix (a : EReal) (b : EReal) = ((Loss.mixLog a b : ℝ) : EReal) := by
  have hpos : 0 < 1 / 2 * Real.exp a + 1 / 2 * Real.exp b := by positivity
  unfold logMix half Loss.mixLog
  rw [Ideal.exp_coe, Ideal.exp_coe, ← EReal.coe_mul, ← EReal.coe_mul, ← EReal.coe_add, Ideal.log_coe,
    if_neg (not_le.mpr hpos)]

/-- The kernel's contribution at real log-probabilities, as a real number. -/
theorem contribReal (a b : ℝ) :
    contribK (a : EReal) (b : EReal)
      = ((1 / 2 * Real.exp a * (a - Loss.mixLog a b)
          + 1 / 2 * Real.exp b * (b - Loss.mixLog a b) : ℝ) : EReal) := by
  unfold contribK
  rw [Loss.logMixReal]
  unfold half
  rw [Ideal.exp_coe, Ideal.exp_coe, ← EReal.coe_sub, ← EReal.coe_sub, ← EReal.coe_mul, ← EReal.coe_mul,
    ← EReal.coe_mul, ← EReal.coe_mul, ← EReal.coe_add]

/-- One summand of the reference at real log-probabilities, as a real number. -/
theorem refTermReal (x a b : ℝ) :
    Ideal.exp (x : EReal) * ((x : EReal) - logMix (a : EReal) (b : EReal))
      = ((Real.exp x * (x - Loss.mixLog a b) : ℝ) : EReal) := by
  rw [Loss.logMixReal, Ideal.exp_coe, ← EReal.coe_sub, ← EReal.coe_mul]

end Loss

/-- The kernel's grouping of the loss equals the reference's, where every logit is a real number. -/
theorem lossK_eq_lossR (S T : Fin 4096 → Fin 32000 → EReal)
    (hS : ∀ n v, ∃ r : ℝ, S n v = (r : EReal)) (hT : ∀ n v, ∃ r : ℝ, T n v = (r : EReal)) :
    lossK S T = lossR S T := by
  -- real values of the teacher's and the student's log-softmax
  choose p hp using fun n v => lsmR_real (T n) (hT n) v
  choose q hq using fun n v => lsmR_real (S n) (hS n) v
  have hKT : ∀ n v, lsmK (T n) v = (p n v : EReal) := fun n v => by rw [lsmK_eq_lsmR _ (hT n), hp]
  have hKS : ∀ n v, lsmK (S n) v = (q n v : EReal) := fun n v => by rw [lsmK_eq_lsmR _ (hS n), hq]
  -- the kernel's total, as a real number
  have hK : (∑ n, accK (fun v => contribK (lsmK (T n) v) (lsmK (S n) v)) 124)
      = ((∑ n, ∑ v, (1 / 2 * Real.exp (p n v) * (p n v - Loss.mixLog (p n v) (q n v))
          + 1 / 2 * Real.exp (q n v) * (q n v - Loss.mixLog (p n v) (q n v))) : ℝ) : EReal) := by
    rw [Loss.sumCoe]
    refine Finset.sum_congr rfl (fun n _ => ?_)
    rw [Loss.accAll, Loss.sumCoe]
    refine Finset.sum_congr rfl (fun v _ => ?_)
    rw [hKT, hKS, Loss.contribReal]
  -- the reference's two totals, as real numbers
  have hRT : (∑ n, ∑ v, Ideal.exp (lsmR (T n) v) * (lsmR (T n) v - logMix (lsmR (T n) v) (lsmR (S n) v)))
      = ((∑ n, ∑ v, Real.exp (p n v) * (p n v - Loss.mixLog (p n v) (q n v)) : ℝ) : EReal) := by
    rw [Loss.sumCoe]
    refine Finset.sum_congr rfl (fun n _ => ?_)
    rw [Loss.sumCoe]
    refine Finset.sum_congr rfl (fun v _ => ?_)
    rw [hp, hq, Loss.refTermReal]
  have hRS : (∑ n, ∑ v, Ideal.exp (lsmR (S n) v) * (lsmR (S n) v - logMix (lsmR (T n) v) (lsmR (S n) v)))
      = ((∑ n, ∑ v, Real.exp (q n v) * (q n v - Loss.mixLog (p n v) (q n v)) : ℝ) : EReal) := by
    rw [Loss.sumCoe]
    refine Finset.sum_congr rfl (fun n _ => ?_)
    rw [Loss.sumCoe]
    refine Finset.sum_congr rfl (fun v _ => ?_)
    rw [hp, hq, Loss.refTermReal]
  unfold lossK lossR
  rw [hK, hRT, hRS]
  unfold half
  rw [← EReal.coe_mul, ← EReal.coe_mul, ← EReal.coe_add]
  -- both sides divide the same real number by 4096
  refine congrArg (fun x : ℝ => Ideal.div (x : EReal) ((4096 : ℝ) : EReal)) ?_
  rw [Finset.mul_sum, Finset.mul_sum, ← Finset.sum_add_distrib]
  refine Finset.sum_congr rfl (fun n _ => ?_)
  rw [Finset.mul_sum, Finset.mul_sum, ← Finset.sum_add_distrib]
  refine Finset.sum_congr rfl (fun v _ => ?_)
  ring

end Cert.JSD

end
-- ==== Proof.Finite.lean ====
/-
  Under the precondition every entry of the four input arrays is a real number, and so is every logit: a logit is a
  finite sum of products of real entries, divided by 1.

  The precondition is four conjoined all-reductions of "|x| < +∞"; on the extended reals |x| = max x (−x) is +∞ exactly at
  the two infinities, so an entry that passes is the coercion of a real number.
-/
import proofs.«126184_j41180146434370_1_alg».proof.Defs
import proofs.«126184_j41180146434370_1_alg».proof.Proof.Gen.Pre_finite_inputs
import proofs.«126184_j41180146434370_1_alg».proof.Proof.Logits
import Idealize.ShloMosaic.Lib.ReduceAll
import Idealize.ShloMosaic.Lib.Affine
import Idealize.ShloMosaic.Lib.ValueIdx
import Idealize.ShloMosaic.PureOps.Ideal.Laws

noncomputable section

namespace Cert.Proof.Finite

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  induction x using EReal.rec with
  | bot => exfalso; simp [Ideal.cmpf_def, Ideal.absf_def, Ideal.cmp, Ideal.ofBits, Ideal.ieee] at h
  | coe r => exact ⟨r, rfl⟩
  | top => exfalso; simp [Ideal.cmpf_def, Ideal.absf_def, Ideal.cmp, Ideal.ofBits, Ideal.ieee] at h

variable [Facts]

/-- The precondition read entry by entry: each of the four arrays holds real numbers only. -/
theorem pre_real (a0 a1 : FVec Ideal S4096x2048 .f32) (a2 a3 : FVec Ideal S32000x2048 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [fn, fn_part1] at h0
  simp only [Idealize.ShloMosaic.andi, IntOp.andi_eq_one] at h0
  obtain ⟨⟨⟨e0, e1⟩, e2⟩, e3⟩ := h0
  exact ⟨fun i => real_of_abs_lt _ (Host.reduce_andi_all _ _ _ _ ix0 e0 i),
    fun i => real_of_abs_lt _ (Host.reduce_andi_all _ _ _ _ ix0 e1 i),
    fun i => real_of_abs_lt _ (Host.reduce_andi_all _ _ _ _ ix0 e2 i),
    fun i => real_of_abs_lt _ (Host.reduce_andi_all _ _ _ _ ix0 e3 i)⟩

/-- A finite sum of coercions of reals is the coercion of the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A logit of real inputs against real weights is a real number. -/
theorem logitRow_real (x : (⟨2, ![4096, 2048]⟩ : Shape).Idx → EReal) (w : (⟨2, ![32000, 2048]⟩ : Shape).Idx → EReal)
    (hx : ∀ i, ∃ r : ℝ, x i = (r : EReal)) (hw : ∀ i, ∃ r : ℝ, w i = (r : EReal)) (n : Fin 4096) (v : Fin 32000) :
    ∃ r : ℝ, Cert.JSD.logitRow x w n v = (r : EReal) := by
  choose rx hrx using hx
  choose rw' hrw using hw
  refine ⟨(∑ k : Fin 2048, rx (ix2 n k) * rw' (ix2 v k)) * (1 / 1 : ℝ), ?_⟩
  unfold Cert.JSD.logitRow
  rw [Ideal.div_coe (by norm_num : (1 : ℝ) ≠ 0)]
  simp only [hrx, hrw, ← EReal.coe_mul, coe_sum]

end Cert.Proof.Finite

end
-- ==== Proof.lean ====
/-
  The certificate assembled.

  Both pallas_calls walk 8 token tiles by 125 vocabulary chunks. The first keeps, per token, a running maximum and a
  running sum of exponentials of the student's and of the teacher's logits and leaves each row's log-sum-exp; the second
  forms log q = student logit − its log-sum-exp, log p the teacher's, m = ½p + ½q, and adds up
  (½p)(log p − log m) + (½q)(log q − log m) chunk by chunk; the host sums the 4096 rows and divides by 4096. The reference
  takes each row's log-softmax with the row maximum at once and forms ½ Σ p (log p − log m) + ½ Σ q (log q − log m) over
  all rows and columns, over 4096. Under the precondition every input entry, hence every logit, is a real number, and
  on real logits the two are one number.

  The three frames: each kernel program's from its two regions' bodies (the same text at both float instances), the
  reference's from its run. The idealization rewrote nothing, so the fourth conjunct is trivial. The fifth puts the kernel
  program's result (the host tail over what region 1 left, which is stated over what region 0 left) and the reference's
  result (its last stage) side by side as the two groupings of the loss over the same logit rows.
-/
import proofs.«126184_j41180146434370_1_alg».proof.Defs
import proofs.«126184_j41180146434370_1_alg».proof.Proof.RefFrame
import proofs.«126184_j41180146434370_1_alg».proof.Proof.RefFold
import proofs.«126184_j41180146434370_1_alg».proof.Proof.RefVal
import proofs.«126184_j41180146434370_1_alg».proof.Proof.R0Body
import proofs.«126184_j41180146434370_1_alg».proof.Proof.R1Body
import proofs.«126184_j41180146434370_1_alg».proof.Proof.R0BodyB
import proofs.«126184_j41180146434370_1_alg».proof.Proof.R1BodyB
import proofs.«126184_j41180146434370_1_alg».proof.Proof.Launch
import proofs.«126184_j41180146434370_1_alg».proof.Proof.LaunchB
import proofs.«126184_j41180146434370_1_alg».proof.Proof.Val0
import proofs.«126184_j41180146434370_1_alg».proof.Proof.Val1
import proofs.«126184_j41180146434370_1_alg».proof.Proof.Tail
import proofs.«126184_j41180146434370_1_alg».proof.Proof.MathLoss
import proofs.«126184_j41180146434370_1_alg».proof.Proof.Finite

noncomputable section

namespace Cert.Proof.Assembly

open Idealize.ShloMosaic Idealize.ShloMosaic.TcCoe Idealize.ShloMosaic.ValueIdx Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Gen.frame_of_bodies (F := Bits) m ρ
    (fun V c => Cert.Kernel.Gen.body_obligation0 V c) (fun V c => Cert.Kernel.Gen.hin0 V c) (fun V c => Cert.Kernel.Gen.hout0 V c)
    (fun V c => Cert.Kernel.Gen.body_obligation1 V c) (fun V c => Cert.Kernel.Gen.hin1 V c) (fun V c => Cert.Kernel.Gen.hout1 V c)

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame_of_bodies (F := Ideal) m ρ
    (fun V c => Cert.KernelIdeal.Gen.body_obligation0 V c) (fun V c => Cert.KernelIdeal.Gen.hin0 V c) (fun V c => Cert.KernelIdeal.Gen.hout0 V c)
    (fun V c => Cert.KernelIdeal.Gen.body_obligation1 V c) (fun V c => Cert.KernelIdeal.Gen.hin1 V c) (fun V c => Cert.KernelIdeal.Gen.hout1 V c)

section Value

open Cert.KernelIdeal Cert.KernelIdeal.Gen

variable (m : (ℓ : Loc Cert.KernelIdeal.nD Cert.KernelIdeal.τ Cert.KernelIdeal.sig) → Buf (Elt Ideal) ℓ)

/-- The student logit rows of the launch memory, and the teacher's. -/
abbrev rowsS (c : Dev nD) : Fin 4096 → Fin 32000 → EReal :=
  fun n => Cert.JSD.logitRow (m ((c.tc : Thread nD τ).loc main_arg0)) (m ((c.tc : Thread nD τ).loc main_arg2)) n
abbrev rowsT (c : Dev nD) : Fin 4096 → Fin 32000 → EReal :=
  fun n => Cert.JSD.logitRow (m ((c.tc : Thread nD τ).loc main_arg1)) (m ((c.tc : Thread nD τ).loc main_arg3)) n

/-- The kernel program's result is the kernel's grouping of the loss over the launch memory's logit rows. -/
theorem result_lossK (c : Dev nD) :
    resultK (F := Ideal) m c = fun _ => Cert.JSD.lossK (rowsS m c) (rowsT m c) := by
  have hs : V₁ (F := Ideal) m c main_v0_0 = fun i : S4096x1.Idx =>
      Cert.JSD.lseOnl (Cert.JSD.logitRow (V₁ m c main_arg0) (V₁ m c main_arg2) ⟨(i 0).val, (i 0).isLt⟩) := by
    rw [V₁_v0_0, lse_s_final (V₀ m) c, V₁_arg0, V₁_arg2]; rfl
  have ht : V₁ (F := Ideal) m c main_v0_1 = fun i : S4096x1.Idx =>
      Cert.JSD.lseOnl (Cert.JSD.logitRow (V₁ m c main_arg1) (V₁ m c main_arg3) ⟨(i 0).val, (i 0).isLt⟩) := by
    rw [V₁_v0_1, lse_t_final (V₀ m) c, V₁_arg1, V₁_arg3]; rfl
  rw [resultK_eq, tail_eq, loss_rows_final (V₁ m) c hs ht, V₁_arg0, V₁_arg1, V₁_arg2, V₁_arg3]
  rfl

end Value

/-- At the ideal instance the two programs, run from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.resultK (F := Ideal) m c, ?_, ?_⟩
  · exact Cert.KernelIdeal.Gen.run_of_bodies (F := Ideal) m ρ
      (fun V c => Cert.KernelIdeal.Gen.body_obligation0 V c) (fun V c => Cert.KernelIdeal.Gen.hin0 V c) (fun V c => Cert.KernelIdeal.Gen.hout0 V c)
      (fun V c => Cert.KernelIdeal.Gen.body_obligation1 V c) (fun V c => Cert.KernelIdeal.Gen.hin1 V c) (fun V c => Cert.KernelIdeal.Gen.hout1 V c)
  · refine (θ_run Cert.ReferenceIdeal.defs _ _).mono (fun _ h c => ⟨(h c).1.trans ?_, (h c).2⟩)
      (Cert.ReferenceIdeal.ValueP.run (F := Ideal) m' ρ')
    obtain ⟨r0, r1, r2, r3⟩ := Cert.Proof.Finite.pre_real _ _ _ _ (hpre c)
    rw [Cert.ReferenceIdeal.RefFold.fold_eq, (hagree c).1, (hagree c).2.1, (hagree c).2.2.1, (hagree c).2.2.2,
      Cert.ReferenceIdeal.RefValue.ref_value]
    refine Eq.trans ?_ (result_lossK m c).symm
    funext _
    exact (Cert.JSD.lossK_eq_lossR _ _ (fun n v => Cert.Proof.Finite.logitRow_real _ _ r0 r2 n v)
      (fun n v => Cert.Proof.Finite.logitRow_real _ _ r1 r3 n v)).symm

end Cert.Proof.Assembly

namespace Cert.Proof

/-- Everything the certificate claims. -/
theorem claim : Cert.Claim :=
  ⟨Cert.Kernel.Gen.facts, Cert.KernelIdeal.Gen.facts, Cert.ReferenceIdeal.Gen.facts, Cert.Pre_finite_inputs.Gen.facts,
    Assembly.frame_k, Assembly.frame_ki, RefSide.frame_ri, trivial, Assembly.algebraic⟩

end Cert.Proof

end
